-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x128 : Shape := ⟨2, ![640000, 128]⟩
abbrev S512x128 : Shape := ⟨2, ![512, 128]⟩
abbrev S100000 : Shape := ⟨1, ![100000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S512x128 : S_.BroadcastsInDim S512x128 (![] : Fin 0 → Fin S512x128.rank)
  reducesTo_S512x128_S_d0_1 : S512x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg4 : IVec S100000 32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S100000 32 := broadcastInDim S100000 ![] bcast_S_S100000 main_c_28
  let main_v75 : IVec S100000 1 := cmpi .sge main_arg4 main_v74
  let main_c_29 : IVec S_ 1 := constantI S_ 1 1#1
  let main_v76 : IVec S_ 1 := (fun x v => Host.reduce IntOp.andi x v reducesTo_S100000_S_d0 h_S_) main_v75 main_c_29
  let main_v77 : IVec S_ 1 := andi main_v73 main_v76
  let main_c_30 : IVec S_ 32 := constantI S_ 32 512#32
  let main_v78 : IVec S100000 32 := broadcastInDim S100000 ![] bcast_S_S100000 main_c_30
  let main_v79 : IVec S100000 1 := cmpi .slt main_arg4 main_v78
  let main_c_31 : IVec S_ 1 := constantI S_ 1 1#1
  let main_v80 : IVec S_ 1 := (fun x v => Host.reduce IntOp.andi x v reducesTo_S100000_S_d0 h_S_) main_v79 main_c_31
  let main_v81 : IVec S_ 1 := andi main_v77 main_v80
  main_v81

def fn_part3 {F : FTy → Type} [FloatOps F] (main_arg4 : IVec S100000 32) (main_arg13 : FVec F S128 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg16 main_v63 main_v67

def fn_part2 {F : FTy → Type} [FloatOps F] (main_arg4 : IVec S100000 32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg4 main_arg13 main_arg14 main_arg15 main_arg16 main_v48 main_v49 main_v50

def fn_part1 {F : FTy → Type} [FloatOps F] (main_arg4 : IVec S100000 32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg4 main_arg9 main_arg10 main_arg11 main_arg12 main_arg13 main_arg14 main_arg15 main_arg16 main_v33

def fn {F : FTy → Type} [FloatOps F] (main_arg0 : FVec F S100000x128 .f32) (main_arg1 : IVec S2x640000 32) (main_arg2 : FVec F S640000x128 .f32) (main_arg3 : FVec F S512x128 .f32) (main_arg4 : IVec S100000 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg4 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x640000 : Shape := ⟨2, ![2, 640000]⟩
abbrev S640000x128 : Shape := ⟨2, ![640000, 128]⟩
abbrev S512x128 : Shape := ⟨2, ![512, 128]⟩
abbrev S100000 : Shape := ⟨1, ![100000]⟩
abbrev S384x128 : Shape := ⟨2, ![384, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S25x1x128 : Shape := ⟨3, ![25, 1, 128]⟩
abbrev S4000x128 : Shape := ⟨2, ![4000, 128]⟩
abbrev S4000x1 : Shape := ⟨2, ![4000, 1]⟩
abbrev S1x1x128 : Shape := ⟨3, ![1, 1, 128]⟩
abbrev S4000x512 : Shape := ⟨2, ![4000, 512]⟩
abbrev S1x128 : Shape := ⟨2, ![1, 128]⟩
abbrev S20x1x128 : Shape := ⟨3, ![20, 1, 128]⟩
abbrev S5000x128 : Shape := ⟨2, ![5000, 128]⟩

abbrev nBuf : Space → Nat
  | .hbm => 109
  | .vmem => 54
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000x128, .f32⟩
  | .hbm, ⟨3, _⟩ => ⟨S512x128, .f32⟩
  | .hbm, ⟨4, _⟩ => ⟨S100000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x640000, .i32⟩
  | .hbm, ⟨18, _⟩ => ⟨S640000, .i32⟩
  | .hbm, ⟨19, _⟩ => ⟨S_, .f32⟩
  | .hbm, ⟨20, _⟩ => ⟨S100000x128, .f32⟩
  | .hbm, ⟨21, _⟩ => ⟨S640000x1, .i32⟩
  | .hbm, ⟨22, _⟩ => ⟨S100000x128, .f32⟩
  | .hbm, ⟨23, _⟩ => ⟨S_, .f32⟩
  | .hbm, ⟨24, _⟩ => ⟨S640000x1, .f32⟩
  | .hbm, ⟨25, _⟩ => ⟨S_, .f32⟩
  | .hbm, ⟨26, _⟩ => ⟨S100000x1, .f32⟩
  | .hbm, ⟨27, _⟩ => ⟨S640000x1, .i32⟩
  | .hbm, ⟨28, _⟩ => ⟨S100000x1, .f32⟩
  | .hbm, ⟨29, _⟩ => ⟨S_, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x1, .i32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S512x128, .f32⟩
  | .hbm, ⟨41, _⟩ => ⟨S512x128, .bf16⟩
  | .hbm, ⟨42, _⟩ => ⟨S100000x128, .bf16⟩
  | .hbm, ⟨43, _⟩ => ⟨S25x1x128, .f32⟩
  | .hbm, ⟨44, _⟩ => ⟨S25x1x128, .f32⟩
  | .hbm, ⟨45, _⟩ => ⟨S_, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S100000x128, .bf16⟩
  | .hbm, ⟨65, _⟩ => ⟨S20x1x128, .f32⟩
  | .hbm, ⟨66, _⟩ => ⟨S20x1x128, .f32⟩
  | .hbm, ⟨67, _⟩ => ⟨S_, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S100000x128, .f32⟩
  | .hbm, ⟨87, _⟩ => ⟨S20x1x128, .f32⟩
  | .hbm, ⟨88, _⟩ => ⟨S20x1x128, .f32⟩
  | .hbm, ⟨89, _⟩ => ⟨S_, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x1, .i32⟩
  | .local _ .vmem, ⟨7, _⟩ => ⟨S4000x1, .i32⟩
  | .local _ .vmem, ⟨8, _⟩ => ⟨S128x128, .f32⟩
  | .local _ .vmem, ⟨9, _⟩ => ⟨S128x128, .f32⟩
  | .local _ .vmem, ⟨10, _⟩ => ⟨S512x128, .bf16⟩
  | .local _ .vmem, ⟨11, _⟩ => ⟨S128, .f32⟩
  | .local _ .vmem, ⟨12, _⟩ => ⟨S4000x128, .bf16⟩
  | .local _ .vmem, ⟨13, _⟩ => ⟨S4000x128, .bf16⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S5000x128, .bf16⟩
  | .local _ .vmem, ⟨19, _⟩ => ⟨S5000x128, .bf16⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .bf16⟩
  | .local _ .vmem, ⟨27, _⟩ => ⟨S5000x128, .bf16⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S5000x128, .bf16⟩
  | .local _ .vmem, ⟨33, _⟩ => ⟨S5000x128, .bf16⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S1x1x128, .f32⟩
  | .local _ .vmem, ⟨43, _⟩ => ⟨S1x1x128, .f32⟩
  | .local _ .vmem, ⟨44, _⟩ => ⟨S1x1x128, .f32⟩
  | .local _ .vmem, ⟨45, _⟩ => ⟨S1x1x128, .f32⟩
  | .local _ .vmem, ⟨46, _⟩ => ⟨S5000x128, .f32⟩
  | .local _ .vmem, ⟨47, _⟩ => ⟨S5000x128, .f32⟩
  | .local _ .vmem, ⟨48, _⟩ => ⟨S128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_cst_4 : Ref sig .tc := ⟨.hbm, 45, rfl⟩
abbrev main_v19 : Ref sig .tc := ⟨.hbm, 46, rfl⟩
abbrev main_cst_5 : Ref sig .tc := ⟨.hbm, 47, rfl⟩
abbrev main_v20 : Ref sig .tc := ⟨.hbm, 48, rfl⟩
abbrev main_cst_6 : Ref sig .tc := ⟨.hbm, 49, rfl⟩
abbrev main_v21 : Ref sig .tc := ⟨.hbm, 50, rfl⟩
abbrev main_v22 : Ref sig .tc := ⟨.hbm, 51, rfl⟩
abbrev main_cst_7 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_8 : Ref sig .tc := ⟨.hbm, 57, rfl⟩
abbrev main_v27 : Ref sig .tc := ⟨.hbm, 58, rfl⟩
abbrev main_v28 : Ref sig .tc := ⟨.hbm, 59, rfl⟩
abbrev main_cst_9 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32_0 : Ref sig .tc := ⟨.hbm, 64, rfl⟩
abbrev main_v32_1 : Ref sig .tc := ⟨.hbm, 65, rfl⟩
abbrev main_v32_2 : Ref sig .tc := ⟨.hbm, 66, rfl⟩
abbrev main_cst_10 : Ref sig .tc := ⟨.hbm, 67, rfl⟩
abbrev main_v33 : Ref sig .tc := ⟨.hbm, 68, rfl⟩
abbrev main_cst_11 : Ref sig .tc := ⟨.hbm, 69, rfl⟩
abbrev main_v34 : Ref sig .tc := ⟨.hbm, 70, rfl⟩
abbrev main_cst_12 : Ref sig .tc := ⟨.hbm, 71, rfl⟩
abbrev main_v35 : Ref sig .tc := ⟨.hbm, 72, rfl⟩
abbrev main_v36 : Ref sig .tc := ⟨.hbm, 73, rfl⟩
abbrev main_cst_13 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_14 : Ref sig .tc := ⟨.hbm, 79, rfl⟩
abbrev main_v41 : Ref sig .tc := ⟨.hbm, 80, rfl⟩
abbrev main_v42 : Ref sig .tc := ⟨.hbm, 81, rfl⟩
abbrev main_cst_15 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46_0 : Ref sig .tc := ⟨.hbm, 86, rfl⟩
abbrev main_v46_1 : Ref sig .tc := ⟨.hbm, 87, rfl⟩
abbrev main_v46_2 : Ref sig .tc := ⟨.hbm, 88, rfl⟩
abbrev main_cst_16 : Ref sig .tc := ⟨.hbm, 89, rfl⟩
abbrev main_v47 : Ref sig .tc := ⟨.hbm, 90, rfl⟩
abbrev main_cst_17 : Ref sig .tc := ⟨.hbm, 91, rfl⟩
abbrev main_v48 : Ref sig .tc := ⟨.hbm, 92, rfl⟩
abbrev main_cst_18 : Ref sig .tc := ⟨.hbm, 93, rfl⟩
abbrev main_v49 : Ref sig .tc := ⟨.hbm, 94, rfl⟩
abbrev main_v50 : Ref sig .tc := ⟨.hbm, 95, rfl⟩
abbrev main_cst_19 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_20 : Ref sig .tc := ⟨.hbm, 101, rfl⟩
abbrev main_v55 : Ref sig .tc := ⟨.hbm, 102, rfl⟩
abbrev main_v56 : Ref sig .tc := ⟨.hbm, 103, rfl⟩
abbrev main_cst_21 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc2_stg8_0 : Ref sig .tc := ⟨.vmem, 42, rfl⟩
abbrev cc2_stg8_1 : Ref sig .tc := ⟨.vmem, 43, rfl⟩
abbrev cc2_stg9_0 : Ref sig .tc := ⟨.vmem, 44, rfl⟩
abbrev cc2_stg9_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem7_1 : DmaSem sig := 41
abbrev cc2_sem8_0 : DmaSem sig := 42
abbrev cc2_sem8_1 : DmaSem sig := 43
abbrev cc2_sem9_0 : DmaSem sig := 44
abbrev cc2_sem9_1 : DmaSem sig := 45
abbrev cc3_sem0_0 : DmaSem sig := 46
abbrev cc3_sem0_1 : DmaSem sig := 47
abbrev cc3_sem1_0 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem5_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x640000_S1x640000_0_0 : S2x640000.Slices ![0, 0] S1x640000
  shapeCasts_S1x640000_S640000 : S1x640000.ShapeCasts S640000
  bcast_S_S100000x128 : S_.BroadcastsInDim S100000x128 (![] : Fin 0 → Fin S100000x128.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000_S100000x1_0 : S100000.BroadcastsInDim S100000x1 (![0] : Fin 1 → Fin S100000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  iota_S4000x512_d1_w32 : S4000x512.Iotas .tc 32 [1]
  broadcasts_S4000x1_S4000x512 : S4000x1.Broadcasts S4000x512
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S25x1x128_S128_d0_1 : S25x1x128.ReducesTo [0, 1] S128
  h_S_ : 0 < S_.numel
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128_S128 : S128.ShapeCasts S128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  reduces_S5000x128_S128 : S5000x128.Reduces [0] S128
  reducesTo_S20x1x128_S128_d0_1 : S20x1x128.ReducesTo [0, 1] S128
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  dot_S512x128_S128x128_S512x128_1_0_0_1_n_n_wf : DotDims.WF S512x128 S128x128 S512x128 [1] [0] [0] [1] [] []
  dot_S4000x128_S128x128_S4000x128_1_0_0_1_n_n_wf : DotDims.WF S4000x128 S128x128 S4000x128 [1] [0] [0] [1] [] []
  dot_S4000x512_S512x128_S4000x128_1_0_0_1_n_n_wf : DotDims.WF S4000x512 S512x128 S4000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .i32 = 32 ∨ (Rect.block (s := S100000x1) S4000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .bf16 = 32 ∨ (Rect.block (s := S512x128) S512x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .bf16 = 32 ∨ (Rect.block (s := S100000x128) S4000x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S25x1x128.size a
  hwx0_9 : ∀ i : grid0.Coords, EltTy.bits .f32 = 32 ∨ (Rect.block (s := S25x1x128) S1x1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S25x1x128.size a
  hwx0_10 : ∀ i : grid0.Coords, EltTy.bits .f32 = 32 ∨ (Rect.block (s := S25x1x128) S1x1x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .bf16 = 32 ∨ (Rect.block (s := S100000x128) S5000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x128.size a ≤ S20x1x128.size a
  hwx1_8 : ∀ i : grid1.Coords, EltTy.bits .f32 = 32 ∨ (Rect.block (s := S20x1x128) S1x1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S20x1x128.size a
  hwx1_9 : ∀ i : grid1.Coords, EltTy.bits .f32 = 32 ∨ (Rect.block (s := S20x1x128) S1x1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S20x1x128.size a
  hwx2_8 : ∀ i : grid2.Coords, EltTy.bits .f32 = 32 ∨ (Rect.block (s := S20x1x128) S1x1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x128.size a ≤ S20x1x128.size a
  hwx2_9 : ∀ i : grid2.Coords, EltTy.bits .f32 = 32 ∨ (Rect.block (s := S20x1x128) S1x1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S512x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S4000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S1x1x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v18_2) S1x1x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32_1) S1x1x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v32_2) S1x1x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v32_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_1) S1x1x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v46_2) S1x1x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v46_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x128 : Shape := ⟨2, ![640000, 128]⟩
abbrev S512x128 : Shape := ⟨2, ![512, 128]⟩
abbrev S100000 : Shape := ⟨1, ![100000]⟩
abbrev S384x128 : Shape := ⟨2, ![384, 128]⟩
abbrev S128 : Shape := ⟨1, ![128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S100000x1 : Shape := ⟨2, ![100000, 1]⟩
abbrev S100000x384 : Shape := ⟨2, ![100000, 384]⟩
abbrev S1x128 : Shape := ⟨2, ![1, 128]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x640000, .i32⟩
  | 2 => ⟨S640000x128, .f32⟩
  | 3 => ⟨S512x128, .f32⟩
  | 4 => ⟨S100000, .i32⟩
  | 5 => ⟨S384x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S1x640000, .i32⟩
  | 18 => ⟨S640000, .i32⟩
  | 19 => ⟨S_, .f32⟩
  | 20 => ⟨S100000x128, .f32⟩
  | 21 => ⟨S640000x1, .i32⟩
  | 22 => ⟨S100000x128, .f32⟩
  | 23 => ⟨S_, .f32⟩
  | 24 => ⟨S640000x1, .f32⟩
  | 25 => ⟨S_, .f32⟩
  | 26 => ⟨S100000x1, .f32⟩
  | 27 => ⟨S640000x1, .i32⟩
  | 28 => ⟨S100000x1, .f32⟩
  | 29 => ⟨S_, .f32⟩
  | 30 => ⟨S_, .f32⟩
  | 31 => ⟨S100000x1, .f32⟩
  | 32 => ⟨S100000x1, .f32⟩
  | 33 => ⟨S100000x128, .f32⟩
  | 34 => ⟨S100000x128, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000x128, .f32⟩
  | 44 => ⟨S100000x384, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S100000x128, .f32⟩
  | 39 => ⟨S100000x128, .f32⟩
  | 40 => ⟨S100000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call1_cst : Ref sig .tc := ⟨.hbm, 49, rfl⟩
abbrev main_call1_v0 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_c_6 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_cst_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_cst_1 : Ref sig .tc := ⟨.hbm, 68, rfl⟩
abbrev main_call2_v8 : Ref sig .tc := ⟨.hbm, 69, rfl⟩
abbrev main_call2_cst_2 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_cst_3 : Ref sig .tc := ⟨.hbm, 74, rfl⟩
abbrev main_call2_v12 : Ref sig .tc := ⟨.hbm, 75, rfl⟩
abbrev main_call2_cst_4 : Ref sig .tc := ⟨.hbm, 76, rfl⟩
abbrev main_call2_call0_v0 : Ref sig .tc := ⟨.hbm, 77, rfl⟩
abbrev main_call2_call0_v1 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_7 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_call3_cst : Ref sig .tc := ⟨.hbm, 100, rfl⟩
abbrev main_call3_v0 : Ref sig .tc := ⟨.hbm, 101, rfl⟩
abbrev main_v48 : Ref sig .tc := ⟨.hbm, 102, rfl⟩
abbrev main_cst_8 : Ref sig .tc := ⟨.hbm, 103, rfl⟩
abbrev main_v49 : Ref sig .tc := ⟨.hbm, 104, rfl⟩
abbrev main_cst_9 : Ref sig .tc := ⟨.hbm, 105, rfl⟩
abbrev main_v50 : Ref sig .tc := ⟨.hbm, 106, rfl⟩
abbrev main_v51 : Ref sig .tc := ⟨.hbm, 107, rfl⟩
abbrev main_c_10 : Ref sig .tc := ⟨.hbm, 108, rfl⟩
abbrev main_call4_cst : Ref sig .tc := ⟨.hbm, 109, rfl⟩
abbrev main_call4_v0 : Ref sig .tc := ⟨.hbm, 110, rfl⟩
abbrev main_call4_v1 : Ref sig .tc := ⟨.hbm, 111, rfl⟩
abbrev main_call4_cst_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_cst_1 : Ref sig .tc := ⟨.hbm, 119, rfl⟩
abbrev main_call4_v8 : Ref sig .tc := ⟨.hbm, 120, rfl⟩
abbrev main_call4_cst_2 : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_cst_3 : Ref sig .tc := ⟨.hbm, 125, rfl⟩
abbrev main_call4_v12 : Ref sig .tc := ⟨.hbm, 126, rfl⟩
abbrev main_call4_cst_4 : Ref sig .tc := ⟨.hbm, 127, rfl⟩
abbrev main_call4_call0_v0 : Ref sig .tc := ⟨.hbm, 128, rfl⟩
abbrev main_call4_call0_v1 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_11 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_call5_cst : Ref sig .tc := ⟨.hbm, 151, rfl⟩
abbrev main_call5_v0 : Ref sig .tc := ⟨.hbm, 152, rfl⟩
abbrev main_v72 : Ref sig .tc := ⟨.hbm, 153, rfl⟩
abbrev main_cst_12 : Ref sig .tc := ⟨.hbm, 154, rfl⟩
abbrev main_v73 : Ref sig .tc := ⟨.hbm, 155, rfl⟩
abbrev main_cst_13 : Ref sig .tc := ⟨.hbm, 156, rfl⟩
abbrev main_v74 : Ref sig .tc := ⟨.hbm, 157, rfl⟩
abbrev main_v75 : Ref sig .tc := ⟨.hbm, 158, rfl⟩
abbrev main_c_14 : Ref sig .tc := ⟨.hbm, 159, rfl⟩
abbrev main_call6_cst : Ref sig .tc := ⟨.hbm, 160, rfl⟩
abbrev main_call6_v0 : Ref sig .tc := ⟨.hbm, 161, rfl⟩
abbrev main_call6_v1 : Ref sig .tc := ⟨.hbm, 162, rfl⟩
abbrev main_call6_cst_0 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_v6 : Ref sig .tc := ⟨.hbm, 168, rfl⟩
abbrev main_call6_v7 : Ref sig .tc := ⟨.hbm, 169, rfl⟩
abbrev main_call6_cst_1 : Ref sig .tc := ⟨.hbm, 170, rfl⟩
abbrev main_call6_v8 : Ref sig .tc := ⟨.hbm, 171, rfl⟩
abbrev main_call6_cst_2 : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_cst_3 : Ref sig .tc := ⟨.hbm, 176, rfl⟩
abbrev main_call6_v12 : Ref sig .tc := ⟨.hbm, 177, rfl⟩
abbrev main_call6_cst_4 : Ref sig .tc := ⟨.hbm, 178, rfl⟩
abbrev main_call6_call0_v0 : Ref sig .tc := ⟨.hbm, 179, rfl⟩
abbrev main_call6_call0_v1 : Ref sig .tc := ⟨.hbm, 180, rfl⟩
abbrev main_v76 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_cst_15 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S100000x128 : S_.BroadcastsInDim S100000x128 (![] : Fin 0 → Fin S100000x128.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000x128_S640000x1_S640000x128_1_0_0_1_wf : ScatterDims.WF S100000x128 S640000x1 S640000x128 [1] [0] [0] 1
  scatter_S100000x1_S640000x1_S640000x1_1_0_0_1_wf : ScatterDims.WF S100000x1 S640000x1 S640000x1 [1] [0] [0] 1
  gather_S512x128_S100000x1_S100000x128_1_0_n_n_0_1_1128_wf : GatherDims.WF S512x128 S100000x1 S100000x128 [1] [0] [] [0] [] 1 ![1, 128]
  dot_S100000x384_S384x128_S100000x128_1_0_0_1_n_n_wf : DotDims.WF S100000x384 S384x128 S100000x128 [1] [0] [0] [1] [] []
  dot_S100000x128_S128x128_S100000x128_1_0_0_1_n_n_wf : DotDims.WF S100000x128 S128x128 S100000x128 [1] [0] [0] [1] [] []

variable [Facts₀]

def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics of the node model, over tables of extended reals indexed by plain finite types.

  A node's aggregated edge feature is the sum of the features of the edges that point at it, divided by the
  number of such edges (at least one).  Layer 0 multiplies the concatenation [x, aggregate, u(batch)] by a
  384 x 128 matrix, adds a bias and clamps at zero; written blockwise this is three 128-term contractions, and a
  row of u picked by a one-hot row of length 512 is the same row picked by its index.  Every later layer
  normalises each column by its mean and its variance over all 100000 rows and applies a 128 x 128 linear map,
  a bias and the clamp.  The variance appears in two forms: the mean of the squared deviations, and the mean of
  the squares minus the squared mean, clamped at zero; on real (finite) columns they are one number.
-/
import Idealize.ShloMosaic.PureOps.Ideal
import Idealize.ShloMosaic.Lib.ValueIdx

noncomputable section

namespace Cert.Spec

open Idealize.ShloMosaic

/-- Rows (nodes) and columns (features). -/
abbrev R : Nat := 100000
abbrev D : Nat := 128
/-- A table of extended reals, and a row of them. -/
abbrev Tab (n d : Nat) := Fin n → Fin d → EReal
abbrev Row (d : Nat) := Fin d → EReal

/-- The four float words both programs carry: the row count, the variance offset, zero and one. -/
def cN : EReal := Ideal.ofBits .f32 0x47C35000#32
def cEps : EReal := Ideal.ofBits .f32 0x3727C5AC#32
def cZero : EReal := Ideal.ofBits .f32 0x00000000#32
def cOne : EReal := Ideal.ofBits .f32 0x3F800000#32

/-- Every entry is a real number. -/
def Fin2 {n d : Nat} (t : Tab n d) : Prop := ∀ i j, ∃ r : ℝ, t i j = (r : EReal)
def Fin1 {d : Nat} (v : Row d) : Prop := ∀ j, ∃ r : ℝ, v j = (r : EReal)

/-! ## Edge aggregation -/

/-- The sum of the update rows sent to each destination row, on top of the zero word. -/
def segsum {E d : Nat} (dst : Fin E → ℤ) (upd : Tab E d) : Tab R d :=
  fun n j => cZero + ∑ e ∈ Finset.univ.filter (fun e : Fin E => dst e = (n.val : ℤ)), upd e j
/-- The number of update rows sent to each destination row, at least one. -/
def cnt {E : Nat} (dst : Fin E → ℤ) : Fin R → EReal :=
  fun n => max cOne (cZero + ∑ _e ∈ Finset.univ.filter (fun e : Fin E => dst e = (n.val : ℤ)), cOne)

/-! ## Layer 0 -/

/-- Three blocks side by side. -/
def cat3 (x ve ub : Tab R D) : Tab R 384 := fun n k =>
  if h : k.val < 128 then x n ⟨k.val, h⟩
  else if h2 : k.val < 256 then ve n ⟨k.val - 128, by show _ < 128; omega⟩
  else ub n ⟨k.val - 256, by show _ < 128; have := k.isLt; omega⟩
/-- Rows o .. o + 127 of the 384 x 128 weight matrix. -/
def wslice (W0 : Tab 384 D) (o : Nat) (ho : o + 128 ≤ 384) : Tab D D := fun k j => W0 ⟨o + k.val, by have : k.val < 128 := k.isLt; omega⟩ j
/-- Layer 0 before the clamp, as ONE 384-term contraction of the concatenated rows. -/
def z0R (cmb : Tab R 384) (W0 : Tab 384 D) (b0 : Row D) : Tab R D := fun n j => (∑ k, cmb n k * W0 k j) + b0 j
/-- Layer 0 before the clamp, as three 128-term contractions. -/
def z0 (x ve ub : Tab R D) (Wx Wv Wu : Tab D D) (b0 : Row D) : Tab R D :=
  fun n j => ((∑ k, x n k * Wx k j) + (∑ k, ve n k * Wv k j) + (∑ k, ub n k * Wu k j)) + b0 j
/-- Layer 0 before the clamp in the blockwise program's own form: the aggregate as sum times reciprocal count, the
    u block as a one-hot row times the precomputed 512 x 128 table. -/
def z0K (x S : Tab R D) (ic : Fin R → EReal) (oh : Tab R 512) (uW : Tab 512 D) (Wx Wv : Tab D D) (b0 : Row D) : Tab R D :=
  fun n j => ((∑ k, x n k * Wx k j) + (∑ k, (S n k * ic n) * Wv k j) + (∑ b, oh n b * uW b j)) + b0 j

/-! ## Normalisation and the later layers -/

def mean (h : Tab R D) : Row D := fun j => Ideal.div (∑ n, h n j) cN
/-- The variance as mean of squares minus squared mean, clamped at zero. -/
def varK (h : Tab R D) : Row D := fun j => max (Ideal.div (∑ n, h n j * h n j) cN - mean h j * mean h j) cZero
/-- The variance as mean of squared deviations. -/
def varR (h : Tab R D) : Row D := fun j => Ideal.div (∑ n, (h n j - mean h j) * (h n j - mean h j)) cN
def istd (v : Row D) : Row D := fun j => Ideal.rsqrt (v j + cEps)
def bn (g be mu iv : Row D) (h : Tab R D) : Tab R D := fun n j => g j * (h n j - mu j) * iv j + be j
def lay (W : Tab D D) (b : Row D) (a : Tab R D) : Tab R D := fun n j => max ((∑ k, a n k * W k j) + b j) cZero

/-- The parameters of the three normalisations and the two later linear maps. -/
structure Params where
  g0 : Row D
  be0 : Row D
  W1 : Tab D D
  b1 : Row D
  g1 : Row D
  be1 : Row D
  W2 : Tab D D
  b2 : Row D
  g2 : Row D
  be2 : Row D

def Params.Finite (P : Params) : Prop :=
  Fin1 P.g0 ∧ Fin1 P.be0 ∧ Fin2 P.W1 ∧ Fin1 P.b1 ∧ Fin1 P.g1 ∧ Fin1 P.be1 ∧ Fin2 P.W2 ∧ Fin1 P.b2 ∧ Fin1 P.g2 ∧ Fin1 P.be2

/-- Everything after layer 0's clamp, over a choice of the variance's form. -/
def tail (var : Tab R D → Row D) (P : Params) (h0 : Tab R D) : Tab R D :=
  let h1 := lay P.W1 P.b1 (bn P.g0 P.be0 (mean h0) (istd (var h0)) h0)
  let h2 := lay P.W2 P.b2 (bn P.g1 P.be1 (mean h1) (istd (var h1)) h1)
  bn P.g2 P.be2 (mean h2) (istd (var h2)) h2

/-! ## Real entries: closure under the operations -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum. -/
theorem coe_max (a b : ℝ) : ((max a b : ℝ) : EReal) = max (a : EReal) (b : EReal) :=
  EReal.coe_strictMono.monotone.map_max

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.max {x y : EReal} (hx : IsR x) (hy : IsR y) : IsR (max x y) := by
  obtain ⟨a, rfl⟩ := hx; obtain ⟨b, rfl⟩ := hy; exact ⟨Max.max a b, (coe_max a b).symm⟩
theorem IsR.sum {ι : Type*} (s : Finset ι) {f : ι → EReal} (hf : ∀ i, IsR (f i)) : IsR (∑ i ∈ s, f i) := by
  choose g hg using hf
  exact ⟨∑ i ∈ s, g i, by rw [coe_sum]; exact Finset.sum_congr rfl fun i _ => hg i⟩

/-! ## The words -/

theorem cN_eq : cN = ((100000 : ℝ) : EReal) := by
  simp [cN, Ideal.ofBits, Ideal.ieee, -EReal.coe_mul]; norm_num
theorem cZero_eq : cZero = 0 := by
  simp [cZero, Ideal.ofBits, Ideal.ieee]
theorem cOne_eq : cOne = 1 := by
  simp [cOne, Ideal.ofBits, Ideal.ieee, -EReal.coe_mul]; norm_num
theorem cEps_pos : ∃ e : ℝ, 0 < e ∧ cEps = (e : EReal) := by
  refine ⟨(10995116 : ℝ) * (2 : ℝ) ^ (-40 : ℤ), by positivity, ?_⟩
  simp [cEps, Ideal.ofBits, Ideal.ieee, -EReal.coe_mul]

theorem isR_cZero : IsR cZero := ⟨0, by rw [cZero_eq, EReal.coe_zero]⟩
theorem isR_cOne : IsR cOne := ⟨1, by rw [cOne_eq, EReal.coe_one]⟩

/-! ## Sums over blocks of rows -/

/-- A sum over T blocks of B consecutive rows is the sum over all T * B rows. -/
theorem sum_blocks (T B : Nat) (f : Fin (T * B) → EReal) :
    (∑ t : Fin T, ∑ r : Fin B, f ⟨B * t.val + r.val, by
      have := t.isLt; have := r.isLt
      calc B * t.val + r.val < B * t.val + B := by omega
        _ = B * (t.val + 1) := by ring
        _ ≤ B * T := Nat.mul_le_mul_left _ (by omega)
        _ = T * B := Nat.mul_comm _ _⟩) = ∑ n : Fin (T * B), f n := by
  rw [← finProdFinEquiv.sum_comp, Fintype.sum_prod_type]
  refine Finset.sum_congr rfl fun t _ => Finset.sum_congr rfl fun r _ => ?_
  congr 1
  apply Fin.ext
  simp only [finProdFinEquiv_apply_val]
  omega

/-! ## Finiteness -/

theorem segsum_fin {E d : Nat} (dst : Fin E → ℤ) (upd : Tab E d) (h : Fin2 upd) : Fin2 (segsum dst upd) := by
  intro n j
  exact IsR.add isR_cZero (IsR.sum _ fun e => h e j)
theorem cnt_real {E : Nat} (dst : Fin E → ℤ) (n : Fin R) : ∃ r : ℝ, 1 ≤ r ∧ cnt dst n = (r : EReal) := by
  obtain ⟨c, hc⟩ : IsR (cZero + ∑ _e ∈ Finset.univ.filter (fun e : Fin E => dst e = (n.val : ℤ)), cOne) :=
    IsR.add isR_cZero (IsR.sum _ fun _ => isR_cOne)
  refine ⟨max 1 c, le_max_left _ _, ?_⟩
  rw [cnt, hc, cOne_eq, coe_max, EReal.coe_one]

/-! ## Layer 0: the two forms agree -/

/-- A sum over 384 indices is the sum of the sums over its three runs of 128. -/
theorem sum_384 (f : Fin 384 → EReal) :
    ∑ k, f k = (∑ k : Fin 128, f ⟨k.val, by have := k.isLt; omega⟩)
      + (∑ k : Fin 128, f ⟨128 + k.val, by have := k.isLt; omega⟩)
      + (∑ k : Fin 128, f ⟨256 + k.val, by have := k.isLt; omega⟩) := by
  have h := Fin.sum_univ_add (M := EReal) (a := 128 + 128) (b := 128) f
  rw [Fin.sum_univ_add (M := EReal) (a := 128) (b := 128)] at h
  exact h

theorem cat3_lo (x ve ub : Tab R D) (n : Fin R) (k : Fin 128) (hk : k.val < 384) :
    cat3 x ve ub n ⟨k.val, hk⟩ = x n k := by
  have := k.isLt
  simp only [cat3, dif_pos this]
theorem cat3_mid (x ve ub : Tab R D) (n : Fin R) (k : Fin 128) (hk : 128 + k.val < 384) :
    cat3 x ve ub n ⟨128 + k.val, hk⟩ = ve n k := by
  have := k.isLt
  have h1 : ¬ (128 + k.val < 128) := by omega
  have h2 : 128 + k.val < 256 := by omega
  simp only [cat3, dif_neg h1, dif_pos h2]
  congr 1; apply Fin.ext; simp
theorem cat3_hi (x ve ub : Tab R D) (n : Fin R) (k : Fin 128) (hk : 256 + k.val < 384) :
    cat3 x ve ub n ⟨256 + k.val, hk⟩ = ub n k := by
  have := k.isLt
  have h1 : ¬ (256 + k.val < 128) := by omega
  have h2 : ¬ (256 + k.val < 256) := by omega
  simp only [cat3, dif_neg h1, dif_neg h2]
  congr 1; apply Fin.ext; simp

/-- One 384-term contraction of three blocks side by side is three 128-term contractions. -/
theorem z0R_cat3 (x ve ub : Tab R D) (W0 : Tab 384 D) (b0 : Row D) :
    z0R (cat3 x ve ub) W0 b0
      = z0 x ve ub (wslice W0 0 (by omega)) (wslice W0 128 (by omega)) (wslice W0 256 (by omega)) b0 := by
  funext n j
  simp only [z0R, z0, wslice]
  rw [sum_384]
  simp only [cat3_lo, cat3_mid, cat3_hi, Nat.zero_add]

/-- The quotient by a real count at least one is the product with the reciprocal. -/
theorem div_real_ge_one (x : EReal) {r : ℝ} (hr : 1 ≤ r) :
    Ideal.div x (r : EReal) = x * ((1 / r : ℝ) : EReal) :=
  Ideal.div_coe (by linarith : r ≠ 0) x

/-- The blockwise form is the three-contraction form: a product with the reciprocal of a count that is a real
    number at least one is the quotient by it, and a one-hot row times the table u · Wu is the picked row of u
    times Wu. -/
theorem z0K_eq (x S : Tab R D) (ic C : Fin R → EReal) (oh : Tab R 512) (uW : Tab 512 D) (u : Tab 512 D)
    (Wx Wv Wu : Tab D D) (b0 : Row D) (bt : Fin R → Fin 512)
    (hoh : ∀ n b, oh n b = if b = bt n then (1 : EReal) else 0)
    (hic : ∀ n, ic n = Ideal.div cOne (C n))
    (hC : ∀ n, ∃ r : ℝ, 1 ≤ r ∧ C n = (r : EReal))
    (huW : ∀ b j, uW b j = ∑ k, u b k * Wu k j) :
    z0K x S ic oh uW Wx Wv b0
      = z0 x (fun n k => Ideal.div (S n k) (C n)) (fun n k => u (bt n) k) Wx Wv Wu b0 := by
  funext n j
  obtain ⟨r, hr, hCr⟩ := hC n
  have hq : ∀ k, S n k * ic n = Ideal.div (S n k) (C n) := by
    intro k
    rw [hic, hCr, div_real_ge_one _ hr, div_real_ge_one _ hr, cOne_eq, one_mul]
  have hpick : (∑ b, oh n b * uW b j) = ∑ k, u (bt n) k * Wu k j := by
    rw [← huW]
    simp only [hoh, ite_mul, one_mul, zero_mul, Finset.sum_ite_eq', Finset.mem_univ, if_true]
  simp only [z0K, z0, hq, hpick]

/-- A contraction of real rows is real. -/
theorem isR_dot {m : Nat} (a : Fin m → EReal) (b : Fin m → EReal) (ha : ∀ k, IsR (a k)) (hb : ∀ k, IsR (b k)) :
    IsR (∑ k, a k * b k) :=
  IsR.sum _ fun k => (ha k).mul (hb k)

/-- Layer 0 after the clamp has real entries when its inputs do. -/
theorem h0_fin (x ve ub : Tab R D) (Wx Wv Wu : Tab D D) (b0 : Row D)
    (hx : Fin2 x) (hve : Fin2 ve) (hub : Fin2 ub) (hWx : Fin2 Wx) (hWv : Fin2 Wv) (hWu : Fin2 Wu) (hb : Fin1 b0) :
    Fin2 (fun n j => max (z0 x ve ub Wx Wv Wu b0 n j) cZero) := by
  intro n j
  exact IsR.max
    (IsR.add (IsR.add (IsR.add (isR_dot _ _ (hx n) fun k => hWx k j) (isR_dot _ _ (hve n) fun k => hWv k j))
      (isR_dot _ _ (hub n) fun k => hWu k j)) (hb j))
    isR_cZero

/-- A quotient of a real by a real count at least one is real. -/
theorem ve_fin (S : Tab R D) (C : Fin R → EReal) (hS : Fin2 S) (hC : ∀ n, ∃ r : ℝ, 1 ≤ r ∧ C n = (r : EReal)) :
    Fin2 (fun n k => Ideal.div (S n k) (C n)) := by
  intro n k
  obtain ⟨r, hr, hCr⟩ := hC n
  show IsR (Ideal.div (S n k) (C n))
  rw [hCr, div_real_ge_one _ hr]
  exact IsR.mul (hS n k) ⟨_, rfl⟩

/-! ## The two forms of the variance, and everything after layer 0 -/

/-- The quotient by the row count is the product with its reciprocal. -/
theorem div_cN (x : EReal) : Ideal.div x cN = x * ((1 / 100000 : ℝ) : EReal) := by
  rw [cN_eq]; exact Ideal.div_coe (by norm_num) x

/-- The mean of a real column, as a real number. -/
theorem mean_coe (g : Fin R → Fin D → ℝ) (j : Fin D) :
    mean (fun n j => (g n j : EReal)) j = (((∑ n, g n j) * (1 / 100000) : ℝ) : EReal) := by
  rw [mean, div_cN, ← coe_sum, ← EReal.coe_mul]

/-- In the reals: the mean of squares minus the squared mean is the mean of squared deviations, which is not
    negative. -/
theorem var_real (a : Fin R → ℝ) (m : ℝ) (hm : m = (∑ n, a n) * (1 / 100000)) :
    max ((∑ n, a n * a n) * (1 / 100000) - m * m) 0 = (∑ n, (a n - m) * (a n - m)) * (1 / 100000) := by
  have hnn : 0 ≤ (∑ n, (a n - m) * (a n - m)) * (1 / 100000 : ℝ) :=
    mul_nonneg (Finset.sum_nonneg fun n _ => mul_self_nonneg _) (by norm_num)
  have hs : ∑ n, a n = 100000 * m := by rw [hm]; ring
  have hexp : ∀ n, (a n - m) * (a n - m) = a n * a n - 2 * m * a n + m * m := fun n => by ring
  have hcard : ((Finset.univ : Finset (Fin R)).card : ℝ) = 100000 := by
    rw [Finset.card_univ, Fintype.card_fin]; norm_num
  have heq : (∑ n, a n * a n) * (1 / 100000) - m * m = (∑ n, (a n - m) * (a n - m)) * (1 / 100000) := by
    simp only [hexp, Finset.sum_add_distrib, Finset.sum_sub_distrib, ← Finset.mul_sum, Finset.sum_const,
      nsmul_eq_mul, hcard, hs]
    ring
  rw [heq, max_eq_left hnn]

/-- On real columns the mean of squares minus the squared mean is the mean of squared deviations, and is not negative. -/
theorem varK_eq_varR (h : Tab R D) (hh : Fin2 h) : varK h = varR h := by
  choose g hg using hh
  have hgh : h = fun n j => (g n j : EReal) := by funext n j; exact hg n j
  subst hgh
  funext j
  simp only [varK, varR, mean_coe, div_cN, cZero_eq]
  simp only [← EReal.coe_mul, ← EReal.coe_sub, ← coe_sum, ← EReal.coe_zero, ← coe_max]
  rw [var_real (fun n => g n j) _ rfl]

/-- The mean of a real table is a real row. -/
theorem mean_fin (h : Tab R D) (hh : Fin2 h) : Fin1 (mean h) := by
  intro j
  show IsR (mean h j)
  rw [mean, div_cN]
  exact (IsR.sum _ fun n => hh n j).mul ⟨_, rfl⟩

/-- The mean of squared deviations of a real table is a real number that is not negative. -/
theorem varR_nonneg (h : Tab R D) (hh : Fin2 h) : ∀ j, ∃ r : ℝ, 0 ≤ r ∧ varR h j = (r : EReal) := by
  choose g hg using hh
  have hgh : h = fun n j => (g n j : EReal) := by funext n j; exact hg n j
  subst hgh
  intro j
  refine ⟨(∑ n, (g n j - (∑ n, g n j) * (1 / 100000)) * (g n j - (∑ n, g n j) * (1 / 100000))) * (1 / 100000),
    mul_nonneg (Finset.sum_nonneg fun n _ => mul_self_nonneg _) (by norm_num), ?_⟩
  simp only [varR, mean_coe, div_cN]
  simp only [← EReal.coe_mul, ← EReal.coe_sub, ← coe_sum]

/-- The reciprocal root of a nonnegative real plus the positive offset is real. -/
theorem istd_fin (v : Row D) (hv : ∀ j, ∃ r : ℝ, 0 ≤ r ∧ v j = (r : EReal)) : Fin1 (istd v) := by
  intro j
  obtain ⟨r, hr, hvr⟩ := hv j
  obtain ⟨e, he, hce⟩ := cEps_pos
  have hpos : 0 < r + e := by linarith
  refine ⟨(Real.sqrt (r + e))⁻¹, ?_⟩
  rw [istd, hvr, hce, ← EReal.coe_add, Ideal.rsqrt_coe, if_neg (not_lt.mpr hpos.le), if_neg hpos.ne']

theorem bn_fin (g be mu iv : Row D) (h : Tab R D) (hg : Fin1 g) (hbe : Fin1 be) (hmu : Fin1 mu) (hiv : Fin1 iv)
    (hh : Fin2 h) : Fin2 (bn g be mu iv h) := by
  intro n j
  exact ((IsR.mul (hg j) (IsR.sub (hh n j) (hmu j))).mul (hiv j)).add (hbe j)

theorem lay_fin (W : Tab D D) (b : Row D) (a : Tab R D) (hW : Fin2 W) (hb : Fin1 b) (ha : Fin2 a) :
    Fin2 (lay W b a) := by
  intro n j
  exact IsR.max ((isR_dot _ _ (ha n) fun k => hW k j).add (hb j)) isR_cZero

/-- One normalisation under the mean-of-squared-deviations variance keeps a real table real. -/
theorem norm_fin (g be : Row D) (h : Tab R D) (hg : Fin1 g) (hbe : Fin1 be) (hh : Fin2 h) :
    Fin2 (bn g be (mean h) (istd (varR h)) h) :=
  bn_fin _ _ _ _ _ hg hbe (mean_fin h hh) (istd_fin _ (varR_nonneg h hh)) hh

/-- With real parameters and a real layer-0 output, everything after layer 0 is the same table under either form of
    the variance. -/
theorem tail_eq (P : Params) (hP : P.Finite) (h0 : Tab R D) (hh : Fin2 h0) : tail varK P h0 = tail varR P h0 := by
  obtain ⟨hg0, hbe0, hW1, hb1, hg1, hbe1, hW2, hb2, _, _⟩ := hP
  have f1 : Fin2 (lay P.W1 P.b1 (bn P.g0 P.be0 (mean h0) (istd (varR h0)) h0)) :=
    lay_fin _ _ _ hW1 hb1 (norm_fin _ _ _ hg0 hbe0 hh)
  have f2 : Fin2 (lay P.W2 P.b2 (bn P.g1 P.be1
      (mean (lay P.W1 P.b1 (bn P.g0 P.be0 (mean h0) (istd (varR h0)) h0)))
      (istd (varR (lay P.W1 P.b1 (bn P.g0 P.be0 (mean h0) (istd (varR h0)) h0))))
      (lay P.W1 P.b1 (bn P.g0 P.be0 (mean h0) (istd (varR h0)) h0)))) :=
    lay_fin _ _ _ hW2 hb2 (norm_fin _ _ _ hg1 hbe1 f1)
  dsimp only [tail]
  rw [varK_eq_varR h0 hh, varK_eq_varR _ f1, varK_eq_varR _ f2]

end Cert.Spec

end
-- ==== Proof.Views.lean ====
/-
  Reading an array of extended reals as a table or a row over plain finite index types.
-/
import proofs.«426057_j62689342653098_3_alg».proof.Proof.Spec

noncomputable section

namespace Cert.Spec

open Idealize.ShloMosaic Idealize.ShloMosaic.ValueIdx

/-- A rank-2 array as a table. -/
def tab {n d : Nat} (A : (⟨2, ![n, d]⟩ : Shape).Idx → EReal) : Tab n d := fun i j => A (ix2 i j)
/-- A rank-1 array as a row. -/
def row {d : Nat} (v : (⟨1, ![d]⟩ : Shape).Idx → EReal) : Row d := fun j => v (ix1 j)
/-- An [n, 1] column as a function of the row. -/
def col {n : Nat} (A : (⟨2, ![n, 1]⟩ : Shape).Idx → EReal) : Fin n → EReal := fun i => A (ix2 i (0 : Fin 1))

/-- The destination row of each edge: row 0 of the [2, E] index array, each word read signed. -/
def dstOf {E : Nat} (ei : (⟨2, ![2, E]⟩ : Shape).Idx → BitVec 32) : Fin E → ℤ := fun e => (ei (ix2 (0 : Fin 2) e)).toInt

theorem tab_apply {n d : Nat} (A : (⟨2, ![n, d]⟩ : Shape).Idx → EReal) (i : Fin n) (j : Fin d) : tab A i j = A (ix2 i j) := rfl
theorem row_apply {d : Nat} (v : (⟨1, ![d]⟩ : Shape).Idx → EReal) (j : Fin d) : row v j = v (ix1 j) := rfl
theorem col_apply {n : Nat} (A : (⟨2, ![n, 1]⟩ : Shape).Idx → EReal) (i : Fin n) : col A i = A (ix2 i (0 : Fin 1)) := rfl

end Cert.Spec

end
-- ==== Proof.KReg0.lean ====
/-
  Region 0 of the node model: layer 0, blockwise over 25 blocks of 4000 rows.

  At each grid point the body reads a block of 4000 rows of the node features x, of the summed edge features and of
  the reciprocal edge counts, the rows' batch words, and, whole, two 128 x 128 weight blocks, a 512 x 128 table and a
  bias row.  It forms the aggregate (sum times reciprocal count, the count broadcast along the 128 lanes), a one-hot
  block (batch word compared with the lane number, 512 lanes), three contractions into zero accumulators (128, 128
  and 512 terms), adds the bias and clamps at zero.  It writes that block, and the sums over the block's 4000 rows of
  each column and of each column's squares.

  Here each of these is read at an index: the contraction of a matrix product is a sum over the contracted coordinate,
  a lane reduction a sum over rows, a change of float format the identity on extended reals; a block's row p at point
  t is row 4000 t + p of its array, the weight, table and bias windows are staged whole; so point t writes block t
  of ONE function of the whole arrays, the 25 blocks cover the output, and the three output arrays after the grid are
  layer 0 after the clamp, its per-block column sums, and its per-block column sums of squares.
-/
import proofs.«426057_j62689342653098_3_alg».proof.Proof.Gen.KernelIdeal.Frame
import proofs.«426057_j62689342653098_3_alg».proof.Proof.Views
import Idealize.ShloMosaic.Lib.ValueLayout
import Idealize.ShloMosaic.Lib.Pipeline.Value
import Idealize.ShloMosaic.PureOps.Ideal.Laws
import Idealize.ShloMosaic.Lib.Affine

set_option maxRecDepth 16384
noncomputable section
namespace Cert.KernelIdeal.KReg0
open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

/-! ## The two contractions' operand indices -/

theorem lhs128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A product of a 4000 x 128 block with a 128 x 128 matrix into a zero accumulator, at row p and column q. -/
theorem matmul128_apply (l : FVec Ideal S4000x128 .bf16) (r : FVec Ideal S128x128 .bf16) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem lhs512_0 (i : S4000x128.Idx) (q : dot_S4000x512_S512x128_S4000x128_1_0_0_1_n_n.contr.Idx) :
    (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
theorem lhs512_1 (i : S4000x128.Idx) (q : dot_S4000x512_S512x128_S4000x128_1_0_0_1_n_n.contr.Idx) :
    (dot_S4000x512_S512x128_S4000x128_1_0_0_1_n_n.lhsIdx i q 1).val = (q ⟨0, by decide⟩).val :=
  dot_S4000x512_S512x128_S4000x128_1_0_0_1_n_n.lhsIdx_val_of_single rfl i q
theorem rhs512_0 (i : S4000x128.Idx) (q : dot_S4000x512_S512x128_S4000x128_1_0_0_1_n_n.contr.Idx) :
    (dot_S4000x512_S512x128_S4000x128_1_0_0_1_n_n.rhsIdx i q 0).val = (q ⟨0, by decide⟩).val :=
  dot_S4000x512_S512x128_S4000x128_1_0_0_1_n_n.rhsIdx_val_of_single rfl i q
theorem rhs512_1 (i : S4000x128.Idx) (q : dot_S4000x512_S512x128_S4000x128_1_0_0_1_n_n.contr.Idx) :
    (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

/-- A product of a 4000 x 512 block with a 512 x 128 table into a zero accumulator, at row p and column q. -/
theorem matmul512_apply (l : FVec Ideal S4000x512 .bf16) (r : FVec Ideal S512x128 .bf16) (p : Fin 4000) (q : Fin 128) :
    matmul dot_S4000x512_S512x128_S4000x128_1_0_0_1_n_n none l r (constant (F := Ideal) S4000x128 .f32 0x00000000#32) (ix2 p q)
      = ∑ k : Fin 512, l (ix2 p k) * r (ix2 k q) := by
  simp only [matmul]
  rw [Ideal.matmul_constant_zero_apply, ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 p q) ((contrEquiv1 dot_S4000x512_S512x128_S4000x128_1_0_0_1_n_n 512 rfl rfl).symm k) = ix2 p k := funext fun a => Fin.ext (by
    match a with
    | ⟨0, _⟩ => exact lhs512_0 _ _
    | ⟨1, _⟩ => exact (lhs512_1 _ _).trans hk)
  have er : dot_S4000x512_S512x128_S4000x128_1_0_0_1_n_n.rhsIdx (ix2 p q) ((contrEquiv1 dot_S4000x512_S512x128_S4000x128_1_0_0_1_n_n 512 rfl rfl).symm k) = ix2 k q := funext fun a => Fin.ext (by
    match a with
    | ⟨0, _⟩ => exact (rhs512_0 _ _).trans hk
    | ⟨1, _⟩ => exact rhs512_1 _ _)
  rw [el, er]

/-! ## The one-hot entry -/

/-- The entry the body's comparison of a batch word with lane q gives: the comparison bit, widened to a word, read as
    a signed integer and as a real number. -/
def ohE (w : BitVec 32) (q : Fin 512) : EReal :=
  ((((IntOp.cmpi .eq w (BitVec.ofNat 32 q.val)).setWidth 32).toInt : ℝ) : EReal)

/-- the one-hot entry the body computes from a batch word, at Ideal -/
def ohK (b : S100000x1.Idx → BitVec 32) : Tab R 512 := fun n q => ohE (b (ix2 n (0 : Fin 1))) q

theorem ohE_eq (w : BitVec 32) (hw : w.toNat < 512) (q : Fin 512) :
    ohE w q = if q = ⟨w.toNat, hw⟩ then (1 : EReal) else 0 := by
  unfold ohE
  by_cases h : q = ⟨w.toNat, hw⟩
  · have hwq : w = BitVec.ofNat 32 q.val := by
      subst h
      apply BitVec.eq_of_toNat_eq
      simp only [BitVec.toNat_ofNat]
      have := w.isLt
      omega
    rw [if_pos h, IntOp.cmpi_eq.2 hwq]
    simp
  · have hne : ¬ w = BitVec.ofNat 32 q.val := by
      intro e
      apply h
      apply Fin.ext
      have hq := q.isLt
      have := congrArg BitVec.toNat e
      simp only [BitVec.toNat_ofNat] at this
      show q.val = w.toNat
      omega
    have hz : IntOp.cmpi .eq w (BitVec.ofNat 32 q.val) = 0#1 :=
      eq_zero_of_ne_one (fun e => hne (IntOp.cmpi_eq.1 e))
    rw [if_neg h, hz]
    simp

theorem ohK_eq (b : S100000x1.Idx → BitVec 32) (n : Fin 100000) (hb : (b (ix2 n (0 : Fin 1))).toNat < 512) (q : Fin 512) :
    ohK b n q = if q = ⟨(b (ix2 n (0 : Fin 1))).toNat, hb⟩ then (1 : EReal) else 0 :=
  ohE_eq _ hb q

/-! ## The body's layout operations at an index -/

/-- A 4000 x 1 column broadcast along 128 lanes reads its row's entry. -/
theorem col_bcast128 {α : Type} (x : S4000x1.Idx → α) (h : S4000x1.Broadcasts S4000x128) (p : Fin 4000) (k : Fin 128) :
    broadcastTo S4000x128 x h (ix2 p k) = x (ix2 p (0 : Fin 1)) :=
  broadcastTo_apply x h (ix2 p k) (ix2 p (0 : Fin 1)) fun a => by
    match a with
    | ⟨0, _⟩ => rfl
    | ⟨1, _⟩ => rfl

/-- A 4000 x 1 column broadcast along 512 lanes reads its row's entry. -/
theorem col_bcast512 {α : Type} (x : S4000x1.Idx → α) (h : S4000x1.Broadcasts S4000x512) (p : Fin 4000) (k : Fin 512) :
    broadcastTo S4000x512 x h (ix2 p k) = x (ix2 p (0 : Fin 1)) :=
  broadcastTo_apply x h (ix2 p k) (ix2 p (0 : Fin 1)) fun a => by
    match a with
    | ⟨0, _⟩ => rfl
    | ⟨1, _⟩ => rfl

/-- The bias row, viewed 1 x 128 and broadcast over the 4000 rows, reads its lane's entry. -/
theorem bias_apply {α : Type} (x : S128.Idx → α) (p : Fin 4000) (q : Fin 128) :
    broadcastTo S4000x128 (shapeCast S1x128 x shapeCasts_S128_S1x128) broadcasts_S1x128_S4000x128 (ix2 p q) = x (ix1 q) :=
  (broadcastTo_1b_ab_apply _ _ p q).trans (shapeCast_a_1a_apply x _ 0 q)

/-- The one-hot block at row p and lane k is the entry computed from row p's batch word. -/
theorem onehot_apply (x3 : IVec S4000x1 32) (p : Fin 4000) (k : Fin 512) :
    (sitofp (F := Ideal) .f32 (extui 32 (cmpi .eq (broadcastTo S4000x512 x3 broadcasts_S4000x1_S4000x512) (iota .tc S4000x512 32 [1] iota_S4000x512_d1_w32)) natLt_1_32)) (ix2 p k)
      = ohE (x3 (ix2 p (0 : Fin 1))) k := by
  show ((((IntOp.cmpi .eq (broadcastTo S4000x512 x3 broadcasts_S4000x1_S4000x512 (ix2 p k)) (iota .tc S4000x512 32 [1] iota_S4000x512_d1_w32 (ix2 p k))).setWidth 32).toInt : ℝ) : EReal) = _
  rw [col_bcast512, iota_single_apply]
  rfl

/-- The sum over the 4000 rows of a block, lane by lane. -/
theorem colsum_apply (v : FVec Ideal S4000x128 .f32) (j : Fin 128) :
    multiReduction .add [0] S128 v 0x00000000#32 reduces_S4000x128_S128 (.inl rfl) rfl (ix1 j) = ∑ r : Fin 4000, v (ix2 r j) := by
  refine (Ideal.multiReduction_add_single v 0x00000000#32 reduces_S4000x128_S128 (.inl rfl) rfl (ix1 j)).trans ?_
  refine Finset.sum_congr rfl fun r _ => congrArg v ?_
  funext a
  apply Fin.ext
  match a with
  | ⟨0, _⟩ => rfl
  | ⟨1, _⟩ => rfl

/-! ## The body's arithmetic at an index -/

/-- The clamped layer-0 block at row p and column q: the three contractions, the bias, the clamp. -/
theorem pay3_apply (x0 x1 : Vec Ideal S4000x128 .f32) (x2 : Vec Ideal S4000x1 .f32) (x3 : Vec Ideal S4000x1 .i32)
    (x4 x5 : Vec Ideal S128x128 .f32) (x6 : Vec Ideal S512x128 .bf16) (x7 : Vec Ideal S128 .f32) (p : Fin 4000) (q : Fin 128) :
    k0_pay3 (F := Ideal) x0 x1 x2 x3 x4 x5 x6 x7 (ix2 p q)
      = max ((((∑ k : Fin 128, x0 (ix2 p k) * x4 (ix2 k q))
              + (∑ k : Fin 128, (x1 (ix2 p k) * x2 (ix2 p (0 : Fin 1))) * x5 (ix2 k q)))
            + (∑ b : Fin 512, ohE (x3 (ix2 p (0 : Fin 1))) b * x6 (ix2 b q))) + x7 (ix1 q)) cZero := by
  unfold k0_pay3
  simp only [maximumf_apply, addf_apply, broadcast_apply]
  rw [matmul128_apply, matmul128_apply, matmul512_apply, bias_apply]
  simp only [truncf_apply, shapeCast_self, mulf_apply, col_bcast128]
  have hoh : ∀ b : Fin 512, (sitofp (F := Ideal) .f32 (extui 32 (cmpi .eq (broadcastTo S4000x512 x3 broadcasts_S4000x1_S4000x512) (iota .tc S4000x512 32 [1] iota_S4000x512_d1_w32)) natLt_1_32)) (ix2 p b) = ohE (x3 (ix2 p (0 : Fin 1))) b :=
    fun b => onehot_apply x3 p b
  simp only [hoh]
  rfl

/-- The stored block is the clamped block: a change of float format is the identity. -/
theorem pay4_apply (x0 x1 : Vec Ideal S4000x128 .f32) (x2 : Vec Ideal S4000x1 .f32) (x3 : Vec Ideal S4000x1 .i32)
    (x4 x5 : Vec Ideal S128x128 .f32) (x6 : Vec Ideal S512x128 .bf16) (x7 : Vec Ideal S128 .f32) (i : S4000x128.Idx) :
    k0_pay4 (F := Ideal) x0 x1 x2 x3 x4 x5 x6 x7 i = k0_pay3 (F := Ideal) x0 x1 x2 x3 x4 x5 x6 x7 i := rfl

/-- The column sums of a block, stored 1 x 1 x 128. -/
theorem pay1_apply (v : FVec Ideal S4000x128 .f32) (u0 u1 : Fin 1) (j : Fin 128) :
    k0_pay1 (F := Ideal) v (ix3 u0 u1 j) = ∑ r : Fin 4000, v (ix2 r j) := by
  unfold k0_pay1
  exact ((shapeCast_ab_1ab_apply _ _ u0 u1 j).trans (shapeCast_a_1a_apply _ _ u1 j)).trans (colsum_apply v j)

/-- The column sums of a block's squares, stored 1 x 1 x 128. -/
theorem pay2_apply (v : FVec Ideal S4000x128 .f32) (u0 u1 : Fin 1) (j : Fin 128) :
    k0_pay2 (F := Ideal) v (ix3 u0 u1 j) = ∑ r : Fin 4000, v (ix2 r j) * v (ix2 r j) := by
  unfold k0_pay2
  exact ((shapeCast_ab_1ab_apply _ _ u0 u1 j).trans (shapeCast_a_1a_apply _ _ u1 j)).trans (colsum_apply (mulf v v) j)

/-! ## The region's arrays and blocks -/

variable (V : (c : Dev nD) → (b : Ref sig .tc) → Buf (Elt Ideal) ((c : Thread nD τ).loc b))

/-- Layer 0 after the clamp, over the arrays as the region finds them. -/
abbrev H0 (c : Dev nD) : Tab R D := fun n j => max (z0K (tab (V c main_arg0 : S100000x128.Idx → EReal)) (tab (V c main_v4 : S100000x128.Idx → EReal)) (col (V c main_v11 : S100000x1.Idx → EReal)) (ohK (V c main_v12 : S100000x1.Idx → BitVec 32)) (tab (V c main_v17 : S512x128.Idx → EReal)) (tab (V c main_v13 : S128x128.Idx → EReal)) (tab (V c main_v14 : S128x128.Idx → EReal)) (row (V c main_arg6 : S128.Idx → EReal)) n j) cZero

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 25 grid points: the four row windows and the three outputs sit at block t
    on their first axis, the weight, table and bias windows at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 3) = t.val ∧ win0_9.index t (1 : Fin 3) = 0 ∧ win0_9.index t (2 : Fin 3) = 0
    ∧ win0_10.index t (0 : Fin 3) = t.val ∧ win0_10.index t (1 : Fin 3) = 0 ∧ win0_10.index t (2 : Fin 3) = 0 :=
  (by decide +kernel : ∀ t : Fin grid0.N, _)

theorem t_lt (t : Fin cfg0.N) : t.val < 25 := by have := t.isLt; have hN : cfg0.N = 25 := N_0; omega

/-- Row p of point t's block of the node features is row 4000 t + p of the array. -/
theorem blk_x (c : Dev nD) (t : Fin cfg0.N) (p : Fin 4000) (k : Fin 128) (hn : 4000 * t.val + p.val < 100000) :
    (iblk0 V c 0 t : Vec Ideal S4000x128 .f32) (ix2 p k) = (V c main_arg0 : S100000x128.Idx → EReal) (ix2 ⟨4000 * t.val + p.val, hn⟩ k) := by
  obtain ⟨e00, e01, e10, e11, e20, e21, e30, e31, e40, e41, e50, e51, e60, e61, e70, e80, e81, e90, e91, e92, eA0, eA1, eA2⟩ := idx_facts t
  unfold iblk0
  rw [View.read_apply]
  show V c main_arg0 _ = V c main_arg0 _
  congr 1
  funext a
  apply Fin.ext
  match a with
  | ⟨0, _⟩ => show win0_0.index t (0 : Fin 2) * 4000 + 1 * p.val = 4000 * t.val + p.val; rw [e00]; omega
  | ⟨1, _⟩ => show win0_0.index t (1 : Fin 2) * 128 + 1 * k.val = k.val; rw [e01]; omega

/-- Row p of point t's block of the edge sums is row 4000 t + p of the array. -/
theorem blk_s (c : Dev nD) (t : Fin cfg0.N) (p : Fin 4000) (k : Fin 128) (hn : 4000 * t.val + p.val < 100000) :
    (iblk0 V c 1 t : Vec Ideal S4000x128 .f32) (ix2 p k) = (V c main_v4 : S100000x128.Idx → EReal) (ix2 ⟨4000 * t.val + p.val, hn⟩ k) := by
  obtain ⟨e00, e01, e10, e11, e20, e21, e30, e31, e40, e41, e50, e51, e60, e61, e70, e80, e81, e90, e91, e92, eA0, eA1, eA2⟩ := idx_facts t
  unfold iblk0
  rw [View.read_apply]
  show V c main_v4 _ = V c main_v4 _
  congr 1
  funext a
  apply Fin.ext
  match a with
  | ⟨0, _⟩ => show win0_1.index t (0 : Fin 2) * 4000 + 1 * p.val = 4000 * t.val + p.val; rw [e10]; omega
  | ⟨1, _⟩ => show win0_1.index t (1 : Fin 2) * 128 + 1 * k.val = k.val; rw [e11]; omega

/-- Row p of point t's block of the reciprocal counts is row 4000 t + p of the column. -/
theorem blk_ic (c : Dev nD) (t : Fin cfg0.N) (p : Fin 4000) (k : Fin 1) (hn : 4000 * t.val + p.val < 100000) :
    (iblk0 V c 2 t : Vec Ideal S4000x1 .f32) (ix2 p k) = (V c main_v11 : S100000x1.Idx → EReal) (ix2 ⟨4000 * t.val + p.val, hn⟩ k) := by
  obtain ⟨e00, e01, e10, e11, e20, e21, e30, e31, e40, e41, e50, e51, e60, e61, e70, e80, e81, e90, e91, e92, eA0, eA1, eA2⟩ := idx_facts t
  unfold iblk0
  rw [View.read_apply]
  show V c main_v11 _ = V c main_v11 _
  congr 1
  funext a
  apply Fin.ext
  match a with
  | ⟨0, _⟩ => show win0_2.index t (0 : Fin 2) * 4000 + 1 * p.val = 4000 * t.val + p.val; rw [e20]; omega
  | ⟨1, _⟩ => show win0_2.index t (1 : Fin 2) * 1 + 1 * k.val = k.val; rw [e21]; omega

/-- Row p of point t's block of the batch words is row 4000 t + p of the column. -/
theorem blk_b (c : Dev nD) (t : Fin cfg0.N) (p : Fin 4000) (k : Fin 1) (hn : 4000 * t.val + p.val < 100000) :
    (iblk0 V c 3 t : Vec Ideal S4000x1 .i32) (ix2 p k) = (V c main_v12 : S100000x1.Idx → BitVec 32) (ix2 ⟨4000 * t.val + p.val, hn⟩ k) := by
  obtain ⟨e00, e01, e10, e11, e20, e21, e30, e31, e40, e41, e50, e51, e60, e61, e70, e80, e81, e90, e91, e92, eA0, eA1, eA2⟩ := idx_facts t
  unfold iblk0
  rw [View.read_apply]
  show V c main_v12 _ = V c main_v12 _
  congr 1
  funext a
  apply Fin.ext
  match a with
  | ⟨0, _⟩ => show win0_3.index t (0 : Fin 2) * 4000 + 1 * p.val = 4000 * t.val + p.val; rw [e30]; omega
  | ⟨1, _⟩ => show win0_3.index t (1 : Fin 2) * 1 + 1 * k.val = k.val; rw [e31]; omega

/-- The first weight block is staged whole at every point. -/
theorem blk_wx (c : Dev nD) (t : Fin cfg0.N) (k : Fin 128) (q : Fin 128) :
    (iblk0 V c 4 t : Vec Ideal S128x128 .f32) (ix2 k q) = (V c main_v13 : S128x128.Idx → EReal) (ix2 k q) := by
  obtain ⟨e00, e01, e10, e11, e20, e21, e30, e31, e40, e41, e50, e51, e60, e61, e70, e80, e81, e90, e91, e92, eA0, eA1, eA2⟩ := idx_facts t
  unfold iblk0
  rw [View.read_apply]
  show V c main_v13 _ = V c main_v13 _
  congr 1
  funext a
  apply Fin.ext
  match a with
  | ⟨0, _⟩ => show win0_4.index t (0 : Fin 2) * 128 + 1 * k.val = k.val; rw [e40]; omega
  | ⟨1, _⟩ => show win0_4.index t (1 : Fin 2) * 128 + 1 * q.val = q.val; rw [e41]; omega

/-- The second weight block is staged whole at every point. -/
theorem blk_wv (c : Dev nD) (t : Fin cfg0.N) (k : Fin 128) (q : Fin 128) :
    (iblk0 V c 5 t : Vec Ideal S128x128 .f32) (ix2 k q) = (V c main_v14 : S128x128.Idx → EReal) (ix2 k q) := by
  obtain ⟨e00, e01, e10, e11, e20, e21, e30, e31, e40, e41, e50, e51, e60, e61, e70, e80, e81, e90, e91, e92, eA0, eA1, eA2⟩ := idx_facts t
  unfold iblk0
  rw [View.read_apply]
  show V c main_v14 _ = V c main_v14 _
  congr 1
  funext a
  apply Fin.ext
  match a with
  | ⟨0, _⟩ => show win0_5.index t (0 : Fin 2) * 128 + 1 * k.val = k.val; rw [e50]; omega
  | ⟨1, _⟩ => show win0_5.index t (1 : Fin 2) * 128 + 1 * q.val = q.val; rw [e51]; omega

/-- The 512 x 128 table is staged whole at every point. -/
theorem blk_uw (c : Dev nD) (t : Fin cfg0.N) (k : Fin 512) (q : Fin 128) :
    (iblk0 V c 6 t : Vec Ideal S512x128 .bf16) (ix2 k q) = (V c main_v17 : S512x128.Idx → EReal) (ix2 k q) := by
  obtain ⟨e00, e01, e10, e11, e20, e21, e30, e31, e40, e41, e50, e51, e60, e61, e70, e80, e81, e90, e91, e92, eA0, eA1, eA2⟩ := idx_facts t
  unfold iblk0
  rw [View.read_apply]
  show V c main_v17 _ = V c main_v17 _
  congr 1
  funext a
  apply Fin.ext
  match a with
  | ⟨0, _⟩ => show win0_6.index t (0 : Fin 2) * 512 + 1 * k.val = k.val; rw [e60]; omega
  | ⟨1, _⟩ => show win0_6.index t (1 : Fin 2) * 128 + 1 * q.val = q.val; rw [e61]; omega

/-- The bias row is staged whole at every point. -/
theorem blk_b0 (c : Dev nD) (t : Fin cfg0.N) (q : Fin 128) :
    (iblk0 V c 7 t : Vec Ideal S128 .f32) (ix1 q) = (V c main_arg6 : S128.Idx → EReal) (ix1 q) := by
  obtain ⟨e00, e01, e10, e11, e20, e21, e30, e31, e40, e41, e50, e51, e60, e61, e70, e80, e81, e90, e91, e92, eA0, eA1, eA2⟩ := idx_facts t
  unfold iblk0
  rw [View.read_apply]
  show V c main_arg6 _ = V c main_arg6 _
  congr 1
  funext a
  apply Fin.ext
  match a with
  | ⟨0, _⟩ => show win0_7.index t (0 : Fin 1) * 128 + 1 * q.val = q.val; rw [e70]; omega

/-! ## The body's block at a point, as rows of layer 0 -/

/-- The clamped layer-0 block the body computes at point t. -/
abbrev hblk (c : Dev nD) (t : Fin cfg0.N) : FVec Ideal S4000x128 .f32 :=
  k0_pay3 (F := Ideal) (iblk0 V c 0 t) (iblk0 V c 1 t) (iblk0 V c 2 t) (iblk0 V c 3 t) (iblk0 V c 4 t) (iblk0 V c 5 t) (iblk0 V c 6 t) (iblk0 V c 7 t)

/-- Row p of point t's block is row 4000 t + p of layer 0 after the clamp. -/
theorem hblk_apply (c : Dev nD) (t : Fin cfg0.N) (p : Fin 4000) (q : Fin 128) (hn : 4000 * t.val + p.val < 100000) :
    hblk V c t (ix2 p q) = H0 V c ⟨4000 * t.val + p.val, hn⟩ q := by
  refine (pay3_apply (iblk0 V c 0 t) (iblk0 V c 1 t) (iblk0 V c 2 t) (iblk0 V c 3 t) (iblk0 V c 4 t) (iblk0 V c 5 t) (iblk0 V c 6 t) (iblk0 V c 7 t) p q).trans ?_
  show max _ cZero = max (z0K _ _ _ _ _ _ _ _ ⟨4000 * t.val + p.val, hn⟩ q) cZero
  unfold z0K
  refine congrArg (fun z => max z cZero) ?_
  refine congrArg₂ (· + ·) (congrArg₂ (· + ·) (congrArg₂ (· + ·) (Finset.sum_congr rfl fun k _ => ?_) (Finset.sum_congr rfl fun k _ => ?_)) (Finset.sum_congr rfl fun b _ => ?_)) ?_
  · exact congrArg₂ (· * ·) (blk_x V c t p k hn) (blk_wx V c t k q)
  · exact congrArg₂ (· * ·) (congrArg₂ (· * ·) (blk_s V c t p k hn) (blk_ic V c t p 0 hn)) (blk_wv V c t k q)
  · exact congrArg₂ (· * ·) (congrArg (fun w => ohE w b) (blk_b V c t p 0 hn)) (blk_uw V c t b q)
  · exact blk_b0 V c t q

theorem row_lt (a : Nat) (ha : a < 25) (r : Fin 4000) : 4000 * a + r.val < 100000 := by have := r.isLt; omega

/-! ## The clamped rows: output window 8 -/

/-- The first output array as one function of its index. -/
def G8 (c : Dev nD) : S100000x128.Idx → EReal := fun i => H0 V c ⟨(i 0).val, idx2_lt0 i⟩ ⟨(i 1).val, idx2_lt1 i⟩

/-- What point t writes back to the first output is block t of that function. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz2]
  simp only [View.ld_unit_zero (S := S4000x128) hz2, View.ld_unit_zero (S := S4000x1) hz2, View.ld_unit_zero (S := S128x128) hz2, View.ld_unit_zero (S := S512x128) hz2, View.ld_unit_zero (S := S128) hz1]
  obtain ⟨e00, e01, e10, e11, e20, e21, e30, e31, e40, e41, e50, e51, e60, e61, e70, e80, e81, e90, e91, e92, eA0, eA1, eA2⟩ := idx_facts t
  funext j
  obtain ⟨p, q, rfl⟩ : ∃ (p : Fin 4000) (q : Fin 128), j = ix2 p q := ⟨j 0, j 1, eq_ix2 j⟩
  have ht := t_lt t
  have hn : 4000 * t.val + p.val < 100000 := by have := p.isLt; omega
  have hemb : ((cfg0.win 8).blk t).view.emb (ix2 p q) = (ix2 ⟨4000 * t.val + p.val, hn⟩ q : S100000x128.Idx) := by
    funext a
    apply Fin.ext
    match a with
    | ⟨0, _⟩ => show win0_8.index t (0 : Fin 2) * 4000 + 1 * p.val = 4000 * t.val + p.val; rw [e80]; omega
    | ⟨1, _⟩ => show win0_8.index t (1 : Fin 2) * 128 + 1 * q.val = q.val; rw [e81]; omega
  show hblk V c t (ix2 p q) = G8 V c (((cfg0.win 8).blk t).view.emb (ix2 p q))
  rw [hemb]
  exact hblk_apply V c t p q hn

/-- An index of the first output is in point t's block iff each coordinate is in the block's range. -/
theorem mem_blk8 (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v18_0).slice (win0_8.rect t)).set ↔ _
  rw [View.set_slice_whole, Rect.mem_set_unit]
  exact Iff.rfl

/-- Row n lies in the block of point n / 4000. -/
theorem cover8 (i : S100000x128.Idx) : ∃ t : Fin cfg0.N, (cfg0.win 8).flush t = true ∧ i ∈ ((cfg0.win 8).blk t).view.set := by
  have hi0 : (i 0).val < 100000 := idx2_lt0 i
  have hi1 : (i 1).val < 128 := idx2_lt1 i
  have hN : cfg0.N = 25 := N_0
  obtain ⟨t, ht⟩ : ∃ t : Fin cfg0.N, t.val = (i 0).val / 4000 := ⟨⟨(i 0).val / 4000, by rw [hN]; omega⟩, rfl⟩
  refine ⟨t, flush0_8 t, ?_⟩
  rw [mem_blk8]
  obtain ⟨e00, e01, e10, e11, e20, e21, e30, e31, e40, e41, e50, e51, e60, e61, e70, e80, e81, e90, e91, e92, eA0, eA1, eA2⟩ := idx_facts t
  intro a
  match a with
  | ⟨0, _⟩ => show win0_8.index t (0 : Fin 2) * 4000 ≤ (i 0).val ∧ (i 0).val < win0_8.index t (0 : Fin 2) * 4000 + 4000; rw [e80, ht]; omega
  | ⟨1, _⟩ => show win0_8.index t (1 : Fin 2) * 128 ≤ (i 1).val ∧ (i 1).val < win0_8.index t (1 : Fin 2) * 128 + 128; rw [e81]; omega

/-- The first output array after the whole grid. -/
theorem arr8 (c : Dev nD) : (dat0 V c).arrAt 8 cfg0.N = G8 V c :=
  (dat0 V c).arrAt_eq_of_cover 8 (G8 V c) (fun t _ => flushed8_eq V c t) cover8

theorem reg0_h (c : Dev nD) (n : Fin 100000) (j : Fin 128) :
    ((dat0 V c).arrAt 8 cfg0.N : S100000x128.Idx → EReal) (ix2 n j) = H0 V c n j :=
  congrFun (arr8 V c) (ix2 n j)

/-! ## The per-block column sums: output windows 9 and 10 -/

/-- The second output array as one function of its index: entry (t, 0, j) is the sum of column j of layer 0 over the 4000 rows of block t. -/
def G9 (c : Dev nD) : S25x1x128.Idx → EReal := fun i =>
  ∑ r : Fin 4000, H0 V c ⟨4000 * (i 0).val + r.val, row_lt _ (i 0).isLt r⟩ ⟨(i 2).val, (i 2).isLt⟩

/-- What point t writes back to the second output is block t of that function. -/
theorem flushed9_eq (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz3]
  simp only [View.ld_unit_zero (S := S4000x128) hz2, View.ld_unit_zero (S := S4000x1) hz2, View.ld_unit_zero (S := S128x128) hz2, View.ld_unit_zero (S := S512x128) hz2, View.ld_unit_zero (S := S128) hz1]
  obtain ⟨e00, e01, e10, e11, e20, e21, e30, e31, e40, e41, e50, e51, e60, e61, e70, e80, e81, e90, e91, e92, eA0, eA1, eA2⟩ := idx_facts t
  funext j
  obtain ⟨u0, u1, q, rfl⟩ : ∃ (u0 u1 : Fin 1) (q : Fin 128), j = ix3 u0 u1 q := ⟨j 0, j 1, j 2, eq_ix3 j⟩
  have ht := t_lt t
  have hemb : ((cfg0.win 9).blk t).view.emb (ix3 u0 u1 q) = (ix3 (⟨t.val, ht⟩ : Fin 25) (0 : Fin 1) q : S25x1x128.Idx) := by
    funext a
    apply Fin.ext
    match a with
    | ⟨0, _⟩ => show win0_9.index t (0 : Fin 3) * 1 + 1 * u0.val = t.val; rw [e90]; omega
    | ⟨1, _⟩ => show win0_9.index t (1 : Fin 3) * 1 + 1 * u1.val = 0; rw [e91]; omega
    | ⟨2, _⟩ => show win0_9.index t (2 : Fin 3) * 128 + 1 * q.val = q.val; rw [e92]; omega
  show k0_pay1 (F := Ideal) (hblk V c t) (ix3 u0 u1 q) = G9 V c (((cfg0.win 9).blk t).view.emb (ix3 u0 u1 q))
  rw [hemb]
  refine (pay1_apply (hblk V c t) u0 u1 q).trans ?_
  show _ = ∑ r : Fin 4000, H0 V c ⟨4000 * t.val + r.val, row_lt _ ht r⟩ q
  refine Finset.sum_congr rfl fun r _ => ?_
  exact hblk_apply V c t r q (row_lt _ ht r)

/-- An index of this output is in point t's block iff each coordinate is in the block's range. -/
theorem mem_blk9 (t : Fin cfg0.N) (i : S25x1x128.Idx) :
    i ∈ ((cfg0.win 9).blk t).view.set ↔ ∀ a : Fin 3, win0_9.index t a * S1x1x128.size a ≤ (i a).val ∧ (i a).val < win0_9.index t a * S1x1x128.size a + S1x1x128.size a := by
  show i ∈ ((View.whole main_v18_1).slice (win0_9.rect t)).set ↔ _
  rw [View.set_slice_whole, Rect.mem_set_unit]
  exact Iff.rfl

/-- Entry (t, 0, j) lies in the block of point t. -/
theorem cover9 (i : S25x1x128.Idx) : ∃ t : Fin cfg0.N, (cfg0.win 9).flush t = true ∧ i ∈ ((cfg0.win 9).blk t).view.set := by
  have hi0 : (i 0).val < 25 := (i 0).isLt
  have hi1 : (i 1).val < 1 := (i 1).isLt
  have hi2 : (i 2).val < 128 := (i 2).isLt
  have hN : cfg0.N = 25 := N_0
  obtain ⟨t, ht⟩ : ∃ t : Fin cfg0.N, t.val = (i 0).val := ⟨⟨(i 0).val, by rw [hN]; exact hi0⟩, rfl⟩
  refine ⟨t, flush0_9 t, ?_⟩
  rw [mem_blk9]
  obtain ⟨e00, e01, e10, e11, e20, e21, e30, e31, e40, e41, e50, e51, e60, e61, e70, e80, e81, e90, e91, e92, eA0, eA1, eA2⟩ := idx_facts t
  intro a
  match a with
  | ⟨0, _⟩ => show win0_9.index t (0 : Fin 3) * 1 ≤ (i 0).val ∧ (i 0).val < win0_9.index t (0 : Fin 3) * 1 + 1; rw [e90, ht]; omega
  | ⟨1, _⟩ => show win0_9.index t (1 : Fin 3) * 1 ≤ (i 1).val ∧ (i 1).val < win0_9.index t (1 : Fin 3) * 1 + 1; rw [e91]; omega
  | ⟨2, _⟩ => show win0_9.index t (2 : Fin 3) * 128 ≤ (i 2).val ∧ (i 2).val < win0_9.index t (2 : Fin 3) * 128 + 128; rw [e92]; omega

/-- The second output array after the whole grid. -/
theorem arr9 (c : Dev nD) : (dat0 V c).arrAt 9 cfg0.N = G9 V c :=
  (dat0 V c).arrAt_eq_of_cover 9 (G9 V c) (fun t _ => flushed9_eq V c t) cover9

theorem reg0_sum (c : Dev nD) (t : Fin 25) (j : Fin 128) :
    ((dat0 V c).arrAt 9 cfg0.N : S25x1x128.Idx → EReal) (ix3 t (0 : Fin 1) j)
      = ∑ r : Fin 4000, H0 V c ⟨4000 * t.val + r.val, by show _ < 100000; have := t.isLt; have := r.isLt; omega⟩ j :=
  congrFun (arr9 V c) (ix3 t (0 : Fin 1) j)

/-- The third output array as one function of its index: entry (t, 0, j) is the sum of the squares of column j of layer 0 over the 4000 rows of block t. -/
def G10 (c : Dev nD) : S25x1x128.Idx → EReal := fun i =>
  ∑ r : Fin 4000, H0 V c ⟨4000 * (i 0).val + r.val, row_lt _ (i 0).isLt r⟩ ⟨(i 2).val, (i 2).isLt⟩ * H0 V c ⟨4000 * (i 0).val + r.val, row_lt _ (i 0).isLt r⟩ ⟨(i 2).val, (i 2).isLt⟩

/-- What point t writes back to the third output is block t of that function. -/
theorem flushed10_eq (c : Dev nD) (t : Fin cfg0.N) :
    (dat0 V c).flushed 10 t = ((cfg0.win 10).blk t).view.read (Elt Ideal) (G10 V c) := by
  show (cfg0.win 10).cut (grid0.coords t) ((dat0 V c).after 10 t) = _
  rw [after0_10]
  unfold out0_10
  rw [View.canon_unit_zero hz3]
  simp only [View.ld_unit_zero (S := S4000x128) hz2, View.ld_unit_zero (S := S4000x1) hz2, View.ld_unit_zero (S := S128x128) hz2, View.ld_unit_zero (S := S512x128) hz2, View.ld_unit_zero (S := S128) hz1]
  obtain ⟨e00, e01, e10, e11, e20, e21, e30, e31, e40, e41, e50, e51, e60, e61, e70, e80, e81, e90, e91, e92, eA0, eA1, eA2⟩ := idx_facts t
  funext j
  obtain ⟨u0, u1, q, rfl⟩ : ∃ (u0 u1 : Fin 1) (q : Fin 128), j = ix3 u0 u1 q := ⟨j 0, j 1, j 2, eq_ix3 j⟩
  have ht := t_lt t
  have hemb : ((cfg0.win 10).blk t).view.emb (ix3 u0 u1 q) = (ix3 (⟨t.val, ht⟩ : Fin 25) (0 : Fin 1) q : S25x1x128.Idx) := by
    funext a
    apply Fin.ext
    match a with
    | ⟨0, _⟩ => show win0_10.index t (0 : Fin 3) * 1 + 1 * u0.val = t.val; rw [eA0]; omega
    | ⟨1, _⟩ => show win0_10.index t (1 : Fin 3) * 1 + 1 * u1.val = 0; rw [eA1]; omega
    | ⟨2, _⟩ => show win0_10.index t (2 : Fin 3) * 128 + 1 * q.val = q.val; rw [eA2]; omega
  show k0_pay2 (F := Ideal) (hblk V c t) (ix3 u0 u1 q) = G10 V c (((cfg0.win 10).blk t).view.emb (ix3 u0 u1 q))
  rw [hemb]
  refine (pay2_apply (hblk V c t) u0 u1 q).trans ?_
  show _ = ∑ r : Fin 4000, H0 V c ⟨4000 * t.val + r.val, row_lt _ ht r⟩ q * H0 V c ⟨4000 * t.val + r.val, row_lt _ ht r⟩ q
  refine Finset.sum_congr rfl fun r _ => ?_
  exact congrArg₂ (· * ·) (hblk_apply V c t r q (row_lt _ ht r)) (hblk_apply V c t r q (row_lt _ ht r))

/-- An index of this output is in point t's block iff each coordinate is in the block's range. -/
theorem mem_blk10 (t : Fin cfg0.N) (i : S25x1x128.Idx) :
    i ∈ ((cfg0.win 10).blk t).view.set ↔ ∀ a : Fin 3, win0_10.index t a * S1x1x128.size a ≤ (i a).val ∧ (i a).val < win0_10.index t a * S1x1x128.size a + S1x1x128.size a := by
  show i ∈ ((View.whole main_v18_2).slice (win0_10.rect t)).set ↔ _
  rw [View.set_slice_whole, Rect.mem_set_unit]
  exact Iff.rfl

/-- Entry (t, 0, j) lies in the block of point t. -/
theorem cover10 (i : S25x1x128.Idx) : ∃ t : Fin cfg0.N, (cfg0.win 10).flush t = true ∧ i ∈ ((cfg0.win 10).blk t).view.set := by
  have hi0 : (i 0).val < 25 := (i 0).isLt
  have hi1 : (i 1).val < 1 := (i 1).isLt
  have hi2 : (i 2).val < 128 := (i 2).isLt
  have hN : cfg0.N = 25 := N_0
  obtain ⟨t, ht⟩ : ∃ t : Fin cfg0.N, t.val = (i 0).val := ⟨⟨(i 0).val, by rw [hN]; exact hi0⟩, rfl⟩
  refine ⟨t, flush0_10 t, ?_⟩
  rw [mem_blk10]
  obtain ⟨e00, e01, e10, e11, e20, e21, e30, e31, e40, e41, e50, e51, e60, e61, e70, e80, e81, e90, e91, e92, eA0, eA1, eA2⟩ := idx_facts t
  intro a
  match a with
  | ⟨0, _⟩ => show win0_10.index t (0 : Fin 3) * 1 ≤ (i 0).val ∧ (i 0).val < win0_10.index t (0 : Fin 3) * 1 + 1; rw [eA0, ht]; omega
  | ⟨1, _⟩ => show win0_10.index t (1 : Fin 3) * 1 ≤ (i 1).val ∧ (i 1).val < win0_10.index t (1 : Fin 3) * 1 + 1; rw [eA1]; omega
  | ⟨2, _⟩ => show win0_10.index t (2 : Fin 3) * 128 ≤ (i 2).val ∧ (i 2).val < win0_10.index t (2 : Fin 3) * 128 + 128; rw [eA2]; omega

/-- The third output array after the whole grid. -/
theorem arr10 (c : Dev nD) : (dat0 V c).arrAt 10 cfg0.N = G10 V c :=
  (dat0 V c).arrAt_eq_of_cover 10 (G10 V c) (fun t _ => flushed10_eq V c t) cover10

theorem reg0_sq (c : Dev nD) (t : Fin 25) (j : Fin 128) :
    ((dat0 V c).arrAt 10 cfg0.N : S25x1x128.Idx → EReal) (ix3 t (0 : Fin 1) j)
      = ∑ r : Fin 4000, H0 V c ⟨4000 * t.val + r.val, by show _ < 100000; have := t.isLt; have := r.isLt; omega⟩ j * H0 V c ⟨4000 * t.val + r.val, by show _ < 100000; have := t.isLt; have := r.isLt; omega⟩ j :=
  congrFun (arr10 V c) (ix3 t (0 : Fin 1) j)

end Cert.KernelIdeal.KReg0
end
-- ==== Proof.KReg1.lean ====
import proofs.«426057_j62689342653098_3_alg».proof.Proof.Gen.KernelIdeal.Frame
import proofs.«426057_j62689342653098_3_alg».proof.Proof.Views
import Idealize.ShloMosaic.Lib.ValueLayout
import Idealize.ShloMosaic.PureOps.Ideal.Laws

set_option maxRecDepth 16384
noncomputable section
namespace Cert.KernelIdeal.KReg1
open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (V : (c : Dev nD) → (b : Ref sig .tc) → Buf (Elt Ideal) ((c : Thread nD τ).loc b))

/-- The offsets of a whole-buffer access, as the zero function. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The product of a block of rows with the weight matrix -/

/-- The left factor's row is the output's row … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … its column the summation index … -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … which is the right factor's row … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the right factor's column is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product onto the zero table, at row p and column q: the 128-term sum of row p times column q. -/
theorem matmul_zero_apply (a : FVec Ideal S5000x128 .bf16) (w : FVec Ideal S128x128 .bf16) (p : Fin 5000) (q : Fin 128) :
    (matmul dot_S5000x128_S128x128_S5000x128_1_0_0_1_n_n none a w (constant (F := Ideal) S5000x128 .f32 0x00000000#32) : FVec Ideal S5000x128 .f32) (ix2 p q)
      = ∑ k : Fin 128, (a (ix2 p k) : EReal) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## The body's arithmetic at an entry -/

/-- The layer at row p and column q of a block of 5000 rows: normalise the row, multiply by column q of the
    weights, add the bias, clamp at zero. -/
theorem layer_apply (x0 : Vec Ideal S5000x128 .bf16) (g mu iv be : Vec Ideal S128 .f32) (W : Vec Ideal S128x128 .f32)
    (b : Vec Ideal S128 .f32) (p : Fin 5000) (q : Fin 128) :
    (k1_pay2 (F := Ideal) x0 g mu iv be W b : FVec Ideal S5000x128 .f32) (ix2 p q)
      = max ((∑ k : Fin 128, ((g (ix1 k) : EReal) * ((x0 (ix2 p k) : EReal) - mu (ix1 k)) * iv (ix1 k) + be (ix1 k)) * (W (ix2 k q) : EReal))
          + (b (ix1 q) : EReal)) cZero := by
  unfold k1_pay2
  simp only [maximumf_apply, addf_apply, broadcast_apply, matmul_zero_apply, truncf_apply, extf_apply, mulf_apply, subf_apply,
    shapeCast_self, broadcastTo_1b_ab_apply, shapeCast_a_1a_apply]
  rfl

/-- The column sums of a block at column q: the 5000-term sum down the column. -/
theorem colsum_apply (src : FVec Ideal S5000x128 .f32) (hacc : (0x00000000#32 : BitVec 32) = 0x00000000#32) (q : Fin 128) :
    (multiReduction (F := Ideal) .add [0] S128 src 0x00000000#32 reduces_S5000x128_S128 (.inl rfl) hacc : FVec Ideal S128 .f32) (ix1 q)
      = ∑ r : Fin 5000, (src (ix2 r q) : EReal) := by
  refine (Ideal.multiReduction_add_single src 0x00000000#32 reduces_S5000x128_S128 (.inl rfl) hacc (ix1 q)).trans ?_
  refine Finset.sum_congr rfl fun r _ => congrArg src ?_
  funext a; apply Fin.ext
  match a with
  | ⟨0, _⟩ => rfl
  | ⟨1, _⟩ => rfl

/-- The block's column sums, stored as a [1, 1, 128] block. -/
theorem sums_apply (x0 : Vec Ideal S5000x128 .bf16) (g mu iv be : Vec Ideal S128 .f32) (W : Vec Ideal S128x128 .f32)
    (b : Vec Ideal S128 .f32) (u v : Fin 1) (q : Fin 128) :
    (k1_pay5 (F := Ideal) x0 g mu iv be W b : FVec Ideal S1x1x128 .f32) (ix3 u v q)
      = ∑ r : Fin 5000, ((k1_pay2 (F := Ideal) x0 g mu iv be W b : FVec Ideal S5000x128 .f32) (ix2 r q) : EReal) := by
  unfold k1_pay5
  refine (shapeCast_ab_1ab_apply _ _ u v q).trans ?_
  refine (shapeCast_a_1a_apply _ _ v q).trans ?_
  exact colsum_apply _ _ q

/-- The block's column sums of squares, stored as a [1, 1, 128] block. -/
theorem squares_apply (x0 : Vec Ideal S5000x128 .bf16) (g mu iv be : Vec Ideal S128 .f32) (W : Vec Ideal S128x128 .f32)
    (b : Vec Ideal S128 .f32) (u v : Fin 1) (q : Fin 128) :
    (k1_pay1 (F := Ideal) (k1_pay4 (F := Ideal) x0 g mu iv be W b) : FVec Ideal S1x1x128 .f32) (ix3 u v q)
      = ∑ r : Fin 5000, ((k1_pay2 (F := Ideal) x0 g mu iv be W b : FVec Ideal S5000x128 .f32) (ix2 r q) : EReal)
          * (k1_pay2 (F := Ideal) x0 g mu iv be W b : FVec Ideal S5000x128 .f32) (ix2 r q) := by
  unfold k1_pay1 k1_pay4
  refine (shapeCast_ab_1ab_apply _ _ u v q).trans ?_
  refine (shapeCast_a_1a_apply _ _ v q).trans ?_
  refine (colsum_apply _ _ q).trans ?_
  rfl

/-! ## Where the windows sit at a grid point -/

/-- The input table's block at point t is block row t. -/
theorem idx_h : ∀ t : Fin cfg1.N, win1_0.index t (0 : Fin 2) = t.val ∧ win1_0.index t (1 : Fin 2) = 0 :=
  (by decide +kernel : ∀ t : Fin grid1.N, _)
/-- The rows and the weight matrix are whole at every point. -/
theorem idx_g : ∀ t : Fin cfg1.N, win1_1.index t (0 : Fin 1) = 0 := (by decide +kernel : ∀ t : Fin grid1.N, _)
theorem idx_be : ∀ t : Fin cfg1.N, win1_2.index t (0 : Fin 1) = 0 := (by decide +kernel : ∀ t : Fin grid1.N, _)
theorem idx_mu : ∀ t : Fin cfg1.N, win1_3.index t (0 : Fin 1) = 0 := (by decide +kernel : ∀ t : Fin grid1.N, _)
theorem idx_iv : ∀ t : Fin cfg1.N, win1_4.index t (0 : Fin 1) = 0 := (by decide +kernel : ∀ t : Fin grid1.N, _)
theorem idx_W : ∀ t : Fin cfg1.N, win1_5.index t (0 : Fin 2) = 0 ∧ win1_5.index t (1 : Fin 2) = 0 :=
  (by decide +kernel : ∀ t : Fin grid1.N, _)
theorem idx_b : ∀ t : Fin cfg1.N, win1_6.index t (0 : Fin 1) = 0 := (by decide +kernel : ∀ t : Fin grid1.N, _)
/-- The output table's block at point t is block row t; the two partial-sum arrays' block at point t is row t. -/
theorem idx_o7 : ∀ t : Fin cfg1.N, win1_7.index t (0 : Fin 2) = t.val ∧ win1_7.index t (1 : Fin 2) = 0 :=
  (by decide +kernel : ∀ t : Fin grid1.N, _)
theorem idx_o8 : ∀ t : Fin cfg1.N, win1_8.index t (0 : Fin 3) = t.val ∧ win1_8.index t (1 : Fin 3) = 0
    ∧ win1_8.index t (2 : Fin 3) = 0 :=
  (by decide +kernel : ∀ t : Fin grid1.N, _)
theorem idx_o9 : ∀ t : Fin cfg1.N, win1_9.index t (0 : Fin 3) = t.val ∧ win1_9.index t (1 : Fin 3) = 0
    ∧ win1_9.index t (2 : Fin 3) = 0 :=
  (by decide +kernel : ∀ t : Fin grid1.N, _)

/-! ## The input blocks as parts of the arrays -/

/-- The input table's block at point t is rows 5000 t … 5000 t + 4999 of the table. -/
theorem h_blk (c : Dev nD) (t : Fin cfg1.N) (p : Fin 5000) (n : Fin 100000) (hn : n.val = 5000 * t.val + p.val) (k : Fin 128) :
    (iblk1 V c 0 t : Vec Ideal S5000x128 .bf16) (ix2 p k) = (V c main_v18_0 : S100000x128.Idx → EReal) (ix2 n k) := by
  unfold iblk1
  rw [View.read_apply]
  show V c main_v18_0 _ = V c main_v18_0 _
  congr 1
  funext a; apply Fin.ext
  match a with
  | ⟨0, _⟩ => show win1_0.index t 0 * 5000 + 1 * p.val = n.val; rw [(idx_h t).1, hn]; omega
  | ⟨1, _⟩ => show win1_0.index t 1 * 128 + 1 * k.val = k.val; rw [(idx_h t).2]; omega

/-- Each row's block is the whole row, at every point. -/
theorem g_blk (c : Dev nD) (t : Fin cfg1.N) (k : Fin 128) :
    (iblk1 V c 1 t : Vec Ideal S128 .f32) (ix1 k) = (V c main_arg11 : S128.Idx → EReal) (ix1 k) := by
  unfold iblk1
  rw [View.read_apply]
  show V c main_arg11 _ = V c main_arg11 _
  congr 1
  funext a; apply Fin.ext
  match a with
  | ⟨0, _⟩ => show win1_1.index t 0 * 128 + 1 * k.val = k.val; rw [idx_g t]; omega

theorem be_blk (c : Dev nD) (t : Fin cfg1.N) (k : Fin 128) :
    (iblk1 V c 2 t : Vec Ideal S128 .f32) (ix1 k) = (V c main_arg12 : S128.Idx → EReal) (ix1 k) := by
  unfold iblk1
  rw [View.read_apply]
  show V c main_arg12 _ = V c main_arg12 _
  congr 1
  funext a; apply Fin.ext
  match a with
  | ⟨0, _⟩ => show win1_2.index t 0 * 128 + 1 * k.val = k.val; rw [idx_be t]; omega

theorem mu_blk (c : Dev nD) (t : Fin cfg1.N) (k : Fin 128) :
    (iblk1 V c 3 t : Vec Ideal S128 .f32) (ix1 k) = (V c main_v22 : S128.Idx → EReal) (ix1 k) := by
  unfold iblk1
  rw [View.read_apply]
  show V c main_v22 _ = V c main_v22 _
  congr 1
  funext a; apply Fin.ext
  match a with
  | ⟨0, _⟩ => show win1_3.index t 0 * 128 + 1 * k.val = k.val; rw [idx_mu t]; omega

theorem iv_blk (c : Dev nD) (t : Fin cfg1.N) (k : Fin 128) :
    (iblk1 V c 4 t : Vec Ideal S128 .f32) (ix1 k) = (V c main_v31 : S128.Idx → EReal) (ix1 k) := by
  unfold iblk1
  rw [View.read_apply]
  show V c main_v31 _ = V c main_v31 _
  congr 1
  funext a; apply Fin.ext
  match a with
  | ⟨0, _⟩ => show win1_4.index t 0 * 128 + 1 * k.val = k.val; rw [idx_iv t]; omega

theorem b_blk (c : Dev nD) (t : Fin cfg1.N) (k : Fin 128) :
    (iblk1 V c 6 t : Vec Ideal S128 .f32) (ix1 k) = (V c main_arg8 : S128.Idx → EReal) (ix1 k) := by
  unfold iblk1
  rw [View.read_apply]
  show V c main_arg8 _ = V c main_arg8 _
  congr 1
  funext a; apply Fin.ext
  match a with
  | ⟨0, _⟩ => show win1_6.index t 0 * 128 + 1 * k.val = k.val; rw [idx_b t]; omega

/-- The weight matrix's block is the whole matrix, at every point. -/
theorem W_blk (c : Dev nD) (t : Fin cfg1.N) (k q : Fin 128) :
    (iblk1 V c 5 t : Vec Ideal S128x128 .f32) (ix2 k q) = (V c main_arg7 : S128x128.Idx → EReal) (ix2 k q) := by
  unfold iblk1
  rw [View.read_apply]
  show V c main_arg7 _ = V c main_arg7 _
  congr 1
  funext a; apply Fin.ext
  match a with
  | ⟨0, _⟩ => show win1_5.index t 0 * 128 + 1 * k.val = k.val; rw [(idx_W t).1]; omega
  | ⟨1, _⟩ => show win1_5.index t 1 * 128 + 1 * q.val = q.val; rw [(idx_W t).2]; omega

/-! ## The layer on the whole table, and a block of it -/

/-- The layer's output on the whole table: normalise every row with the four rows the region found, multiply by the
    weight matrix, add the bias, clamp at zero. -/
abbrev H1 (c : Dev nD) : Tab R D :=
  lay (tab (V c main_arg7 : S128x128.Idx → EReal)) (row (V c main_arg8 : S128.Idx → EReal))
    (bn (row (V c main_arg11 : S128.Idx → EReal)) (row (V c main_arg12 : S128.Idx → EReal))
      (row (V c main_v22 : S128.Idx → EReal)) (row (V c main_v31 : S128.Idx → EReal))
      (tab (V c main_v18_0 : S100000x128.Idx → EReal)))

/-- The body's layer on the block at point t is rows 5000 t … 5000 t + 4999 of the layer on the whole table. -/
theorem blk_h (c : Dev nD) (t : Fin cfg1.N) (p : Fin 5000) (q : Fin 128) (n : Fin 100000)
    (hn : n.val = 5000 * t.val + p.val) :
    (k1_pay2 (F := Ideal) (iblk1 V c 0 t) (iblk1 V c 1 t) (iblk1 V c 3 t) (iblk1 V c 4 t) (iblk1 V c 2 t) (iblk1 V c 5 t) (iblk1 V c 6 t) : FVec Ideal S5000x128 .f32) (ix2 p q)
      = H1 V c n q := by
  refine (layer_apply (iblk1 V c 0 t) (iblk1 V c 1 t) (iblk1 V c 3 t) (iblk1 V c 4 t) (iblk1 V c 2 t) (iblk1 V c 5 t) (iblk1 V c 6 t) p q).trans ?_
  simp only [h_blk V c t p n hn, g_blk V c t, be_blk V c t, mu_blk V c t, iv_blk V c t, W_blk V c t, b_blk V c t]
  rfl

/-! ## The output table -/

/-- An entry of the output table's block at point t sits in the table at row 5000 t + p. -/
theorem h_emb (t : Fin cfg1.N) (p : Fin 5000) (q : Fin 128) (n : Fin 100000) (hn : n.val = 5000 * t.val + p.val) :
    ((cfg1.win 7).blk t).view.emb (ix2 p q) = (ix2 n q : S100000x128.Idx) := by
  funext a; apply Fin.ext
  match a with
  | ⟨0, _⟩ => show win1_7.index t 0 * 5000 + 1 * p.val = n.val; rw [(idx_o7 t).1, hn]; omega
  | ⟨1, _⟩ => show win1_7.index t 1 * 128 + 1 * q.val = q.val; rw [(idx_o7 t).2]; omega

/-- The whole output table, entry by entry. -/
abbrev Gh (c : Dev nD) : S100000x128.Idx → EReal := fun i => H1 V c ⟨(i 0).val, idx2_lt0 i⟩ ⟨(i 1).val, idx2_lt1 i⟩

/-- What point t writes back to the output table is block t of the layer on the whole table. -/
theorem flushed_h (c : Dev nD) (t : Fin cfg1.N) :
    (dat1 V c).flushed 7 t = ((cfg1.win 7).blk t).view.read (Elt Ideal) (Gh V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128) hz1, View.ld_unit_zero (S := S128x128) hz2]
  funext j
  obtain ⟨p, q, rfl⟩ : ∃ (p : Fin 5000) (q : Fin 128), j = ix2 p q := ⟨j 0, j 1, eq_ix2 j⟩
  have ht : t.val < 20 := lt_of_lt_of_eq t.isLt N_1
  have hn : (⟨5000 * t.val + p.val, by have := p.isLt; omega⟩ : Fin 100000).val = 5000 * t.val + p.val := rfl
  show (k1_pay3 (F := Ideal) (iblk1 V c 0 t) (iblk1 V c 1 t) (iblk1 V c 3 t) (iblk1 V c 4 t) (iblk1 V c 2 t) (iblk1 V c 5 t) (iblk1 V c 6 t) : FVec Ideal S5000x128 .bf16) (ix2 p q)
    = Gh V c (((cfg1.win 7).blk t).view.emb (ix2 p q))
  rw [h_emb t p q _ hn]
  exact blk_h V c t p q _ hn

/-- An index of the output table is in point t's block iff each coordinate is in the block's range on its axis. -/
theorem mem_blk7 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v32_0).slice (win1_7.rect t)).set ↔ _
  rw [View.set_slice_whole, Rect.mem_set_unit]
  exact Iff.rfl

/-- Row r of the output table is written by point r / 5000. -/
theorem cover7 (i : S100000x128.Idx) :
    ∃ t : Fin cfg1.N, (cfg1.win 7).flush t = true ∧ i ∈ ((cfg1.win 7).blk t).view.set := by
  have hi0 : (i 0).val < 100000 := idx2_lt0 i
  have hi1 : (i 1).val < 128 := idx2_lt1 i
  have hlt : (i 0).val / 5000 < cfg1.N := lt_of_lt_of_eq (by omega : (i 0).val / 5000 < 20) N_1.symm
  refine ⟨⟨(i 0).val / 5000, hlt⟩, flush1_7 _, ?_⟩
  rw [mem_blk7]
  obtain ⟨e0, e1⟩ := idx_o7 ⟨(i 0).val / 5000, hlt⟩
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, hlt⟩ (1 : Fin 2) * 128 ≤ (i 1).val
      ∧ (i 1).val < win1_7.index ⟨(i 0).val / 5000, hlt⟩ (1 : Fin 2) * 128 + 128
    rw [e1]; omega

/-- After the region the output table is the layer on the table the region found, entry by entry. -/
theorem reg1_h (c : Dev nD) (n : Fin 100000) (j : Fin 128) :
    ((dat1 V c).arrAt 7 cfg1.N : S100000x128.Idx → EReal) (ix2 n j) = H1 V c n j := by
  rw [(dat1 V c).arrAt_eq_of_cover 7 (Gh V c) (fun t _ => flushed_h V c t) cover7]

/-! ## The two arrays of partial column sums -/

theorem lt20 (i : S20x1x128.Idx) : (i 0).val < 20 := (i 0).isLt
theorem lt128 (i : S20x1x128.Idx) : (i 2).val < 128 := (i 2).isLt

/-- Row t of the partial sums: the sums down each column of rows 5000 t … 5000 t + 4999 of the layer's output. -/
abbrev Gsum (c : Dev nD) : S20x1x128.Idx → EReal := fun i =>
  ∑ r : Fin 5000, H1 V c ⟨5000 * (i 0).val + r.val, by show _ < 100000; have := lt20 i; have := r.isLt; omega⟩ ⟨(i 2).val, lt128 i⟩
/-- Row t of the partial sums of squares. -/
abbrev Gsq (c : Dev nD) : S20x1x128.Idx → EReal := fun i =>
  ∑ r : Fin 5000, H1 V c ⟨5000 * (i 0).val + r.val, by show _ < 100000; have := lt20 i; have := r.isLt; omega⟩ ⟨(i 2).val, lt128 i⟩
    * H1 V c ⟨5000 * (i 0).val + r.val, by show _ < 100000; have := lt20 i; have := r.isLt; omega⟩ ⟨(i 2).val, lt128 i⟩

/-- The one row of a partial-sum block at point t is row t of its array. -/
theorem sum_emb (t : Fin cfg1.N) (u v : Fin 1) (q : Fin 128) (s : Fin 20) (hs : s.val = t.val) :
    ((cfg1.win 8).blk t).view.emb (ix3 u v q) = (ix3 s (0 : Fin 1) q : S20x1x128.Idx) := by
  have hu := u.isLt
  have hv := v.isLt
  funext a; apply Fin.ext
  match a with
  | ⟨0, _⟩ => show win1_8.index t 0 * 1 + 1 * u.val = s.val; rw [(idx_o8 t).1, hs]; omega
  | ⟨1, _⟩ => show win1_8.index t 1 * 1 + 1 * v.val = 0; rw [(idx_o8 t).2.1]; omega
  | ⟨2, _⟩ => show win1_8.index t 2 * 128 + 1 * q.val = q.val; rw [(idx_o8 t).2.2]; omega
theorem sq_emb (t : Fin cfg1.N) (u v : Fin 1) (q : Fin 128) (s : Fin 20) (hs : s.val = t.val) :
    ((cfg1.win 9).blk t).view.emb (ix3 u v q) = (ix3 s (0 : Fin 1) q : S20x1x128.Idx) := by
  have hu := u.isLt
  have hv := v.isLt
  funext a; apply Fin.ext
  match a with
  | ⟨0, _⟩ => show win1_9.index t 0 * 1 + 1 * u.val = s.val; rw [(idx_o9 t).1, hs]; omega
  | ⟨1, _⟩ => show win1_9.index t 1 * 1 + 1 * v.val = 0; rw [(idx_o9 t).2.1]; omega
  | ⟨2, _⟩ => show win1_9.index t 2 * 128 + 1 * q.val = q.val; rw [(idx_o9 t).2.2]; omega

/-- What point t writes back to the partial sums is row t of them. -/
theorem flushed_sum (c : Dev nD) (t : Fin cfg1.N) :
    (dat1 V c).flushed 8 t = ((cfg1.win 8).blk t).view.read (Elt Ideal) (Gsum V c) := by
  show (cfg1.win 8).cut (grid1.coords t) ((dat1 V c).after 8 t) = _
  rw [after1_8]
  unfold out1_8
  rw [View.canon_unit_zero hz3]
  simp only [View.ld_unit_zero (S := S5000x128) hz2, View.ld_unit_zero (S := S128) hz1, View.ld_unit_zero (S := S128x128) hz2]
  funext j
  obtain ⟨u, v, q, rfl⟩ : ∃ (u v : Fin 1) (q : Fin 128), j = ix3 u v q := ⟨j 0, j 1, j 2, eq_ix3 j⟩
  have ht : t.val < 20 := lt_of_lt_of_eq t.isLt N_1
  show (k1_pay5 (F := Ideal) (iblk1 V c 0 t) (iblk1 V c 1 t) (iblk1 V c 3 t) (iblk1 V c 4 t) (iblk1 V c 2 t) (iblk1 V c 5 t) (iblk1 V c 6 t) : FVec Ideal S1x1x128 .f32) (ix3 u v q)
    = Gsum V c (((cfg1.win 8).blk t).view.emb (ix3 u v q))
  rw [sum_emb t u v q ⟨t.val, ht⟩ rfl]
  refine (sums_apply (iblk1 V c 0 t) (iblk1 V c 1 t) (iblk1 V c 3 t) (iblk1 V c 4 t) (iblk1 V c 2 t) (iblk1 V c 5 t) (iblk1 V c 6 t) u v q).trans ?_
  exact Finset.sum_congr rfl fun r _ => blk_h V c t r q _ rfl

/-- What point t writes back to the partial sums of squares is row t of them. -/
theorem flushed_sq (c : Dev nD) (t : Fin cfg1.N) :
    (dat1 V c).flushed 9 t = ((cfg1.win 9).blk t).view.read (Elt Ideal) (Gsq V c) := by
  show (cfg1.win 9).cut (grid1.coords t) ((dat1 V c).after 9 t) = _
  rw [after1_9]
  unfold out1_9
  rw [View.canon_unit_zero hz3]
  simp only [View.ld_unit_zero (S := S5000x128) hz2, View.ld_unit_zero (S := S128) hz1, View.ld_unit_zero (S := S128x128) hz2]
  funext j
  obtain ⟨u, v, q, rfl⟩ : ∃ (u v : Fin 1) (q : Fin 128), j = ix3 u v q := ⟨j 0, j 1, j 2, eq_ix3 j⟩
  have ht : t.val < 20 := lt_of_lt_of_eq t.isLt N_1
  show (k1_pay1 (F := Ideal) (k1_pay4 (F := Ideal) (iblk1 V c 0 t) (iblk1 V c 1 t) (iblk1 V c 3 t) (iblk1 V c 4 t) (iblk1 V c 2 t) (iblk1 V c 5 t) (iblk1 V c 6 t)) : FVec Ideal S1x1x128 .f32) (ix3 u v q)
    = Gsq V c (((cfg1.win 9).blk t).view.emb (ix3 u v q))
  rw [sq_emb t u v q ⟨t.val, ht⟩ rfl]
  refine (squares_apply (iblk1 V c 0 t) (iblk1 V c 1 t) (iblk1 V c 3 t) (iblk1 V c 4 t) (iblk1 V c 2 t) (iblk1 V c 5 t) (iblk1 V c 6 t) u v q).trans ?_
  exact Finset.sum_congr rfl fun r _ => congrArg₂ (· * ·) (blk_h V c t r q _ rfl) (blk_h V c t r q _ rfl)

/-- An index of a partial-sum array is in point t's block iff each coordinate is in the block's range on its axis. -/
theorem mem_blk8 (t : Fin cfg1.N) (i : S20x1x128.Idx) :
    i ∈ ((cfg1.win 8).blk t).view.set ↔ ∀ a : Fin 3, win1_8.index t a * S1x1x128.size a ≤ (i a).val
      ∧ (i a).val < win1_8.index t a * S1x1x128.size a + S1x1x128.size a := by
  show i ∈ ((View.whole main_v32_1).slice (win1_8.rect t)).set ↔ _
  rw [View.set_slice_whole, Rect.mem_set_unit]
  exact Iff.rfl
theorem mem_blk9 (t : Fin cfg1.N) (i : S20x1x128.Idx) :
    i ∈ ((cfg1.win 9).blk t).view.set ↔ ∀ a : Fin 3, win1_9.index t a * S1x1x128.size a ≤ (i a).val
      ∧ (i a).val < win1_9.index t a * S1x1x128.size a + S1x1x128.size a := by
  show i ∈ ((View.whole main_v32_2).slice (win1_9.rect t)).set ↔ _
  rw [View.set_slice_whole, Rect.mem_set_unit]
  exact Iff.rfl

/-- Row t of a partial-sum array is written by point t. -/
theorem cover8 (i : S20x1x128.Idx) :
    ∃ t : Fin cfg1.N, (cfg1.win 8).flush t = true ∧ i ∈ ((cfg1.win 8).blk t).view.set := by
  have hi0 : (i 0).val < 20 := lt20 i
  have hi1 : (i 1).val < 1 := (i 1).isLt
  have hi2 : (i 2).val < 128 := lt128 i
  have hlt : (i 0).val < cfg1.N := lt_of_lt_of_eq hi0 N_1.symm
  refine ⟨⟨(i 0).val, hlt⟩, flush1_8 _, ?_⟩
  rw [mem_blk8]
  obtain ⟨e0, e1, e2⟩ := idx_o8 ⟨(i 0).val, hlt⟩
  intro a
  match a with
  | ⟨0, _⟩ =>
    show win1_8.index ⟨(i 0).val, hlt⟩ (0 : Fin 3) * 1 ≤ (i 0).val ∧ (i 0).val < win1_8.index ⟨(i 0).val, hlt⟩ (0 : Fin 3) * 1 + 1
    rw [e0]; show (i 0).val * 1 ≤ (i 0).val ∧ (i 0).val < (i 0).val * 1 + 1; omega
  | ⟨1, _⟩ =>
    show win1_8.index ⟨(i 0).val, hlt⟩ (1 : Fin 3) * 1 ≤ (i 1).val ∧ (i 1).val < win1_8.index ⟨(i 0).val, hlt⟩ (1 : Fin 3) * 1 + 1
    rw [e1]; omega
  | ⟨2, _⟩ =>
    show win1_8.index ⟨(i 0).val, hlt⟩ (2 : Fin 3) * 128 ≤ (i 2).val ∧ (i 2).val < win1_8.index ⟨(i 0).val, hlt⟩ (2 : Fin 3) * 128 + 128
    rw [e2]; omega
theorem cover9 (i : S20x1x128.Idx) :
    ∃ t : Fin cfg1.N, (cfg1.win 9).flush t = true ∧ i ∈ ((cfg1.win 9).blk t).view.set := by
  have hi0 : (i 0).val < 20 := lt20 i
  have hi1 : (i 1).val < 1 := (i 1).isLt
  have hi2 : (i 2).val < 128 := lt128 i
  have hlt : (i 0).val < cfg1.N := lt_of_lt_of_eq hi0 N_1.symm
  refine ⟨⟨(i 0).val, hlt⟩, flush1_9 _, ?_⟩
  rw [mem_blk9]
  obtain ⟨e0, e1, e2⟩ := idx_o9 ⟨(i 0).val, hlt⟩
  intro a
  match a with
  | ⟨0, _⟩ =>
    show win1_9.index ⟨(i 0).val, hlt⟩ (0 : Fin 3) * 1 ≤ (i 0).val ∧ (i 0).val < win1_9.index ⟨(i 0).val, hlt⟩ (0 : Fin 3) * 1 + 1
    rw [e0]; show (i 0).val * 1 ≤ (i 0).val ∧ (i 0).val < (i 0).val * 1 + 1; omega
  | ⟨1, _⟩ =>
    show win1_9.index ⟨(i 0).val, hlt⟩ (1 : Fin 3) * 1 ≤ (i 1).val ∧ (i 1).val < win1_9.index ⟨(i 0).val, hlt⟩ (1 : Fin 3) * 1 + 1
    rw [e1]; omega
  | ⟨2, _⟩ =>
    show win1_9.index ⟨(i 0).val, hlt⟩ (2 : Fin 3) * 128 ≤ (i 2).val ∧ (i 2).val < win1_9.index ⟨(i 0).val, hlt⟩ (2 : Fin 3) * 128 + 128
    rw [e2]; omega

/-- After the region, row t of the partial sums holds the column sums of rows 5000 t … 5000 t + 4999 of the layer's output. -/
theorem reg1_sum (c : Dev nD) (t : Fin 20) (j : Fin 128) :
    ((dat1 V c).arrAt 8 cfg1.N : S20x1x128.Idx → EReal) (ix3 t (0 : Fin 1) j)
      = ∑ r : Fin 5000, H1 V c ⟨5000 * t.val + r.val, by show _ < 100000; have := t.isLt; have := r.isLt; omega⟩ j := by
  rw [(dat1 V c).arrAt_eq_of_cover 8 (Gsum V c) (fun t _ => flushed_sum V c t) cover8]

/-- After the region, row t of the partial sums of squares holds the column sums of the squares of those rows. -/
theorem reg1_sq (c : Dev nD) (t : Fin 20) (j : Fin 128) :
    ((dat1 V c).arrAt 9 cfg1.N : S20x1x128.Idx → EReal) (ix3 t (0 : Fin 1) j)
      = ∑ r : Fin 5000, H1 V c ⟨5000 * t.val + r.val, by show _ < 100000; have := t.isLt; have := r.isLt; omega⟩ j
          * H1 V c ⟨5000 * t.val + r.val, by show _ < 100000; have := t.isLt; have := r.isLt; omega⟩ j := by
  rw [(dat1 V c).arrAt_eq_of_cover 9 (Gsq V c) (fun t _ => flushed_sq V c t) cover9]

end Cert.KernelIdeal.KReg1
end
-- ==== Proof.KReg2.lean ====
import proofs.«426057_j62689342653098_3_alg».proof.Proof.Gen.KernelIdeal.Frame
import proofs.«426057_j62689342653098_3_alg».proof.Proof.Views
import Idealize.ShloMosaic.Lib.ValueLayout
import Idealize.ShloMosaic.PureOps.Ideal.Laws

set_option maxRecDepth 16384
noncomputable section
namespace Cert.KernelIdeal.KReg2
open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (V : (c : Dev nD) → (b : Ref sig .tc) → Buf (Elt Ideal) ((c : Thread nD τ).loc b))

/-- The offsets of a whole-buffer access, as the zero function. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The product of a block of rows with the weight matrix -/

/-- The left factor's row is the output's row … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … its column the summation index … -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … which is the right factor's row … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the right factor's column is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product onto the zero table, at row p and column q: the 128-term sum of row p times column q. -/
theorem matmul_zero_apply (a : FVec Ideal S5000x128 .bf16) (w : FVec Ideal S128x128 .bf16) (p : Fin 5000) (q : Fin 128) :
    (matmul dot_S5000x128_S128x128_S5000x128_1_0_0_1_n_n none a w (constant (F := Ideal) S5000x128 .f32 0x00000000#32) : FVec Ideal S5000x128 .f32) (ix2 p q)
      = ∑ k : Fin 128, (a (ix2 p k) : EReal) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## The body's arithmetic at an entry -/

/-- The layer at row p and column q of a block of 5000 rows: normalise the row, multiply by column q of the
    weights, add the bias, clamp at zero. -/
theorem layer_apply (x0 : Vec Ideal S5000x128 .bf16) (g mu iv be : Vec Ideal S128 .f32) (W : Vec Ideal S128x128 .f32)
    (b : Vec Ideal S128 .f32) (p : Fin 5000) (q : Fin 128) :
    (k2_pay2 (F := Ideal) x0 g mu iv be W b : FVec Ideal S5000x128 .f32) (ix2 p q)
      = max ((∑ k : Fin 128, ((g (ix1 k) : EReal) * ((x0 (ix2 p k) : EReal) - mu (ix1 k)) * iv (ix1 k) + be (ix1 k)) * (W (ix2 k q) : EReal))
          + (b (ix1 q) : EReal)) cZero := by
  unfold k2_pay2
  simp only [maximumf_apply, addf_apply, broadcast_apply, matmul_zero_apply, truncf_apply, extf_apply, mulf_apply, subf_apply,
    shapeCast_self, broadcastTo_1b_ab_apply, shapeCast_a_1a_apply]
  rfl

/-- The column sums of a block at column q: the 5000-term sum down the column. -/
theorem colsum_apply (src : FVec Ideal S5000x128 .f32) (hacc : (0x00000000#32 : BitVec 32) = 0x00000000#32) (q : Fin 128) :
    (multiReduction (F := Ideal) .add [0] S128 src 0x00000000#32 reduces_S5000x128_S128 (.inl rfl) hacc : FVec Ideal S128 .f32) (ix1 q)
      = ∑ r : Fin 5000, (src (ix2 r q) : EReal) := by
  refine (Ideal.multiReduction_add_single src 0x00000000#32 reduces_S5000x128_S128 (.inl rfl) hacc (ix1 q)).trans ?_
  refine Finset.sum_congr rfl fun r _ => congrArg src ?_
  funext a; apply Fin.ext
  match a with
  | ⟨0, _⟩ => rfl
  | ⟨1, _⟩ => rfl

/-- The block's column sums, stored as a [1, 1, 128] block. -/
theorem sums_apply (x0 : Vec Ideal S5000x128 .bf16) (g mu iv be : Vec Ideal S128 .f32) (W : Vec Ideal S128x128 .f32)
    (b : Vec Ideal S128 .f32) (u v : Fin 1) (q : Fin 128) :
    (k2_pay4 (F := Ideal) x0 g mu iv be W b : FVec Ideal S1x1x128 .f32) (ix3 u v q)
      = ∑ r : Fin 5000, ((k2_pay2 (F := Ideal) x0 g mu iv be W b : FVec Ideal S5000x128 .f32) (ix2 r q) : EReal) := by
  unfold k2_pay4
  refine (shapeCast_ab_1ab_apply _ _ u v q).trans ?_
  refine (shapeCast_a_1a_apply _ _ v q).trans ?_
  exact colsum_apply _ _ q

/-- The block's column sums of squares, stored as a [1, 1, 128] block. -/
theorem squares_apply (x0 : Vec Ideal S5000x128 .bf16) (g mu iv be : Vec Ideal S128 .f32) (W : Vec Ideal S128x128 .f32)
    (b : Vec Ideal S128 .f32) (u v : Fin 1) (q : Fin 128) :
    (k2_pay1 (F := Ideal) (k2_pay3 (F := Ideal) x0 g mu iv be W b) : FVec Ideal S1x1x128 .f32) (ix3 u v q)
      = ∑ r : Fin 5000, ((k2_pay2 (F := Ideal) x0 g mu iv be W b : FVec Ideal S5000x128 .f32) (ix2 r q) : EReal)
          * (k2_pay2 (F := Ideal) x0 g mu iv be W b : FVec Ideal S5000x128 .f32) (ix2 r q) := by
  unfold k2_pay1 k2_pay3
  refine (shapeCast_ab_1ab_apply _ _ u v q).trans ?_
  refine (shapeCast_a_1a_apply _ _ v q).trans ?_
  refine (colsum_apply _ _ q).trans ?_
  rfl

/-! ## Where the windows sit at a grid point -/

/-- The input table's block at point t is block row t. -/
theorem idx_h : ∀ t : Fin cfg2.N, win2_0.index t (0 : Fin 2) = t.val ∧ win2_0.index t (1 : Fin 2) = 0 :=
  (by decide +kernel : ∀ t : Fin grid2.N, _)
/-- The rows and the weight matrix are whole at every point. -/
theorem idx_g : ∀ t : Fin cfg2.N, win2_1.index t (0 : Fin 1) = 0 := (by decide +kernel : ∀ t : Fin grid2.N, _)
theorem idx_be : ∀ t : Fin cfg2.N, win2_2.index t (0 : Fin 1) = 0 := (by decide +kernel : ∀ t : Fin grid2.N, _)
theorem idx_mu : ∀ t : Fin cfg2.N, win2_3.index t (0 : Fin 1) = 0 := (by decide +kernel : ∀ t : Fin grid2.N, _)
theorem idx_iv : ∀ t : Fin cfg2.N, win2_4.index t (0 : Fin 1) = 0 := (by decide +kernel : ∀ t : Fin grid2.N, _)
theorem idx_W : ∀ t : Fin cfg2.N, win2_5.index t (0 : Fin 2) = 0 ∧ win2_5.index t (1 : Fin 2) = 0 :=
  (by decide +kernel : ∀ t : Fin grid2.N, _)
theorem idx_b : ∀ t : Fin cfg2.N, win2_6.index t (0 : Fin 1) = 0 := (by decide +kernel : ∀ t : Fin grid2.N, _)
/-- The output table's block at point t is block row t; the two partial-sum arrays' block at point t is row t. -/
theorem idx_o7 : ∀ t : Fin cfg2.N, win2_7.index t (0 : Fin 2) = t.val ∧ win2_7.index t (1 : Fin 2) = 0 :=
  (by decide +kernel : ∀ t : Fin grid2.N, _)
theorem idx_o8 : ∀ t : Fin cfg2.N, win2_8.index t (0 : Fin 3) = t.val ∧ win2_8.index t (1 : Fin 3) = 0
    ∧ win2_8.index t (2 : Fin 3) = 0 :=
  (by decide +kernel : ∀ t : Fin grid2.N, _)
theorem idx_o9 : ∀ t : Fin cfg2.N, win2_9.index t (0 : Fin 3) = t.val ∧ win2_9.index t (1 : Fin 3) = 0
    ∧ win2_9.index t (2 : Fin 3) = 0 :=
  (by decide +kernel : ∀ t : Fin grid2.N, _)

/-! ## The input blocks as parts of the arrays -/

/-- The input table's block at point t is rows 5000 t … 5000 t + 4999 of the table. -/
theorem h_blk (c : Dev nD) (t : Fin cfg2.N) (p : Fin 5000) (n : Fin 100000) (hn : n.val = 5000 * t.val + p.val) (k : Fin 128) :
    (iblk2 V c 0 t : Vec Ideal S5000x128 .bf16) (ix2 p k) = (V c main_v32_0 : S100000x128.Idx → EReal) (ix2 n k) := by
  unfold iblk2
  rw [View.read_apply]
  show V c main_v32_0 _ = V c main_v32_0 _
  congr 1
  funext a; apply Fin.ext
  match a with
  | ⟨0, _⟩ => show win2_0.index t 0 * 5000 + 1 * p.val = n.val; rw [(idx_h t).1, hn]; omega
  | ⟨1, _⟩ => show win2_0.index t 1 * 128 + 1 * k.val = k.val; rw [(idx_h t).2]; omega

/-- Each row's block is the whole row, at every point. -/
theorem g_blk (c : Dev nD) (t : Fin cfg2.N) (k : Fin 128) :
    (iblk2 V c 1 t : Vec Ideal S128 .f32) (ix1 k) = (V c main_arg13 : S128.Idx → EReal) (ix1 k) := by
  unfold iblk2
  rw [View.read_apply]
  show V c main_arg13 _ = V c main_arg13 _
  congr 1
  funext a; apply Fin.ext
  match a with
  | ⟨0, _⟩ => show win2_1.index t 0 * 128 + 1 * k.val = k.val; rw [idx_g t]; omega

theorem be_blk (c : Dev nD) (t : Fin cfg2.N) (k : Fin 128) :
    (iblk2 V c 2 t : Vec Ideal S128 .f32) (ix1 k) = (V c main_arg14 : S128.Idx → EReal) (ix1 k) := by
  unfold iblk2
  rw [View.read_apply]
  show V c main_arg14 _ = V c main_arg14 _
  congr 1
  funext a; apply Fin.ext
  match a with
  | ⟨0, _⟩ => show win2_2.index t 0 * 128 + 1 * k.val = k.val; rw [idx_be t]; omega

theorem mu_blk (c : Dev nD) (t : Fin cfg2.N) (k : Fin 128) :
    (iblk2 V c 3 t : Vec Ideal S128 .f32) (ix1 k) = (V c main_v36 : S128.Idx → EReal) (ix1 k) := by
  unfold iblk2
  rw [View.read_apply]
  show V c main_v36 _ = V c main_v36 _
  congr 1
  funext a; apply Fin.ext
  match a with
  | ⟨0, _⟩ => show win2_3.index t 0 * 128 + 1 * k.val = k.val; rw [idx_mu t]; omega

theorem iv_blk (c : Dev nD) (t : Fin cfg2.N) (k : Fin 128) :
    (iblk2 V c 4 t : Vec Ideal S128 .f32) (ix1 k) = (V c main_v45 : S128.Idx → EReal) (ix1 k) := by
  unfold iblk2
  rw [View.read_apply]
  show V c main_v45 _ = V c main_v45 _
  congr 1
  funext a; apply Fin.ext
  match a with
  | ⟨0, _⟩ => show win2_4.index t 0 * 128 + 1 * k.val = k.val; rw [idx_iv t]; omega

theorem b_blk (c : Dev nD) (t : Fin cfg2.N) (k : Fin 128) :
    (iblk2 V c 6 t : Vec Ideal S128 .f32) (ix1 k) = (V c main_arg10 : S128.Idx → EReal) (ix1 k) := by
  unfold iblk2
  rw [View.read_apply]
  show V c main_arg10 _ = V c main_arg10 _
  congr 1
  funext a; apply Fin.ext
  match a with
  | ⟨0, _⟩ => show win2_6.index t 0 * 128 + 1 * k.val = k.val; rw [idx_b t]; omega

/-- The weight matrix's block is the whole matrix, at every point. -/
theorem W_blk (c : Dev nD) (t : Fin cfg2.N) (k q : Fin 128) :
    (iblk2 V c 5 t : Vec Ideal S128x128 .f32) (ix2 k q) = (V c main_arg9 : S128x128.Idx → EReal) (ix2 k q) := by
  unfold iblk2
  rw [View.read_apply]
  show V c main_arg9 _ = V c main_arg9 _
  congr 1
  funext a; apply Fin.ext
  match a with
  | ⟨0, _⟩ => show win2_5.index t 0 * 128 + 1 * k.val = k.val; rw [(idx_W t).1]; omega
  | ⟨1, _⟩ => show win2_5.index t 1 * 128 + 1 * q.val = q.val; rw [(idx_W t).2]; omega

/-! ## The layer on the whole table, and a block of it -/

/-- The layer's output on the whole table: normalise every row with the four rows the region found, multiply by the
    weight matrix, add the bias, clamp at zero. -/
abbrev H2 (c : Dev nD) : Tab R D :=
  lay (tab (V c main_arg9 : S128x128.Idx → EReal)) (row (V c main_arg10 : S128.Idx → EReal))
    (bn (row (V c main_arg13 : S128.Idx → EReal)) (row (V c main_arg14 : S128.Idx → EReal))
      (row (V c main_v36 : S128.Idx → EReal)) (row (V c main_v45 : S128.Idx → EReal))
      (tab (V c main_v32_0 : S100000x128.Idx → EReal)))

/-- The body's layer on the block at point t is rows 5000 t … 5000 t + 4999 of the layer on the whole table. -/
theorem blk_h (c : Dev nD) (t : Fin cfg2.N) (p : Fin 5000) (q : Fin 128) (n : Fin 100000)
    (hn : n.val = 5000 * t.val + p.val) :
    (k2_pay2 (F := Ideal) (iblk2 V c 0 t) (iblk2 V c 1 t) (iblk2 V c 3 t) (iblk2 V c 4 t) (iblk2 V c 2 t) (iblk2 V c 5 t) (iblk2 V c 6 t) : FVec Ideal S5000x128 .f32) (ix2 p q)
      = H2 V c n q := by
  refine (layer_apply (iblk2 V c 0 t) (iblk2 V c 1 t) (iblk2 V c 3 t) (iblk2 V c 4 t) (iblk2 V c 2 t) (iblk2 V c 5 t) (iblk2 V c 6 t) p q).trans ?_
  simp only [h_blk V c t p n hn, g_blk V c t, be_blk V c t, mu_blk V c t, iv_blk V c t, W_blk V c t, b_blk V c t]
  rfl

/-! ## The output table -/

/-- An entry of the output table's block at point t sits in the table at row 5000 t + p. -/
theorem h_emb (t : Fin cfg2.N) (p : Fin 5000) (q : Fin 128) (n : Fin 100000) (hn : n.val = 5000 * t.val + p.val) :
    ((cfg2.win 7).blk t).view.emb (ix2 p q) = (ix2 n q : S100000x128.Idx) := by
  funext a; apply Fin.ext
  match a with
  | ⟨0, _⟩ => show win2_7.index t 0 * 5000 + 1 * p.val = n.val; rw [(idx_o7 t).1, hn]; omega
  | ⟨1, _⟩ => show win2_7.index t 1 * 128 + 1 * q.val = q.val; rw [(idx_o7 t).2]; omega

/-- The whole output table, entry by entry. -/
abbrev Gh (c : Dev nD) : S100000x128.Idx → EReal := fun i => H2 V c ⟨(i 0).val, idx2_lt0 i⟩ ⟨(i 1).val, idx2_lt1 i⟩

/-- What point t writes back to the output table is block t of the layer on the whole table. -/
theorem flushed_h (c : Dev nD) (t : Fin cfg2.N) :
    (dat2 V c).flushed 7 t = ((cfg2.win 7).blk t).view.read (Elt Ideal) (Gh V c) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128) hz1, View.ld_unit_zero (S := S128x128) hz2]
  funext j
  obtain ⟨p, q, rfl⟩ : ∃ (p : Fin 5000) (q : Fin 128), j = ix2 p q := ⟨j 0, j 1, eq_ix2 j⟩
  have ht : t.val < 20 := lt_of_lt_of_eq t.isLt N_2
  have hn : (⟨5000 * t.val + p.val, by have := p.isLt; omega⟩ : Fin 100000).val = 5000 * t.val + p.val := rfl
  show (k2_pay2 (F := Ideal) (iblk2 V c 0 t) (iblk2 V c 1 t) (iblk2 V c 3 t) (iblk2 V c 4 t) (iblk2 V c 2 t) (iblk2 V c 5 t) (iblk2 V c 6 t) : FVec Ideal S5000x128 .f32) (ix2 p q)
    = Gh V c (((cfg2.win 7).blk t).view.emb (ix2 p q))
  rw [h_emb t p q _ hn]
  exact blk_h V c t p q _ hn

/-- An index of the output table is in point t's block iff each coordinate is in the block's range on its axis. -/
theorem mem_blk7 (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v46_0).slice (win2_7.rect t)).set ↔ _
  rw [View.set_slice_whole, Rect.mem_set_unit]
  exact Iff.rfl

/-- Row r of the output table is written by point r / 5000. -/
theorem cover7 (i : S100000x128.Idx) :
    ∃ t : Fin cfg2.N, (cfg2.win 7).flush t = true ∧ i ∈ ((cfg2.win 7).blk t).view.set := by
  have hi0 : (i 0).val < 100000 := idx2_lt0 i
  have hi1 : (i 1).val < 128 := idx2_lt1 i
  have hlt : (i 0).val / 5000 < cfg2.N := lt_of_lt_of_eq (by omega : (i 0).val / 5000 < 20) N_2.symm
  refine ⟨⟨(i 0).val / 5000, hlt⟩, flush2_7 _, ?_⟩
  rw [mem_blk7]
  obtain ⟨e0, e1⟩ := idx_o7 ⟨(i 0).val / 5000, hlt⟩
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, hlt⟩ (1 : Fin 2) * 128 ≤ (i 1).val
      ∧ (i 1).val < win2_7.index ⟨(i 0).val / 5000, hlt⟩ (1 : Fin 2) * 128 + 128
    rw [e1]; omega

/-- After the region the output table is the layer on the table the region found, entry by entry. -/
theorem reg2_h (c : Dev nD) (n : Fin 100000) (j : Fin 128) :
    ((dat2 V c).arrAt 7 cfg2.N : S100000x128.Idx → EReal) (ix2 n j) = H2 V c n j := by
  rw [(dat2 V c).arrAt_eq_of_cover 7 (Gh V c) (fun t _ => flushed_h V c t) cover7]

/-! ## The two arrays of partial column sums -/

theorem lt20 (i : S20x1x128.Idx) : (i 0).val < 20 := (i 0).isLt
theorem lt128 (i : S20x1x128.Idx) : (i 2).val < 128 := (i 2).isLt

/-- Row t of the partial sums: the sums down each column of rows 5000 t … 5000 t + 4999 of the layer's output. -/
abbrev Gsum (c : Dev nD) : S20x1x128.Idx → EReal := fun i =>
  ∑ r : Fin 5000, H2 V c ⟨5000 * (i 0).val + r.val, by show _ < 100000; have := lt20 i; have := r.isLt; omega⟩ ⟨(i 2).val, lt128 i⟩
/-- Row t of the partial sums of squares. -/
abbrev Gsq (c : Dev nD) : S20x1x128.Idx → EReal := fun i =>
  ∑ r : Fin 5000, H2 V c ⟨5000 * (i 0).val + r.val, by show _ < 100000; have := lt20 i; have := r.isLt; omega⟩ ⟨(i 2).val, lt128 i⟩
    * H2 V c ⟨5000 * (i 0).val + r.val, by show _ < 100000; have := lt20 i; have := r.isLt; omega⟩ ⟨(i 2).val, lt128 i⟩

/-- The one row of a partial-sum block at point t is row t of its array. -/
theorem sum_emb (t : Fin cfg2.N) (u v : Fin 1) (q : Fin 128) (s : Fin 20) (hs : s.val = t.val) :
    ((cfg2.win 8).blk t).view.emb (ix3 u v q) = (ix3 s (0 : Fin 1) q : S20x1x128.Idx) := by
  have hu := u.isLt
  have hv := v.isLt
  funext a; apply Fin.ext
  match a with
  | ⟨0, _⟩ => show win2_8.index t 0 * 1 + 1 * u.val = s.val; rw [(idx_o8 t).1, hs]; omega
  | ⟨1, _⟩ => show win2_8.index t 1 * 1 + 1 * v.val = 0; rw [(idx_o8 t).2.1]; omega
  | ⟨2, _⟩ => show win2_8.index t 2 * 128 + 1 * q.val = q.val; rw [(idx_o8 t).2.2]; omega
theorem sq_emb (t : Fin cfg2.N) (u v : Fin 1) (q : Fin 128) (s : Fin 20) (hs : s.val = t.val) :
    ((cfg2.win 9).blk t).view.emb (ix3 u v q) = (ix3 s (0 : Fin 1) q : S20x1x128.Idx) := by
  have hu := u.isLt
  have hv := v.isLt
  funext a; apply Fin.ext
  match a with
  | ⟨0, _⟩ => show win2_9.index t 0 * 1 + 1 * u.val = s.val; rw [(idx_o9 t).1, hs]; omega
  | ⟨1, _⟩ => show win2_9.index t 1 * 1 + 1 * v.val = 0; rw [(idx_o9 t).2.1]; omega
  | ⟨2, _⟩ => show win2_9.index t 2 * 128 + 1 * q.val = q.val; rw [(idx_o9 t).2.2]; omega

/-- What point t writes back to the partial sums is row t of them. -/
theorem flushed_sum (c : Dev nD) (t : Fin cfg2.N) :
    (dat2 V c).flushed 8 t = ((cfg2.win 8).blk t).view.read (Elt Ideal) (Gsum V c) := by
  show (cfg2.win 8).cut (grid2.coords t) ((dat2 V c).after 8 t) = _
  rw [after2_8]
  unfold out2_8
  rw [View.canon_unit_zero hz3]
  simp only [View.ld_unit_zero (S := S5000x128) hz2, View.ld_unit_zero (S := S128) hz1, View.ld_unit_zero (S := S128x128) hz2]
  funext j
  obtain ⟨u, v, q, rfl⟩ : ∃ (u v : Fin 1) (q : Fin 128), j = ix3 u v q := ⟨j 0, j 1, j 2, eq_ix3 j⟩
  have ht : t.val < 20 := lt_of_lt_of_eq t.isLt N_2
  show (k2_pay4 (F := Ideal) (iblk2 V c 0 t) (iblk2 V c 1 t) (iblk2 V c 3 t) (iblk2 V c 4 t) (iblk2 V c 2 t) (iblk2 V c 5 t) (iblk2 V c 6 t) : FVec Ideal S1x1x128 .f32) (ix3 u v q)
    = Gsum V c (((cfg2.win 8).blk t).view.emb (ix3 u v q))
  rw [sum_emb t u v q ⟨t.val, ht⟩ rfl]
  refine (sums_apply (iblk2 V c 0 t) (iblk2 V c 1 t) (iblk2 V c 3 t) (iblk2 V c 4 t) (iblk2 V c 2 t) (iblk2 V c 5 t) (iblk2 V c 6 t) u v q).trans ?_
  exact Finset.sum_congr rfl fun r _ => blk_h V c t r q _ rfl

/-- What point t writes back to the partial sums of squares is row t of them. -/
theorem flushed_sq (c : Dev nD) (t : Fin cfg2.N) :
    (dat2 V c).flushed 9 t = ((cfg2.win 9).blk t).view.read (Elt Ideal) (Gsq V c) := by
  show (cfg2.win 9).cut (grid2.coords t) ((dat2 V c).after 9 t) = _
  rw [after2_9]
  unfold out2_9
  rw [View.canon_unit_zero hz3]
  simp only [View.ld_unit_zero (S := S5000x128) hz2, View.ld_unit_zero (S := S128) hz1, View.ld_unit_zero (S := S128x128) hz2]
  funext j
  obtain ⟨u, v, q, rfl⟩ : ∃ (u v : Fin 1) (q : Fin 128), j = ix3 u v q := ⟨j 0, j 1, j 2, eq_ix3 j⟩
  have ht : t.val < 20 := lt_of_lt_of_eq t.isLt N_2
  show (k2_pay1 (F := Ideal) (k2_pay3 (F := Ideal) (iblk2 V c 0 t) (iblk2 V c 1 t) (iblk2 V c 3 t) (iblk2 V c 4 t) (iblk2 V c 2 t) (iblk2 V c 5 t) (iblk2 V c 6 t)) : FVec Ideal S1x1x128 .f32) (ix3 u v q)
    = Gsq V c (((cfg2.win 9).blk t).view.emb (ix3 u v q))
  rw [sq_emb t u v q ⟨t.val, ht⟩ rfl]
  refine (squares_apply (iblk2 V c 0 t) (iblk2 V c 1 t) (iblk2 V c 3 t) (iblk2 V c 4 t) (iblk2 V c 2 t) (iblk2 V c 5 t) (iblk2 V c 6 t) u v q).trans ?_
  exact Finset.sum_congr rfl fun r _ => congrArg₂ (· * ·) (blk_h V c t r q _ rfl) (blk_h V c t r q _ rfl)

/-- An index of a partial-sum array is in point t's block iff each coordinate is in the block's range on its axis. -/
theorem mem_blk8 (t : Fin cfg2.N) (i : S20x1x128.Idx) :
    i ∈ ((cfg2.win 8).blk t).view.set ↔ ∀ a : Fin 3, win2_8.index t a * S1x1x128.size a ≤ (i a).val
      ∧ (i a).val < win2_8.index t a * S1x1x128.size a + S1x1x128.size a := by
  show i ∈ ((View.whole main_v46_1).slice (win2_8.rect t)).set ↔ _
  rw [View.set_slice_whole, Rect.mem_set_unit]
  exact Iff.rfl
theorem mem_blk9 (t : Fin cfg2.N) (i : S20x1x128.Idx) :
    i ∈ ((cfg2.win 9).blk t).view.set ↔ ∀ a : Fin 3, win2_9.index t a * S1x1x128.size a ≤ (i a).val
      ∧ (i a).val < win2_9.index t a * S1x1x128.size a + S1x1x128.size a := by
  show i ∈ ((View.whole main_v46_2).slice (win2_9.rect t)).set ↔ _
  rw [View.set_slice_whole, Rect.mem_set_unit]
  exact Iff.rfl

/-- Row t of a partial-sum array is written by point t. -/
theorem cover8 (i : S20x1x128.Idx) :
    ∃ t : Fin cfg2.N, (cfg2.win 8).flush t = true ∧ i ∈ ((cfg2.win 8).blk t).view.set := by
  have hi0 : (i 0).val < 20 := lt20 i
  have hi1 : (i 1).val < 1 := (i 1).isLt
  have hi2 : (i 2).val < 128 := lt128 i
  have hlt : (i 0).val < cfg2.N := lt_of_lt_of_eq hi0 N_2.symm
  refine ⟨⟨(i 0).val, hlt⟩, flush2_8 _, ?_⟩
  rw [mem_blk8]
  obtain ⟨e0, e1, e2⟩ := idx_o8 ⟨(i 0).val, hlt⟩
  intro a
  match a with
  | ⟨0, _⟩ =>
    show win2_8.index ⟨(i 0).val, hlt⟩ (0 : Fin 3) * 1 ≤ (i 0).val ∧ (i 0).val < win2_8.index ⟨(i 0).val, hlt⟩ (0 : Fin 3) * 1 + 1
    rw [e0]; show (i 0).val * 1 ≤ (i 0).val ∧ (i 0).val < (i 0).val * 1 + 1; omega
  | ⟨1, _⟩ =>
    show win2_8.index ⟨(i 0).val, hlt⟩ (1 : Fin 3) * 1 ≤ (i 1).val ∧ (i 1).val < win2_8.index ⟨(i 0).val, hlt⟩ (1 : Fin 3) * 1 + 1
    rw [e1]; omega
  | ⟨2, _⟩ =>
    show win2_8.index ⟨(i 0).val, hlt⟩ (2 : Fin 3) * 128 ≤ (i 2).val ∧ (i 2).val < win2_8.index ⟨(i 0).val, hlt⟩ (2 : Fin 3) * 128 + 128
    rw [e2]; omega
theorem cover9 (i : S20x1x128.Idx) :
    ∃ t : Fin cfg2.N, (cfg2.win 9).flush t = true ∧ i ∈ ((cfg2.win 9).blk t).view.set := by
  have hi0 : (i 0).val < 20 := lt20 i
  have hi1 : (i 1).val < 1 := (i 1).isLt
  have hi2 : (i 2).val < 128 := lt128 i
  have hlt : (i 0).val < cfg2.N := lt_of_lt_of_eq hi0 N_2.symm
  refine ⟨⟨(i 0).val, hlt⟩, flush2_9 _, ?_⟩
  rw [mem_blk9]
  obtain ⟨e0, e1, e2⟩ := idx_o9 ⟨(i 0).val, hlt⟩
  intro a
  match a with
  | ⟨0, _⟩ =>
    show win2_9.index ⟨(i 0).val, hlt⟩ (0 : Fin 3) * 1 ≤ (i 0).val ∧ (i 0).val < win2_9.index ⟨(i 0).val, hlt⟩ (0 : Fin 3) * 1 + 1
    rw [e0]; show (i 0).val * 1 ≤ (i 0).val ∧ (i 0).val < (i 0).val * 1 + 1; omega
  | ⟨1, _⟩ =>
    show win2_9.index ⟨(i 0).val, hlt⟩ (1 : Fin 3) * 1 ≤ (i 1).val ∧ (i 1).val < win2_9.index ⟨(i 0).val, hlt⟩ (1 : Fin 3) * 1 + 1
    rw [e1]; omega
  | ⟨2, _⟩ =>
    show win2_9.index ⟨(i 0).val, hlt⟩ (2 : Fin 3) * 128 ≤ (i 2).val ∧ (i 2).val < win2_9.index ⟨(i 0).val, hlt⟩ (2 : Fin 3) * 128 + 128
    rw [e2]; omega

/-- After the region, row t of the partial sums holds the column sums of rows 5000 t … 5000 t + 4999 of the layer's output. -/
theorem reg2_sum (c : Dev nD) (t : Fin 20) (j : Fin 128) :
    ((dat2 V c).arrAt 8 cfg2.N : S20x1x128.Idx → EReal) (ix3 t (0 : Fin 1) j)
      = ∑ r : Fin 5000, H2 V c ⟨5000 * t.val + r.val, by show _ < 100000; have := t.isLt; have := r.isLt; omega⟩ j := by
  rw [(dat2 V c).arrAt_eq_of_cover 8 (Gsum V c) (fun t _ => flushed_sum V c t) cover8]

/-- After the region, row t of the partial sums of squares holds the column sums of the squares of those rows. -/
theorem reg2_sq (c : Dev nD) (t : Fin 20) (j : Fin 128) :
    ((dat2 V c).arrAt 9 cfg2.N : S20x1x128.Idx → EReal) (ix3 t (0 : Fin 1) j)
      = ∑ r : Fin 5000, H2 V c ⟨5000 * t.val + r.val, by show _ < 100000; have := t.isLt; have := r.isLt; omega⟩ j
          * H2 V c ⟨5000 * t.val + r.val, by show _ < 100000; have := t.isLt; have := r.isLt; omega⟩ j := by
  rw [(dat2 V c).arrAt_eq_of_cover 9 (Gsq V c) (fun t _ => flushed_sq V c t) cover9]

end Cert.KernelIdeal.KReg2
end
-- ==== Proof.KReg3.lean ====
import proofs.«426057_j62689342653098_3_alg».proof.Proof.Gen.KernelIdeal.Frame
import proofs.«426057_j62689342653098_3_alg».proof.Proof.Views
import Idealize.ShloMosaic.Lib.ValueLayout

set_option maxRecDepth 16384
noncomputable section
namespace Cert.KernelIdeal.KReg3
open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (V : (c : Dev nD) → (b : Ref sig .tc) → Buf (Elt Ideal) ((c : Thread nD τ).loc b))

/-- The offsets of a whole-buffer access, as the zero function. -/
theorem hz2 : (![0, 0] : Fin 2 → Nat) = fun _ => 0 := funext fun a => by fin_cases a <;> rfl
theorem hz1 : (![0] : Fin 1 → Nat) = fun _ => 0 := funext fun a => by fin_cases a <;> rfl

/-- The last normalisation at row p and column q of a block of 5000 rows: scale times (entry minus mean) times
    reciprocal deviation, plus shift, the four rows read at the column. -/
theorem pay_apply (x0 : Vec Ideal S5000x128 .f32) (g mu iv be : Vec Ideal S128 .f32) (p : Fin 5000) (q : Fin 128) :
    (k3_pay1 (F := Ideal) x0 g mu iv be : FVec Ideal S5000x128 .f32) (ix2 p q)
      = (g (ix1 q) : EReal) * ((x0 (ix2 p q) : EReal) - mu (ix1 q)) * iv (ix1 q) + be (ix1 q) := by
  unfold k3_pay1
  simp only [addf_apply, mulf_apply, subf_apply, shapeCast_self, broadcastTo_1b_ab_apply, shapeCast_a_1a_apply]

/-- Where the windows sit at grid point t: the two tables' blocks at block row t, the four rows at block 0. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

/-- The input table's block at point t is rows 5000 t … 5000 t + 4999 of the table. -/
theorem tab_blk (c : Dev nD) (t : Fin cfg3.N) (p : Fin 5000) (q : Fin 128) (n : Fin 100000)
    (hn : n.val = 5000 * t.val + p.val) :
    (iblk3 V c 0 t : Vec Ideal S5000x128 .f32) (ix2 p q) = (V c main_v46_0 : S100000x128.Idx → EReal) (ix2 n q) := by
  unfold iblk3
  rw [View.read_apply]
  show V c main_v46_0 _ = V c main_v46_0 _
  congr 1
  funext a; apply Fin.ext
  match a with
  | ⟨0, _⟩ => show win3_0.index t 0 * 5000 + 1 * p.val = n.val; rw [(idx_facts t).1, hn]; omega
  | ⟨1, _⟩ => show win3_0.index t 1 * 128 + 1 * q.val = q.val; rw [(idx_facts t).2.1]; omega

/-- Each row's block is the whole row, at every point. -/
theorem g_blk (c : Dev nD) (t : Fin cfg3.N) (q : Fin 128) :
    (iblk3 V c 1 t : Vec Ideal S128 .f32) (ix1 q) = (V c main_arg15 : S128.Idx → EReal) (ix1 q) := by
  unfold iblk3
  rw [View.read_apply]
  show V c main_arg15 _ = V c main_arg15 _
  congr 1
  funext a; apply Fin.ext
  match a with
  | ⟨0, _⟩ => show win3_1.index t 0 * 128 + 1 * q.val = q.val; rw [(idx_facts t).2.2.2.2.1]; omega

theorem be_blk (c : Dev nD) (t : Fin cfg3.N) (q : Fin 128) :
    (iblk3 V c 2 t : Vec Ideal S128 .f32) (ix1 q) = (V c main_arg16 : S128.Idx → EReal) (ix1 q) := by
  unfold iblk3
  rw [View.read_apply]
  show V c main_arg16 _ = V c main_arg16 _
  congr 1
  funext a; apply Fin.ext
  match a with
  | ⟨0, _⟩ => show win3_2.index t 0 * 128 + 1 * q.val = q.val; rw [(idx_facts t).2.2.2.2.2.1]; omega

theorem mu_blk (c : Dev nD) (t : Fin cfg3.N) (q : Fin 128) :
    (iblk3 V c 3 t : Vec Ideal S128 .f32) (ix1 q) = (V c main_v50 : S128.Idx → EReal) (ix1 q) := by
  unfold iblk3
  rw [View.read_apply]
  show V c main_v50 _ = V c main_v50 _
  congr 1
  funext a; apply Fin.ext
  match a with
  | ⟨0, _⟩ => show win3_3.index t 0 * 128 + 1 * q.val = q.val; rw [(idx_facts t).2.2.2.2.2.2.1]; omega

theorem iv_blk (c : Dev nD) (t : Fin cfg3.N) (q : Fin 128) :
    (iblk3 V c 4 t : Vec Ideal S128 .f32) (ix1 q) = (V c main_v59 : S128.Idx → EReal) (ix1 q) := by
  unfold iblk3
  rw [View.read_apply]
  show V c main_v59 _ = V c main_v59 _
  congr 1
  funext a; apply Fin.ext
  match a with
  | ⟨0, _⟩ => show win3_4.index t 0 * 128 + 1 * q.val = q.val; rw [(idx_facts t).2.2.2.2.2.2.2]; omega

/-- An entry of the output's block at point t sits in the output table at row 5000 t + p. -/
theorem out_emb (t : Fin cfg3.N) (p : Fin 5000) (q : Fin 128) (n : Fin 100000) (hn : n.val = 5000 * t.val + p.val) :
    ((cfg3.win 5).blk t).view.emb (ix2 p q) = (ix2 n q : S100000x128.Idx) := by
  funext a; apply Fin.ext
  match a with
  | ⟨0, _⟩ => show win3_5.index t 0 * 5000 + 1 * p.val = n.val; rw [(idx_facts t).2.2.1, hn]; omega
  | ⟨1, _⟩ => show win3_5.index t 1 * 128 + 1 * q.val = q.val; rw [(idx_facts t).2.2.2.1]; omega

/-- The whole output table: the normalisation of the whole input table, entry by entry. -/
abbrev G3 (c : Dev nD) : S100000x128.Idx → EReal := fun i =>
  bn (row (V c main_arg15 : S128.Idx → EReal)) (row (V c main_arg16 : S128.Idx → EReal))
    (row (V c main_v50 : S128.Idx → EReal)) (row (V c main_v59 : S128.Idx → EReal))
    (tab (V c main_v46_0 : S100000x128.Idx → EReal)) ⟨(i 0).val, idx2_lt0 i⟩ ⟨(i 1).val, idx2_lt1 i⟩

/-- What point t writes back is block t of the whole output table. -/
theorem flushed_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128) hz1]
  funext j
  obtain ⟨p, q, rfl⟩ : ∃ (p : Fin 5000) (q : Fin 128), j = ix2 p q := ⟨j 0, j 1, eq_ix2 j⟩
  have ht : t.val < 20 := lt_of_lt_of_eq t.isLt N_3
  have hn : (⟨5000 * t.val + p.val, by have := p.isLt; omega⟩ : Fin 100000).val = 5000 * t.val + p.val := rfl
  show (k3_pay1 (F := Ideal) (iblk3 V c 0 t) (iblk3 V c 1 t) (iblk3 V c 3 t) (iblk3 V c 4 t) (iblk3 V c 2 t) : FVec Ideal S5000x128 .f32) (ix2 p q)
    = G3 V c (((cfg3.win 5).blk t).view.emb (ix2 p q))
  refine (pay_apply (iblk3 V c 0 t) (iblk3 V c 1 t) (iblk3 V c 3 t) (iblk3 V c 4 t) (iblk3 V c 2 t) p q).trans ?_
  rw [out_emb t p q _ hn, tab_blk V c t p q _ hn, g_blk V c t q, be_blk V c t q, mu_blk V c t q, iv_blk V c t q]
  rfl

/-- An index of the output table is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v60).slice (win3_5.rect t)).set ↔ _
  rw [View.set_slice_whole, Rect.mem_set_unit]
  exact Iff.rfl

/-- Row r of the output table is written by point r / 5000. -/
theorem cover (i : S100000x128.Idx) :
    ∃ t : Fin cfg3.N, (cfg3.win 5).flush t = true ∧ i ∈ ((cfg3.win 5).blk t).view.set := by
  have hi0 : (i 0).val < 100000 := idx2_lt0 i
  have hi1 : (i 1).val < 128 := idx2_lt1 i
  have hlt : (i 0).val / 5000 < cfg3.N := lt_of_lt_of_eq (by omega : (i 0).val / 5000 < 20) N_3.symm
  refine ⟨⟨(i 0).val / 5000, hlt⟩, flush3_5 _, ?_⟩
  rw [mem_blk]
  obtain ⟨-, -, e0, e1, -⟩ := idx_facts ⟨(i 0).val / 5000, hlt⟩
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    rw [e1]; omega

/-- After the last region the output table is the normalisation of the table the region found, entry by entry. -/
theorem reg3_out (c : Dev nD) (n : Fin 100000) (j : Fin 128) :
    ((dat3 V c).arrAt 5 cfg3.N : S100000x128.Idx → EReal) (ix2 n j)
      = bn (row (V c main_arg15 : S128.Idx → EReal)) (row (V c main_arg16 : S128.Idx → EReal)) (row (V c main_v50 : S128.Idx → EReal)) (row (V c main_v59 : S128.Idx → EReal)) (tab (V c main_v46_0 : S100000x128.Idx → EReal)) n j := by
  rw [(dat3 V c).arrAt_eq_of_cover 5 (G3 V c) (fun t _ => flushed_eq V c t) cover]

end Cert.KernelIdeal.KReg3
end
-- ==== Proof.KHost.lean ====
/-
  The host stretches of the blockwise program over the extended reals: what each region finds in the arrays of
  its windows, in terms of the launch memory and of the arrays the previous region's write-backs leave.

  Between two regions the program runs a straight line of whole-array operations.  A buffer no operation of a line
  writes keeps its contents through the line, and a region changes only the arrays of its own output windows; so an
  argument read at a region's entry is the launch memory's, and a region's output array read at the next region's
  entry is what its write-backs left.  The buffers a line does write are read back as the line's operations applied
  to what was there, and then read at an index: the column statistics are nineteen operations on the two [T, 1, 128]
  arrays of per-block partial sums (sum over the blocks, divide by the row count, subtract the squared mean, clamp at
  zero, add the offset, reciprocal root), the same nineteen between every two regions.
-/
import proofs.«426057_j62689342653098_3_alg».proof.Proof.Gen.KernelIdeal.Frame
import proofs.«426057_j62689342653098_3_alg».proof.Proof.Views
import Idealize.ShloMosaic.Lib.StableHlo.Predicate

set_option maxRecDepth 16384
noncomputable section
namespace Cert.KernelIdeal.KHost
open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)
variable (m : (ℓ : Loc nD τ sig) → Buf (Elt Ideal) ℓ) (ρ : Dev nD → PrngReg)

/-- Closes `after ops V b = V b` (composed with a further equation) for a buffer `b` no operation of the literal
    line `ops` writes: every operation writes one buffer, and it is another one. -/
local macro "skip_line" : tactic =>
  `(tactic| refine (StableHlo.after_of_forall_not_mem _ _ (List.forall_iff_forall_mem.mp (by
      simp only [hostOps0, hostOps0_1, hostOps0_2, hostOps1, hostOps2, hostOps3, List.Forall, StableHlo.nullary_writes,
        StableHlo.unary_writes, StableHlo.binary_writes, StableHlo.ternary_writes, StableHlo.reshape_writes, Finset.mem_singleton]
      repeat' apply And.intro
      all_goals exact StableHlo.devRef_ne_of_ne (by decide)))).trans ?_)

/-! ## The column statistics the host computes between two regions -/

section Stats
variable {T : Nat}

/-- The sum of a [T, 1, 128] array over its first two axes, on top of an initial value, read at column j: the sum
    over the T blocks (the middle axis has one element). -/
theorem hostReduceAdd_parts (P : (⟨3, ![T, 1, 128]⟩ : Shape).Idx → EReal)
    (h : (⟨3, ![T, 1, 128]⟩ : Shape).ReducesTo [0, 1] S128) (init : EReal) (j : Fin 128) :
    Ideal.hostReduceAdd h P init (ix1 j) = init + ∑ t : Fin T, P (ix3 t (0 : Fin 1) j) := by
  unfold Ideal.hostReduceAdd
  congr 1
  have hmid : ∀ i : (⟨3, ![T, 1, 128]⟩ : Shape).Idx, (i 1).val = 0 := fun i => Nat.lt_one_iff.mp (i 1).isLt
  have hcol : ∀ i : (⟨3, ![T, 1, 128]⟩ : Shape).Idx, h.drop i = ix1 j → (i 2 : Fin 128) = j := fun i hi =>
    Fin.ext (congrArg Fin.val (congrFun hi (0 : Fin 1)))
  refine Finset.sum_nbij' (fun i => (i 0 : Fin T)) (fun t => ix3 t (0 : Fin 1) j) ?_ ?_ ?_ ?_ ?_
  · intro i _; exact Finset.mem_univ _
  · intro t _
    refine Finset.mem_filter.mpr ⟨Finset.mem_univ _, ?_⟩
    funext b
    match b with
    | ⟨0, _⟩ => rfl
  · intro i hi
    have h2 := hcol i (Finset.mem_filter.mp hi).2
    funext a
    match a with
    | ⟨0, _⟩ => rfl
    | ⟨1, _⟩ => exact Fin.ext (hmid i).symm
    | ⟨2, _⟩ => exact h2.symm
  · intro t _; rfl
  · intro i hi
    have h2 := hcol i (Finset.mem_filter.mp hi).2
    refine congrArg P ?_
    funext a
    match a with
    | ⟨0, _⟩ => rfl
    | ⟨1, _⟩ => exact Fin.ext (hmid i)
    | ⟨2, _⟩ => exact h2

/-- From the zero word the sum is the plain sum over the blocks. -/
theorem hostSum_parts (P : (⟨3, ![T, 1, 128]⟩ : Shape).Idx → EReal)
    (h : (⟨3, ![T, 1, 128]⟩ : Shape).ReducesTo [0, 1] S128) (j : Fin 128) :
    Ideal.hostReduceAdd h P cZero (ix1 j) = ∑ t : Fin T, P (ix3 t (0 : Fin 1) j) := by
  rw [hostReduceAdd_parts, cZero_eq, zero_add]

/-- The column means as the host computes them from the per-block partial sums: the sum over the blocks from the zero
    word, divided by the row count. -/
def hostMu (P : (⟨3, ![T, 1, 128]⟩ : Shape).Idx → EReal) (h : (⟨3, ![T, 1, 128]⟩ : Shape).ReducesTo [0, 1] S128) :
    S128.Idx → EReal :=
  Host.divf (F := Ideal) (φ := .f32) (Host.reduceAdd (F := Ideal) (φ := .f32) P (constant (F := Ideal) S_ .f32 0x00000000#32) h h_S_)
    (broadcastInDim S128 ![] bcast_S_S128 (constant (F := Ideal) S_ .f32 0x47C35000#32))

/-- The reciprocal column deviations as the host computes them from the per-block partial sums of squares and the
    means: mean of squares minus squared mean, clamped at zero, plus the offset, reciprocal root. -/
def hostInv (Q : (⟨3, ![T, 1, 128]⟩ : Shape).Idx → EReal) (h : (⟨3, ![T, 1, 128]⟩ : Shape).ReducesTo [0, 1] S128)
    (MU : S128.Idx → EReal) : S128.Idx → EReal :=
  Host.rsqrt (F := Ideal) (φ := .f32)
    (addf (F := Ideal) (φ := .f32)
      (maximumf (F := Ideal) (φ := .f32)
        (subf (F := Ideal) (φ := .f32)
          (Host.divf (F := Ideal) (φ := .f32) (Host.reduceAdd (F := Ideal) (φ := .f32) Q (constant (F := Ideal) S_ .f32 0x00000000#32) h h_S_)
            (broadcastInDim S128 ![] bcast_S_S128 (constant (F := Ideal) S_ .f32 0x47C35000#32)))
          (mulf (F := Ideal) (φ := .f32) MU MU))
        (broadcastInDim S128 ![] bcast_S_S128 (constant (F := Ideal) S_ .f32 0x00000000#32)))
      (broadcastInDim S128 ![] bcast_S_S128 (constant (F := Ideal) S_ .f32 0x3727C5AC#32)))

/-- A scalar word broadcast to a row reads the word's value at every column. -/
theorem bcast_word (w : BitVec 32) (j : Fin 128) :
    broadcastInDim S128 ![] bcast_S_S128 (constant (F := Ideal) S_ .f32 w) (ix1 j) = Ideal.ofBits .f32 w :=
  StableHlo.Predicate.bcast_scalar bcast_S_S128 h_S_ _ _

theorem hostMu_apply (P : (⟨3, ![T, 1, 128]⟩ : Shape).Idx → EReal) (h : (⟨3, ![T, 1, 128]⟩ : Shape).ReducesTo [0, 1] S128)
    (j : Fin 128) : hostMu P h (ix1 j) = Ideal.div (∑ t : Fin T, P (ix3 t (0 : Fin 1) j)) cN := by
  show Ideal.div (Ideal.hostReduceAdd h P cZero (ix1 j))
    (broadcastInDim S128 ![] bcast_S_S128 (constant (F := Ideal) S_ .f32 0x47C35000#32) (ix1 j)) = _
  rw [bcast_word, hostSum_parts]
  rfl

theorem hostInv_apply (Q : (⟨3, ![T, 1, 128]⟩ : Shape).Idx → EReal) (h : (⟨3, ![T, 1, 128]⟩ : Shape).ReducesTo [0, 1] S128)
    (MU : S128.Idx → EReal) (j : Fin 128) :
    hostInv Q h MU (ix1 j)
      = Ideal.rsqrt (max (Ideal.div (∑ t : Fin T, Q (ix3 t (0 : Fin 1) j)) cN - MU (ix1 j) * MU (ix1 j)) cZero + cEps) := by
  show Ideal.rsqrt (max (Ideal.div (Ideal.hostReduceAdd h Q cZero (ix1 j))
      (broadcastInDim S128 ![] bcast_S_S128 (constant (F := Ideal) S_ .f32 0x47C35000#32) (ix1 j)) - MU (ix1 j) * MU (ix1 j))
      (broadcastInDim S128 ![] bcast_S_S128 (constant (F := Ideal) S_ .f32 0x00000000#32) (ix1 j))
      + broadcastInDim S128 ![] bcast_S_S128 (constant (F := Ideal) S_ .f32 0x3727C5AC#32) (ix1 j)) = _
  rw [bcast_word, bcast_word, bcast_word, hostSum_parts]
  rfl

end Stats

/-! ## The arguments: no line and no region writes one

  A buffer no operation of a line writes keeps its contents through the line, and a region changes only the arrays of
  its own output windows; so an argument read at any boundary is the launch memory's. -/

theorem W3_arg0 (c : Dev nD) : W3 (F := Ideal) m ρ c (Proc.devRef .tc main_arg0) = m ((c : Thread nD τ).loc main_arg0) := by
  show StableHlo.after hostOps0_2 (StableHlo.after hostOps0_1 (StableHlo.after hostOps0 (W0 (F := Ideal) m ρ c))) (Proc.devRef .tc main_arg0) = _
  skip_line; skip_line; skip_line; rfl
theorem W3_arg6 (c : Dev nD) : W3 (F := Ideal) m ρ c (Proc.devRef .tc main_arg6) = m ((c : Thread nD τ).loc main_arg6) := by
  show StableHlo.after hostOps0_2 (StableHlo.after hostOps0_1 (StableHlo.after hostOps0 (W0 (F := Ideal) m ρ c))) (Proc.devRef .tc main_arg6) = _
  skip_line; skip_line; skip_line; rfl
theorem W3_arg7 (c : Dev nD) : W3 (F := Ideal) m ρ c (Proc.devRef .tc main_arg7) = m ((c : Thread nD τ).loc main_arg7) := by
  show StableHlo.after hostOps0_2 (StableHlo.after hostOps0_1 (StableHlo.after hostOps0 (W0 (F := Ideal) m ρ c))) (Proc.devRef .tc main_arg7) = _
  skip_line; skip_line; skip_line; rfl
theorem W3_arg8 (c : Dev nD) : W3 (F := Ideal) m ρ c (Proc.devRef .tc main_arg8) = m ((c : Thread nD τ).loc main_arg8) := by
  show StableHlo.after hostOps0_2 (StableHlo.after hostOps0_1 (StableHlo.after hostOps0 (W0 (F := Ideal) m ρ c))) (Proc.devRef .tc main_arg8) = _
  skip_line; skip_line; skip_line; rfl
theorem W3_arg9 (c : Dev nD) : W3 (F := Ideal) m ρ c (Proc.devRef .tc main_arg9) = m ((c : Thread nD τ).loc main_arg9) := by
  show StableHlo.after hostOps0_2 (StableHlo.after hostOps0_1 (StableHlo.after hostOps0 (W0 (F := Ideal) m ρ c))) (Proc.devRef .tc main_arg9) = _
  skip_line; skip_line; skip_line; rfl
theorem W3_arg10 (c : Dev nD) : W3 (F := Ideal) m ρ c (Proc.devRef .tc main_arg10) = m ((c : Thread nD τ).loc main_arg10) := by
  show StableHlo.after hostOps0_2 (StableHlo.after hostOps0_1 (StableHlo.after hostOps0 (W0 (F := Ideal) m ρ c))) (Proc.devRef .tc main_arg10) = _
  skip_line; skip_line; skip_line; rfl
theorem W3_arg11 (c : Dev nD) : W3 (F := Ideal) m ρ c (Proc.devRef .tc main_arg11) = m ((c : Thread nD τ).loc main_arg11) := by
  show StableHlo.after hostOps0_2 (StableHlo.after hostOps0_1 (StableHlo.after hostOps0 (W0 (F := Ideal) m ρ c))) (Proc.devRef .tc main_arg11) = _
  skip_line; skip_line; skip_line; rfl
theorem W3_arg12 (c : Dev nD) : W3 (F := Ideal) m ρ c (Proc.devRef .tc main_arg12) = m ((c : Thread nD τ).loc main_arg12) := by
  show StableHlo.after hostOps0_2 (StableHlo.after hostOps0_1 (StableHlo.after hostOps0 (W0 (F := Ideal) m ρ c))) (Proc.devRef .tc main_arg12) = _
  skip_line; skip_line; skip_line; rfl
theorem W3_arg13 (c : Dev nD) : W3 (F := Ideal) m ρ c (Proc.devRef .tc main_arg13) = m ((c : Thread nD τ).loc main_arg13) := by
  show StableHlo.after hostOps0_2 (StableHlo.after hostOps0_1 (StableHlo.after hostOps0 (W0 (F := Ideal) m ρ c))) (Proc.devRef .tc main_arg13) = _
  skip_line; skip_line; skip_line; rfl
theorem W3_arg14 (c : Dev nD) : W3 (F := Ideal) m ρ c (Proc.devRef .tc main_arg14) = m ((c : Thread nD τ).loc main_arg14) := by
  show StableHlo.after hostOps0_2 (StableHlo.after hostOps0_1 (StableHlo.after hostOps0 (W0 (F := Ideal) m ρ c))) (Proc.devRef .tc main_arg14) = _
  skip_line; skip_line; skip_line; rfl
theorem W3_arg15 (c : Dev nD) : W3 (F := Ideal) m ρ c (Proc.devRef .tc main_arg15) = m ((c : Thread nD τ).loc main_arg15) := by
  show StableHlo.after hostOps0_2 (StableHlo.after hostOps0_1 (StableHlo.after hostOps0 (W0 (F := Ideal) m ρ c))) (Proc.devRef .tc main_arg15) = _
  skip_line; skip_line; skip_line; rfl
theorem W3_arg16 (c : Dev nD) : W3 (F := Ideal) m ρ c (Proc.devRef .tc main_arg16) = m ((c : Thread nD τ).loc main_arg16) := by
  show StableHlo.after hostOps0_2 (StableHlo.after hostOps0_1 (StableHlo.after hostOps0 (W0 (F := Ideal) m ρ c))) (Proc.devRef .tc main_arg16) = _
  skip_line; skip_line; skip_line; rfl

/-! ### Region 0's entry -/

theorem V3_arg0 (c : Dev nD) : (V3 (F := Ideal) m ρ c main_arg0 : S100000x128.Idx → EReal) = m ((c : Thread nD τ).loc main_arg0) := W3_arg0 m ρ c
theorem V3_arg6 (c : Dev nD) : (V3 (F := Ideal) m ρ c main_arg6 : S128.Idx → EReal) = m ((c : Thread nD τ).loc main_arg6) := W3_arg6 m ρ c

/-! ### Region 1's entry -/

theorem W4_arg7 (c : Dev nD) : W4 (F := Ideal) m ρ c (Proc.devRef .tc main_arg7) = m ((c : Thread nD τ).loc main_arg7) :=
  (W4_of_ne m ρ c main_arg7 (by decide)).trans (W3_arg7 m ρ c)

theorem W4_arg8 (c : Dev nD) : W4 (F := Ideal) m ρ c (Proc.devRef .tc main_arg8) = m ((c : Thread nD τ).loc main_arg8) :=
  (W4_of_ne m ρ c main_arg8 (by decide)).trans (W3_arg8 m ρ c)

theorem W4_arg9 (c : Dev nD) : W4 (F := Ideal) m ρ c (Proc.devRef .tc main_arg9) = m ((c : Thread nD τ).loc main_arg9) :=
  (W4_of_ne m ρ c main_arg9 (by decide)).trans (W3_arg9 m ρ c)

theorem W4_arg10 (c : Dev nD) : W4 (F := Ideal) m ρ c (Proc.devRef .tc main_arg10) = m ((c : Thread nD τ).loc main_arg10) :=
  (W4_of_ne m ρ c main_arg10 (by decide)).trans (W3_arg10 m ρ c)

theorem W4_arg11 (c : Dev nD) : W4 (F := Ideal) m ρ c (Proc.devRef .tc main_arg11) = m ((c : Thread nD τ).loc main_arg11) :=
  (W4_of_ne m ρ c main_arg11 (by decide)).trans (W3_arg11 m ρ c)

theorem W4_arg12 (c : Dev nD) : W4 (F := Ideal) m ρ c (Proc.devRef .tc main_arg12) = m ((c : Thread nD τ).loc main_arg12) :=
  (W4_of_ne m ρ c main_arg12 (by decide)).trans (W3_arg12 m ρ c)

theorem W4_arg13 (c : Dev nD) : W4 (F := Ideal) m ρ c (Proc.devRef .tc main_arg13) = m ((c : Thread nD τ).loc main_arg13) :=
  (W4_of_ne m ρ c main_arg13 (by decide)).trans (W3_arg13 m ρ c)

theorem W4_arg14 (c : Dev nD) : W4 (F := Ideal) m ρ c (Proc.devRef .tc main_arg14) = m ((c : Thread nD τ).loc main_arg14) :=
  (W4_of_ne m ρ c main_arg14 (by decide)).trans (W3_arg14 m ρ c)

theorem W4_arg15 (c : Dev nD) : W4 (F := Ideal) m ρ c (Proc.devRef .tc main_arg15) = m ((c : Thread nD τ).loc main_arg15) :=
  (W4_of_ne m ρ c main_arg15 (by decide)).trans (W3_arg15 m ρ c)

theorem W4_arg16 (c : Dev nD) : W4 (F := Ideal) m ρ c (Proc.devRef .tc main_arg16) = m ((c : Thread nD τ).loc main_arg16) :=
  (W4_of_ne m ρ c main_arg16 (by decide)).trans (W3_arg16 m ρ c)
theorem V5_arg11 (c : Dev nD) : (V5 (F := Ideal) m ρ c main_arg11 : S128.Idx → EReal) = m ((c : Thread nD τ).loc main_arg11) := by
  show StableHlo.after hostOps1 (W4 (F := Ideal) m ρ c) (Proc.devRef .tc main_arg11) = _
  skip_line; exact W4_arg11 m ρ c
theorem V5_arg12 (c : Dev nD) : (V5 (F := Ideal) m ρ c main_arg12 : S128.Idx → EReal) = m ((c : Thread nD τ).loc main_arg12) := by
  show StableHlo.after hostOps1 (W4 (F := Ideal) m ρ c) (Proc.devRef .tc main_arg12) = _
  skip_line; exact W4_arg12 m ρ c
theorem V5_arg7 (c : Dev nD) : (V5 (F := Ideal) m ρ c main_arg7 : S128x128.Idx → EReal) = m ((c : Thread nD τ).loc main_arg7) := by
  show StableHlo.after hostOps1 (W4 (F := Ideal) m ρ c) (Proc.devRef .tc main_arg7) = _
  skip_line; exact W4_arg7 m ρ c
theorem V5_arg8 (c : Dev nD) : (V5 (F := Ideal) m ρ c main_arg8 : S128.Idx → EReal) = m ((c : Thread nD τ).loc main_arg8) := by
  show StableHlo.after hostOps1 (W4 (F := Ideal) m ρ c) (Proc.devRef .tc main_arg8) = _
  skip_line; exact W4_arg8 m ρ c

/-! ### Region 2's entry -/

theorem W6_arg9 (c : Dev nD) : W6 (F := Ideal) m ρ c (Proc.devRef .tc main_arg9) = m ((c : Thread nD τ).loc main_arg9) := by
  refine (W6_of_ne m ρ c main_arg9 (by decide)).trans ?_
  show StableHlo.after hostOps1 (W4 (F := Ideal) m ρ c) (Proc.devRef .tc main_arg9) = _
  skip_line; exact W4_arg9 m ρ c

theorem W6_arg10 (c : Dev nD) : W6 (F := Ideal) m ρ c (Proc.devRef .tc main_arg10) = m ((c : Thread nD τ).loc main_arg10) := by
  refine (W6_of_ne m ρ c main_arg10 (by decide)).trans ?_
  show StableHlo.after hostOps1 (W4 (F := Ideal) m ρ c) (Proc.devRef .tc main_arg10) = _
  skip_line; exact W4_arg10 m ρ c

theorem W6_arg13 (c : Dev nD) : W6 (F := Ideal) m ρ c (Proc.devRef .tc main_arg13) = m ((c : Thread nD τ).loc main_arg13) := by
  refine (W6_of_ne m ρ c main_arg13 (by decide)).trans ?_
  show StableHlo.after hostOps1 (W4 (F := Ideal) m ρ c) (Proc.devRef .tc main_arg13) = _
  skip_line; exact W4_arg13 m ρ c

theorem W6_arg14 (c : Dev nD) : W6 (F := Ideal) m ρ c (Proc.devRef .tc main_arg14) = m ((c : Thread nD τ).loc main_arg14) := by
  refine (W6_of_ne m ρ c main_arg14 (by decide)).trans ?_
  show StableHlo.after hostOps1 (W4 (F := Ideal) m ρ c) (Proc.devRef .tc main_arg14) = _
  skip_line; exact W4_arg14 m ρ c

theorem W6_arg15 (c : Dev nD) : W6 (F := Ideal) m ρ c (Proc.devRef .tc main_arg15) = m ((c : Thread nD τ).loc main_arg15) := by
  refine (W6_of_ne m ρ c main_arg15 (by decide)).trans ?_
  show StableHlo.after hostOps1 (W4 (F := Ideal) m ρ c) (Proc.devRef .tc main_arg15) = _
  skip_line; exact W4_arg15 m ρ c

theorem W6_arg16 (c : Dev nD) : W6 (F := Ideal) m ρ c (Proc.devRef .tc main_arg16) = m ((c : Thread nD τ).loc main_arg16) := by
  refine (W6_of_ne m ρ c main_arg16 (by decide)).trans ?_
  show StableHlo.after hostOps1 (W4 (F := Ideal) m ρ c) (Proc.devRef .tc main_arg16) = _
  skip_line; exact W4_arg16 m ρ c
theorem V7_arg13 (c : Dev nD) : (V7 (F := Ideal) m ρ c main_arg13 : S128.Idx → EReal) = m ((c : Thread nD τ).loc main_arg13) := by
  show StableHlo.after hostOps2 (W6 (F := Ideal) m ρ c) (Proc.devRef .tc main_arg13) = _
  skip_line; exact W6_arg13 m ρ c
theorem V7_arg14 (c : Dev nD) : (V7 (F := Ideal) m ρ c main_arg14 : S128.Idx → EReal) = m ((c : Thread nD τ).loc main_arg14) := by
  show StableHlo.after hostOps2 (W6 (F := Ideal) m ρ c) (Proc.devRef .tc main_arg14) = _
  skip_line; exact W6_arg14 m ρ c
theorem V7_arg9 (c : Dev nD) : (V7 (F := Ideal) m ρ c main_arg9 : S128x128.Idx → EReal) = m ((c : Thread nD τ).loc main_arg9) := by
  show StableHlo.after hostOps2 (W6 (F := Ideal) m ρ c) (Proc.devRef .tc main_arg9) = _
  skip_line; exact W6_arg9 m ρ c
theorem V7_arg10 (c : Dev nD) : (V7 (F := Ideal) m ρ c main_arg10 : S128.Idx → EReal) = m ((c : Thread nD τ).loc main_arg10) := by
  show StableHlo.after hostOps2 (W6 (F := Ideal) m ρ c) (Proc.devRef .tc main_arg10) = _
  skip_line; exact W6_arg10 m ρ c

/-! ### Region 3's entry -/

theorem W8_arg15 (c : Dev nD) : W8 (F := Ideal) m ρ c (Proc.devRef .tc main_arg15) = m ((c : Thread nD τ).loc main_arg15) := by
  refine (W8_of_ne m ρ c main_arg15 (by decide)).trans ?_
  show StableHlo.after hostOps2 (W6 (F := Ideal) m ρ c) (Proc.devRef .tc main_arg15) = _
  skip_line; exact W6_arg15 m ρ c

theorem W8_arg16 (c : Dev nD) : W8 (F := Ideal) m ρ c (Proc.devRef .tc main_arg16) = m ((c : Thread nD τ).loc main_arg16) := by
  refine (W8_of_ne m ρ c main_arg16 (by decide)).trans ?_
  show StableHlo.after hostOps2 (W6 (F := Ideal) m ρ c) (Proc.devRef .tc main_arg16) = _
  skip_line; exact W6_arg16 m ρ c
theorem V9_arg15 (c : Dev nD) : (V9 (F := Ideal) m ρ c main_arg15 : S128.Idx → EReal) = m ((c : Thread nD τ).loc main_arg15) := by
  show StableHlo.after hostOps3 (W8 (F := Ideal) m ρ c) (Proc.devRef .tc main_arg15) = _
  skip_line; exact W8_arg15 m ρ c
theorem V9_arg16 (c : Dev nD) : (V9 (F := Ideal) m ρ c main_arg16 : S128.Idx → EReal) = m ((c : Thread nD τ).loc main_arg16) := by
  show StableHlo.after hostOps3 (W8 (F := Ideal) m ρ c) (Proc.devRef .tc main_arg16) = _
  skip_line; exact W8_arg16 m ρ c

/-! ## Region 1's entry: the previous region's output and the column statistics -/

theorem V5_h (c : Dev nD) : (V5 (F := Ideal) m ρ c main_v18_0 : S100000x128.Idx → EReal) = ((dat0 (V3 (F := Ideal) m ρ) c).arrAt 8 cfg0.N : S100000x128.Idx → EReal) := by
  show StableHlo.after hostOps1 (W4 (F := Ideal) m ρ c) (Proc.devRef .tc main_v18_0) = _
  skip_line; exact W4_arr m ρ c 8

theorem V5_mu_eq (c : Dev nD) : (V5 (F := Ideal) m ρ c main_v22 : S128.Idx → EReal)
    = hostMu ((dat0 (V3 (F := Ideal) m ρ) c).arrAt 9 cfg0.N : S25x1x128.Idx → EReal) reducesTo_S25x1x128_S128_d0_1 := by
  rw [← W4_arr m ρ c 9]
  show StableHlo.after hostOps1 (W4 (F := Ideal) m ρ c) (Proc.devRef .tc main_v22) = _
  unfold hostMu
  after_results_simp

theorem V5_inv_eq (c : Dev nD) : (V5 (F := Ideal) m ρ c main_v31 : S128.Idx → EReal)
    = hostInv ((dat0 (V3 (F := Ideal) m ρ) c).arrAt 10 cfg0.N : S25x1x128.Idx → EReal) reducesTo_S25x1x128_S128_d0_1
        (hostMu ((dat0 (V3 (F := Ideal) m ρ) c).arrAt 9 cfg0.N : S25x1x128.Idx → EReal) reducesTo_S25x1x128_S128_d0_1) := by
  rw [← W4_arr m ρ c 9, ← W4_arr m ρ c 10]
  show StableHlo.after hostOps1 (W4 (F := Ideal) m ρ c) (Proc.devRef .tc main_v31) = _
  unfold hostInv hostMu
  after_results_simp

/-- The mean of column j the region finds: the blocks' partial sums added up, divided by the row count. -/
theorem V5_mu (c : Dev nD) (j : Fin 128) : row (V5 (F := Ideal) m ρ c main_v22 : S128.Idx → EReal) j = Ideal.div (∑ t : Fin 25, ((dat0 (V3 (F := Ideal) m ρ) c).arrAt 9 cfg0.N : S25x1x128.Idx → EReal) (ix3 t (0 : Fin 1) j)) cN := by
  rw [row_apply, V5_mu_eq, hostMu_apply]

/-- The reciprocal deviation of column j the region finds: the blocks' partial sums of squares added up, divided by the
    row count, minus the squared mean, clamped at zero, plus the offset, reciprocal root. -/
theorem V5_inv (c : Dev nD) (j : Fin 128) : row (V5 (F := Ideal) m ρ c main_v31 : S128.Idx → EReal) j = Ideal.rsqrt (max (Ideal.div (∑ t : Fin 25, ((dat0 (V3 (F := Ideal) m ρ) c).arrAt 10 cfg0.N : S25x1x128.Idx → EReal) (ix3 t (0 : Fin 1) j)) cN - row (V5 (F := Ideal) m ρ c main_v22 : S128.Idx → EReal) j * row (V5 (F := Ideal) m ρ c main_v22 : S128.Idx → EReal) j) cZero + cEps) := by
  simp only [row_apply]
  rw [V5_inv_eq, V5_mu_eq, hostInv_apply]

/-! ## Region 2's entry: the previous region's output and the column statistics -/

theorem V7_h (c : Dev nD) : (V7 (F := Ideal) m ρ c main_v32_0 : S100000x128.Idx → EReal) = ((dat1 (V5 (F := Ideal) m ρ) c).arrAt 7 cfg1.N : S100000x128.Idx → EReal) := by
  show StableHlo.after hostOps2 (W6 (F := Ideal) m ρ c) (Proc.devRef .tc main_v32_0) = _
  skip_line; exact W6_arr m ρ c 7

theorem V7_mu_eq (c : Dev nD) : (V7 (F := Ideal) m ρ c main_v36 : S128.Idx → EReal)
    = hostMu ((dat1 (V5 (F := Ideal) m ρ) c).arrAt 8 cfg1.N : S20x1x128.Idx → EReal) reducesTo_S20x1x128_S128_d0_1 := by
  rw [← W6_arr m ρ c 8]
  show StableHlo.after hostOps2 (W6 (F := Ideal) m ρ c) (Proc.devRef .tc main_v36) = _
  unfold hostMu
  after_results_simp

theorem V7_inv_eq (c : Dev nD) : (V7 (F := Ideal) m ρ c main_v45 : S128.Idx → EReal)
    = hostInv ((dat1 (V5 (F := Ideal) m ρ) c).arrAt 9 cfg1.N : S20x1x128.Idx → EReal) reducesTo_S20x1x128_S128_d0_1
        (hostMu ((dat1 (V5 (F := Ideal) m ρ) c).arrAt 8 cfg1.N : S20x1x128.Idx → EReal) reducesTo_S20x1x128_S128_d0_1) := by
  rw [← W6_arr m ρ c 8, ← W6_arr m ρ c 9]
  show StableHlo.after hostOps2 (W6 (F := Ideal) m ρ c) (Proc.devRef .tc main_v45) = _
  unfold hostInv hostMu
  after_results_simp

/-- The mean of column j the region finds: the blocks' partial sums added up, divided by the row count. -/
theorem V7_mu (c : Dev nD) (j : Fin 128) : row (V7 (F := Ideal) m ρ c main_v36 : S128.Idx → EReal) j = Ideal.div (∑ t : Fin 20, ((dat1 (V5 (F := Ideal) m ρ) c).arrAt 8 cfg1.N : S20x1x128.Idx → EReal) (ix3 t (0 : Fin 1) j)) cN := by
  rw [row_apply, V7_mu_eq, hostMu_apply]

/-- The reciprocal deviation of column j the region finds: the blocks' partial sums of squares added up, divided by the
    row count, minus the squared mean, clamped at zero, plus the offset, reciprocal root. -/
theorem V7_inv (c : Dev nD) (j : Fin 128) : row (V7 (F := Ideal) m ρ c main_v45 : S128.Idx → EReal) j = Ideal.rsqrt (max (Ideal.div (∑ t : Fin 20, ((dat1 (V5 (F := Ideal) m ρ) c).arrAt 9 cfg1.N : S20x1x128.Idx → EReal) (ix3 t (0 : Fin 1) j)) cN - row (V7 (F := Ideal) m ρ c main_v36 : S128.Idx → EReal) j * row (V7 (F := Ideal) m ρ c main_v36 : S128.Idx → EReal) j) cZero + cEps) := by
  simp only [row_apply]
  rw [V7_inv_eq, V7_mu_eq, hostInv_apply]

/-! ## Region 3's entry: the previous region's output and the column statistics -/

theorem V9_h (c : Dev nD) : (V9 (F := Ideal) m ρ c main_v46_0 : S100000x128.Idx → EReal) = ((dat2 (V7 (F := Ideal) m ρ) c).arrAt 7 cfg2.N : S100000x128.Idx → EReal) := by
  show StableHlo.after hostOps3 (W8 (F := Ideal) m ρ c) (Proc.devRef .tc main_v46_0) = _
  skip_line; exact W8_arr m ρ c 7

theorem V9_mu_eq (c : Dev nD) : (V9 (F := Ideal) m ρ c main_v50 : S128.Idx → EReal)
    = hostMu ((dat2 (V7 (F := Ideal) m ρ) c).arrAt 8 cfg2.N : S20x1x128.Idx → EReal) reducesTo_S20x1x128_S128_d0_1 := by
  rw [← W8_arr m ρ c 8]
  show StableHlo.after hostOps3 (W8 (F := Ideal) m ρ c) (Proc.devRef .tc main_v50) = _
  unfold hostMu
  after_results_simp

theorem V9_inv_eq (c : Dev nD) : (V9 (F := Ideal) m ρ c main_v59 : S128.Idx → EReal)
    = hostInv ((dat2 (V7 (F := Ideal) m ρ) c).arrAt 9 cfg2.N : S20x1x128.Idx → EReal) reducesTo_S20x1x128_S128_d0_1
        (hostMu ((dat2 (V7 (F := Ideal) m ρ) c).arrAt 8 cfg2.N : S20x1x128.Idx → EReal) reducesTo_S20x1x128_S128_d0_1) := by
  rw [← W8_arr m ρ c 8, ← W8_arr m ρ c 9]
  show StableHlo.after hostOps3 (W8 (F := Ideal) m ρ c) (Proc.devRef .tc main_v59) = _
  unfold hostInv hostMu
  after_results_simp

/-- The mean of column j the region finds: the blocks' partial sums added up, divided by the row count. -/
theorem V9_mu (c : Dev nD) (j : Fin 128) : row (V9 (F := Ideal) m ρ c main_v50 : S128.Idx → EReal) j = Ideal.div (∑ t : Fin 20, ((dat2 (V7 (F := Ideal) m ρ) c).arrAt 8 cfg2.N : S20x1x128.Idx → EReal) (ix3 t (0 : Fin 1) j)) cN := by
  rw [row_apply, V9_mu_eq, hostMu_apply]

/-- The reciprocal deviation of column j the region finds: the blocks' partial sums of squares added up, divided by the
    row count, minus the squared mean, clamped at zero, plus the offset, reciprocal root. -/
theorem V9_inv (c : Dev nD) (j : Fin 128) : row (V9 (F := Ideal) m ρ c main_v59 : S128.Idx → EReal) j = Ideal.rsqrt (max (Ideal.div (∑ t : Fin 20, ((dat2 (V7 (F := Ideal) m ρ) c).arrAt 9 cfg2.N : S20x1x128.Idx → EReal) (ix3 t (0 : Fin 1) j)) cN - row (V9 (F := Ideal) m ρ c main_v50 : S128.Idx → EReal) j * row (V9 (F := Ideal) m ρ c main_v50 : S128.Idx → EReal) j) cZero + cEps) := by
  simp only [row_apply]
  rw [V9_inv_eq, V9_mu_eq, hostInv_apply]

/-! ## The result -/

theorem W10_out (c : Dev nD) : (W10 (F := Ideal) m ρ c (Proc.devRef .tc main_v60) : S100000x128.Idx → EReal) = ((dat3 (V9 (F := Ideal) m ρ) c).arrAt 5 cfg3.N : S100000x128.Idx → EReal) :=
  W10_arr m ρ c 5

end Cert.KernelIdeal.KHost
end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.KHost0.lean ====
/-
  What the first blockwise stage finds in six of its arrays, in terms of the launch memory: the operations that run
  before it, read at an index.  The aggregate's numerator is the scatter-add of the edge features by destination row
  on top of the zero word; the reciprocal count is one over the maximum of one and the scatter-add of ones; the batch
  index is the batch vector laid as a column; two of the three weight blocks are row ranges of the 384 x 128 matrix;
  and the table u · Wu is the full-precision matrix product of u with the third block.
-/
import proofs.«426057_j62689342653098_3_alg».proof.Proof.Gen.KernelIdeal.Frame
import proofs.«426057_j62689342653098_3_alg».proof.Proof.Views
import proofs.«426057_j62689342653098_3_alg».proof.Proof.LibRowOps
import Idealize.ShloMosaic.PureOps.Ideal.Laws
import Idealize.ShloMosaic.Lib.StableHlo.Run
import Idealize.ShloMosaic.Lib.StableHlo.Predicate
import Idealize.ShloMosaic.Lib.ValueLayout
import Idealize.ShloMosaic.Lib.Pipeline.Value

set_option maxRecDepth 16384
noncomputable section
namespace Cert.KernelIdeal.KHost
open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- A column index written with the library's column constructor. -/
theorem h0_ixP {n : Nat} (p : Fin n) : StableHlo.Predicate.ixP p = ix2 p (0 : Fin 1) := by
  funext a; match a with | ⟨0, _⟩ => rfl | ⟨1, _⟩ => rfl
theorem h0_ofFin {n : Nat} (p : Fin n) : (Shape.Idx.ofFin p : (⟨1, ![n]⟩ : Shape).Idx) = ix1 p := by
  funext a; match a with | ⟨0, _⟩ => rfl

/-- A vector laid as a column reads, at (p, 0), the vector at p. -/
theorem h0_col {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← h0_ixP, StableHlo.Predicate.bcast_col1, h0_ofFin]

/-- The batch column as the operations' term: the batch vector laid along the rows. -/
theorem h0_v12_term (c : Dev nD) :
    (V3 (F := Ideal) m ρ c main_v12 : S100000x1.Idx → BitVec 32)
      = broadcastInDim S100000x1 ![0] bcast_S100000_S100000x1_0 (m ((c : Thread nD τ).loc main_arg4) : S100000.Idx → BitVec 32) := by
  show StableHlo.after hostOps0_2 (W2 (F := Ideal) m ρ c) (Proc.devRef .tc main_v12) = _
  after_results

theorem V3_v12 (c : Dev nD) (n : Fin 100000) : (V3 (F := Ideal) m ρ c main_v12 : S100000x1.Idx → BitVec 32) (ix2 n (0 : Fin 1)) = (m ((c : Thread nD τ).loc main_arg4) : S100000.Idx → BitVec 32) (ix1 n) := by
  rw [h0_v12_term]; exact h0_col _ _ n

/-- The first and second weight blocks as the operations' terms: row ranges of the 384 x 128 matrix. -/
theorem h0_v13_term (c : Dev nD) :
    (V3 (F := Ideal) m ρ c main_v13 : S128x128.Idx → EReal)
      = extractStridedSlice S128x128 ![0, 0] (m ((c : Thread nD τ).loc main_arg5) : S384x128.Idx → EReal) slices_S384x128_S128x128_0_0 := by
  show StableHlo.after hostOps0_2 (W2 (F := Ideal) m ρ c) (Proc.devRef .tc main_v13) = _
  after_results
theorem h0_v14_term (c : Dev nD) :
    (V3 (F := Ideal) m ρ c main_v14 : S128x128.Idx → EReal)
      = extractStridedSlice S128x128 ![128, 0] (m ((c : Thread nD τ).loc main_arg5) : S384x128.Idx → EReal) slices_S384x128_S128x128_128_0 := by
  show StableHlo.after hostOps0_2 (W2 (F := Ideal) m ρ c) (Proc.devRef .tc main_v14) = _
  after_results

theorem V3_v13 (c : Dev nD) : tab (V3 (F := Ideal) m ρ c main_v13 : S128x128.Idx → EReal) = wslice (tab (m ((c : Thread nD τ).loc main_arg5) : S384x128.Idx → EReal)) 0 (by omega) := by
  funext k j
  rw [tab_apply, h0_v13_term]
  exact slice2_axis0_apply 0 _ _ k j _ rfl
theorem V3_v14 (c : Dev nD) : tab (V3 (F := Ideal) m ρ c main_v14 : S128x128.Idx → EReal) = wslice (tab (m ((c : Thread nD τ).loc main_arg5) : S384x128.Idx → EReal)) 128 (by omega) := by
  funext k j
  rw [tab_apply, h0_v14_term]
  exact slice2_axis0_apply 128 _ _ k j _ rfl

/-! ## The table u · Wu -/

/-- Where the product's operand indices sit, coordinate by coordinate: rows of the left operand and columns of the right
    one follow the result index, the left operand's columns and the right one's rows follow the contraction index. -/
theorem h0_lhs_0 (i : S512x128.Idx) (k : dot_S512x128_S128x128_S512x128_1_0_0_1_n_n.contr.Idx) :
    (dot_S512x128_S128x128_S512x128_1_0_0_1_n_n.lhsIdx i k 0).val = (i 0).val := by
  unfold DotDims.lhsIdx
  rw [dif_neg (show ¬ (0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
theorem h0_lhs_1 (i : S512x128.Idx) (k : dot_S512x128_S128x128_S512x128_1_0_0_1_n_n.contr.Idx) :
    (dot_S512x128_S128x128_S512x128_1_0_0_1_n_n.lhsIdx i k 1).val = (k ⟨0, by decide⟩).val :=
  DotDims.lhsIdx_val_of_single (d := dot_S512x128_S128x128_S512x128_1_0_0_1_n_n) (cl := 1) rfl i k
theorem h0_rhs_0 (i : S512x128.Idx) (k : dot_S512x128_S128x128_S512x128_1_0_0_1_n_n.contr.Idx) :
    (dot_S512x128_S128x128_S512x128_1_0_0_1_n_n.rhsIdx i k 0).val = (k ⟨0, by decide⟩).val :=
  DotDims.rhsIdx_val_of_single (d := dot_S512x128_S128x128_S512x128_1_0_0_1_n_n) (cr := 0) rfl i k
theorem h0_rhs_1 (i : S512x128.Idx) (k : dot_S512x128_S128x128_S512x128_1_0_0_1_n_n.contr.Idx) :
    (dot_S512x128_S128x128_S512x128_1_0_0_1_n_n.rhsIdx i k 1).val = (i 1).val := by
  unfold DotDims.rhsIdx
  rw [dif_neg (show ¬ (1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The full-precision product read at (b, j): the sum over the 128 contracted positions. -/
theorem h0_dot (l : FVec Ideal S512x128 .f32) (r : FVec Ideal S128x128 .f32) (b : Fin 512) (j : Fin 128) :
    (Host.dotGeneral (F := Ideal) dot_S512x128_S128x128_S512x128_1_0_0_1_n_n (some .fp32) l r : S512x128.Idx → EReal) (ix2 b j)
      = ∑ k : Fin 128, (l (ix2 b k) : EReal) * r (ix2 k j) := by
  show FloatOps.dotGeneral _ _ _ l r (ix2 b j) = _
  rw [Ideal.dotGeneral_apply,
    ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  congr 2
  · funext a; apply Fin.ext
    match a with
    | ⟨0, _⟩ => exact h0_lhs_0 _ _
    | ⟨1, _⟩ => exact (h0_lhs_1 _ _).trans hk
  · funext a; apply Fin.ext
    match a with
    | ⟨0, _⟩ => exact (h0_rhs_0 _ _).trans hk
    | ⟨1, _⟩ => exact h0_rhs_1 _ _

/-- The table as the operations' term: the product of u with rows 256 … 383 of the weight matrix, its format narrowed. -/
theorem h0_v17_term (c : Dev nD) :
    (V3 (F := Ideal) m ρ c main_v17 : S512x128.Idx → EReal)
      = truncf .bf16 (Host.dotGeneral (F := Ideal) (φ₁ := .f32) (φ₂ := .f32) dot_S512x128_S128x128_S512x128_1_0_0_1_n_n (some .fp32)
          (m ((c : Thread nD τ).loc main_arg3) : FVec Ideal S512x128 .f32)
          (extractStridedSlice S128x128 ![256, 0] (m ((c : Thread nD τ).loc main_arg5) : S384x128.Idx → EReal) slices_S384x128_S128x128_256_0))
          bitsLt_bf16_f32 := by
  show StableHlo.after hostOps0_2 (W2 (F := Ideal) m ρ c) (Proc.devRef .tc main_v17) = _
  after_results

theorem V3_v17 (c : Dev nD) (b : Fin 512) (j : Fin 128) : tab (V3 (F := Ideal) m ρ c main_v17 : S512x128.Idx → EReal) b j = ∑ k : Fin 128, tab (m ((c : Thread nD τ).loc main_arg3) : S512x128.Idx → EReal) b k * wslice (tab (m ((c : Thread nD τ).loc main_arg5) : S384x128.Idx → EReal)) 256 (by omega) k j := by
  rw [tab_apply, h0_v17_term, truncf_apply, h0_dot]
  refine Finset.sum_congr rfl fun k _ => ?_
  congr 1
  exact slice2_axis0_apply 256 _ _ k j _ rfl

/-! ## The edge aggregation: the scatter-adds -/

/-- The accumulating scatter at the extended reals is the exact sum. -/
theorem h0_scatterAdd_eq {s si u : Shape} {w : Nat} (d : ScatterDims s si u) (x : FVec Ideal s .f32) (idx : IVec si w)
    (upd : FVec Ideal u .f32) : Host.scatterAdd (F := Ideal) d x idx upd = Ideal.hostScatterAdd d x idx upd := rfl
/-- The two printed dimension records are row scatters: one destination word per update row. -/
theorem h0_rows128 : scatter_S100000x128_S640000x1_S640000x128_1_0_0_1
    = RowOps.rowScatter 100000 640000 128 Facts₀.scatter_S100000x128_S640000x1_S640000x128_1_0_0_1_wf := rfl
theorem h0_rows1 : scatter_S100000x1_S640000x1_S640000x1_1_0_0_1
    = RowOps.rowScatter 100000 640000 1 Facts₀.scatter_S100000x1_S640000x1_S640000x1_1_0_0_1_wf := rfl

/-- The destination column — row 0 of the [2, E] index array, flattened and laid as a column — reads, at edge e, the
    index array at (0, e). -/
theorem h0_dst (A : IVec S2x640000 32) (e : Fin 640000) :
    broadcastInDim S640000x1 ![0] bcast_S640000_S640000x1_0
        (shapeCast S640000 (extractStridedSlice S1x640000 ![0, 0] A slices_S2x640000_S1x640000_0_0) shapeCasts_S1x640000_S640000)
        (ix2 e (0 : Fin 1))
      = A (ix2 (0 : Fin 2) e) := by
  rw [h0_col, shapeCast_1a_a_apply]
  exact slice2_axis0_apply 0 _ _ (0 : Fin 1) e (0 : Fin 2) rfl

/-- The aggregate's numerator as the operations' term. -/
theorem h0_v4_term (c : Dev nD) :
    (V3 (F := Ideal) m ρ c main_v4 : S100000x128.Idx → EReal)
      = Host.scatterAdd (F := Ideal) (φ := .f32) scatter_S100000x128_S640000x1_S640000x128_1_0_0_1
          (broadcastInDim S100000x128 ![] bcast_S_S100000x128 (constant (F := Ideal) S_ .f32 0x00000000#32))
          (broadcastInDim S640000x1 ![0] bcast_S640000_S640000x1_0
            (shapeCast S640000 (extractStridedSlice S1x640000 ![0, 0] (m ((c : Thread nD τ).loc main_arg1) : S2x640000.Idx → BitVec 32)
              slices_S2x640000_S1x640000_0_0) shapeCasts_S1x640000_S640000))
          (m ((c : Thread nD τ).loc main_arg2) : FVec Ideal S640000x128 .f32) := by
  show StableHlo.after hostOps0_2 (W2 (F := Ideal) m ρ c) (Proc.devRef .tc main_v4) = _
  after_results <;> rfl

theorem V3_v4 (c : Dev nD) (n : Fin 100000) (k : Fin 128) : (V3 (F := Ideal) m ρ c main_v4 : S100000x128.Idx → EReal) (ix2 n k) = segsum (dstOf (m ((c : Thread nD τ).loc main_arg1) : S2x640000.Idx → BitVec 32)) (tab (m ((c : Thread nD τ).loc main_arg2) : S640000x128.Idx → EReal)) n k := by
  rw [h0_v4_term, h0_scatterAdd_eq, h0_rows128, RowOps.rowScatterAdd_apply]
  unfold segsum
  refine congrArg₂ (· + ·) ?_ (Finset.sum_congr (Finset.filter_congr fun e _ => ?_) fun e _ => rfl)
  · exact StableHlo.Predicate.bcast_scalar bcast_S_S100000x128 (by decide) _ _
  · rw [h0_dst]; rfl

/-- What the first list of operations leaves in the count's buffer and in the constant one's, over any starting contents. -/
theorem h0_ops0_v8 (F : Valuation τ sig (Elt Ideal)) :
    (StableHlo.after hostOps0 F (Proc.devRef .tc main_v8) : S100000x1.Idx → EReal)
      = Host.scatterAdd (F := Ideal) (φ := .f32) scatter_S100000x1_S640000x1_S640000x1_1_0_0_1
          (broadcastInDim S100000x1 ![] bcast_S_S100000x1 (constant (F := Ideal) S_ .f32 0x00000000#32))
          (broadcastInDim S640000x1 ![0] bcast_S640000_S640000x1_0
            (shapeCast S640000 (extractStridedSlice S1x640000 ![0, 0] (F (Proc.devRef .tc main_arg1) : S2x640000.Idx → BitVec 32)
              slices_S2x640000_S1x640000_0_0) shapeCasts_S1x640000_S640000))
          (broadcastInDim S640000x1 ![] bcast_S_S640000x1 (constant (F := Ideal) S_ .f32 0x3F800000#32)) := by
  after_results <;> rfl
theorem h0_ops0_cst2 (F : Valuation τ sig (Elt Ideal)) :
    (StableHlo.after hostOps0 F (Proc.devRef .tc main_cst_2) : S_.Idx → EReal) = constant (F := Ideal) S_ .f32 0x3F800000#32 := by
  after_results <;> rfl
/-- What the clamp's operations leave: the maximum of one and the count. -/
theorem h0_ops1_v9 (F : Valuation τ sig (Elt Ideal)) :
    (StableHlo.after hostOps0_1 F (Proc.devRef .tc main_v9) : S100000x1.Idx → EReal)
      = maximumf (F := Ideal) (φ := .f32)
          (broadcastInDim S100000x1 ![] bcast_S_S100000x1 (F (Proc.devRef .tc main_cst_2) : S_.Idx → EReal))
          (F (Proc.devRef .tc main_v8) : S100000x1.Idx → EReal) := by
  after_results
  simp only [StableHlo.TRef.ofBuf, StableHlo.TRef.toBuf, cast_eq, id]
/-- What the last list leaves in the reciprocal count's buffer. -/
theorem h0_ops2_v11 (F : Valuation τ sig (Elt Ideal)) :
    (StableHlo.after hostOps0_2 F (Proc.devRef .tc main_v11) : S100000x1.Idx → EReal)
      = Host.divf (F := Ideal) (φ := .f32)
          (broadcastInDim S100000x1 ![] bcast_S_S100000x1 (constant (F := Ideal) S_ .f32 0x3F800000#32))
          (F (Proc.devRef .tc main_v9) : S100000x1.Idx → EReal) := by
  after_results <;> rfl

/-- The reciprocal count as the operations' term. -/
theorem h0_v11_term (c : Dev nD) :
    (V3 (F := Ideal) m ρ c main_v11 : S100000x1.Idx → EReal)
      = Host.divf (F := Ideal) (φ := .f32)
          (broadcastInDim S100000x1 ![] bcast_S_S100000x1 (constant (F := Ideal) S_ .f32 0x3F800000#32))
          (maximumf (F := Ideal) (φ := .f32)
            (broadcastInDim S100000x1 ![] bcast_S_S100000x1 (constant (F := Ideal) S_ .f32 0x3F800000#32))
            (Host.scatterAdd (F := Ideal) (φ := .f32) scatter_S100000x1_S640000x1_S640000x1_1_0_0_1
              (broadcastInDim S100000x1 ![] bcast_S_S100000x1 (constant (F := Ideal) S_ .f32 0x00000000#32))
              (broadcastInDim S640000x1 ![0] bcast_S640000_S640000x1_0
                (shapeCast S640000 (extractStridedSlice S1x640000 ![0, 0] (m ((c : Thread nD τ).loc main_arg1) : S2x640000.Idx → BitVec 32)
                  slices_S2x640000_S1x640000_0_0) shapeCasts_S1x640000_S640000))
              (broadcastInDim S640000x1 ![] bcast_S_S640000x1 (constant (F := Ideal) S_ .f32 0x3F800000#32)))) := by
  have e0 : (W1 (F := Ideal) m ρ c (Proc.devRef .tc main_cst_2) : S_.Idx → EReal) = _ := h0_ops0_cst2 (W0 (F := Ideal) m ρ c)
  have e1 : (W1 (F := Ideal) m ρ c (Proc.devRef .tc main_v8) : S100000x1.Idx → EReal) = _ := h0_ops0_v8 (W0 (F := Ideal) m ρ c)
  have e2 : (W2 (F := Ideal) m ρ c (Proc.devRef .tc main_v9) : S100000x1.Idx → EReal) = _ := h0_ops1_v9 (W1 (F := Ideal) m ρ c)
  have e3 : (V3 (F := Ideal) m ρ c main_v11 : S100000x1.Idx → EReal) = _ := h0_ops2_v11 (W2 (F := Ideal) m ρ c)
  rw [e3, e2, e0, e1]

/-- The host's quotient at an index is the quotient of the entries. -/
theorem h0_divf_apply {s : Shape} (a b : FVec Ideal s .f32) (i : s.Idx) :
    Host.divf (F := Ideal) a b i = Ideal.div (a i) (b i) := rfl

theorem V3_v11 (c : Dev nD) (n : Fin 100000) : (V3 (F := Ideal) m ρ c main_v11 : S100000x1.Idx → EReal) (ix2 n (0 : Fin 1)) = Ideal.div cOne (cnt (dstOf (m ((c : Thread nD τ).loc main_arg1) : S2x640000.Idx → BitVec 32)) n) := by
  rw [h0_v11_term, h0_divf_apply, maximumf_apply, h0_scatterAdd_eq, h0_rows1, RowOps.rowScatterAdd_apply]
  unfold cnt
  refine congrArg₂ Ideal.div ?_ (congrArg₂ max ?_ (congrArg₂ (· + ·) ?_
    (Finset.sum_congr (Finset.filter_congr fun e _ => ?_) fun e _ => ?_)))
  · exact StableHlo.Predicate.bcast_scalar bcast_S_S100000x1 (by decide) _ _
  · exact StableHlo.Predicate.bcast_scalar bcast_S_S100000x1 (by decide) _ _
  · exact StableHlo.Predicate.bcast_scalar bcast_S_S100000x1 (by decide) _ _
  · rw [h0_dst]; rfl
  · exact StableHlo.Predicate.bcast_scalar bcast_S_S640000x1 (by decide) _ _

end Cert.KernelIdeal.KHost
end
-- ==== Proof.KValue.lean ====
/-
  The blockwise program's result as the mathematics of everything after layer 0, under the clamped
  mean-of-squares-minus-squared-mean form of the variance.

  Each of the three normalising stages reads a table H whose rows were produced in blocks (25 blocks of 4000 rows for
  the first, 20 blocks of 5000 rows for the other two), together with, per block, the column sums of H and of its
  squares.  The stage forms the mean as the sum of the block sums over the row count and the reciprocal deviation from
  the sum of the block sums of squares; a sum over blocks of sums over a block's rows is the sum over all rows, so these
  are the mean and the reciprocal deviation of H itself.  Chaining the three stages gives the composite of Spec.
-/
import proofs.«426057_j62689342653098_3_alg».proof.Proof.KReg0
import proofs.«426057_j62689342653098_3_alg».proof.Proof.KReg1
import proofs.«426057_j62689342653098_3_alg».proof.Proof.KReg2
import proofs.«426057_j62689342653098_3_alg».proof.Proof.KReg3
import proofs.«426057_j62689342653098_3_alg».proof.Proof.KHost
import proofs.«426057_j62689342653098_3_alg».proof.Proof.KHost0

set_option maxRecDepth 16384
noncomputable section
namespace Cert.KernelIdeal.KValue
open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-! ## Sums over blocks of rows -/

/-- 20 blocks of 5000 rows are the 100000 rows. -/
theorem sum_blk20 (f : Fin 100000 → EReal) (hlt : ∀ (t : Fin 20) (r : Fin 5000), 5000 * t.val + r.val < 100000) :
    (∑ t : Fin 20, ∑ r : Fin 5000, f ⟨5000 * t.val + r.val, hlt t r⟩) = ∑ n, f n :=
  sum_blocks 20 5000 f

/-- 25 blocks of 4000 rows are the 100000 rows. -/
theorem sum_blk25 (f : Fin 100000 → EReal) (hlt : ∀ (t : Fin 25) (r : Fin 4000), 4000 * t.val + r.val < 100000) :
    (∑ t : Fin 25, ∑ r : Fin 4000, f ⟨4000 * t.val + r.val, hlt t r⟩) = ∑ n, f n :=
  sum_blocks 25 4000 f

/-- The sum of the block sums over the row count is the mean. -/
theorem mean_blk20 (H : Tab R D) (j : Fin D) (hlt : ∀ (t : Fin 20) (r : Fin 5000), 5000 * t.val + r.val < 100000) :
    Ideal.div (∑ t : Fin 20, ∑ r : Fin 5000, H ⟨5000 * t.val + r.val, hlt t r⟩ j) cN = mean H j := by
  rw [sum_blk20 (fun n => H n j) hlt]; rfl
/-- The sum of the block sums of squares over the row count, minus the squared mean, clamped at zero, is the variance
    in its mean-of-squares form. -/
theorem var_blk20 (H : Tab R D) (j : Fin D) (hlt : ∀ (t : Fin 20) (r : Fin 5000), 5000 * t.val + r.val < 100000) :
    max (Ideal.div (∑ t : Fin 20, ∑ r : Fin 5000,
        H ⟨5000 * t.val + r.val, hlt t r⟩ j * H ⟨5000 * t.val + r.val, hlt t r⟩ j) cN - mean H j * mean H j) cZero
      = varK H j := by
  rw [sum_blk20 (fun n => H n j * H n j) hlt]; rfl
theorem mean_blk25 (H : Tab R D) (j : Fin D) (hlt : ∀ (t : Fin 25) (r : Fin 4000), 4000 * t.val + r.val < 100000) :
    Ideal.div (∑ t : Fin 25, ∑ r : Fin 4000, H ⟨4000 * t.val + r.val, hlt t r⟩ j) cN = mean H j := by
  rw [sum_blk25 (fun n => H n j) hlt]; rfl
theorem var_blk25 (H : Tab R D) (j : Fin D) (hlt : ∀ (t : Fin 25) (r : Fin 4000), 4000 * t.val + r.val < 100000) :
    max (Ideal.div (∑ t : Fin 25, ∑ r : Fin 4000,
        H ⟨4000 * t.val + r.val, hlt t r⟩ j * H ⟨4000 * t.val + r.val, hlt t r⟩ j) cN - mean H j * mean H j) cZero
      = varK H j := by
  rw [sum_blk25 (fun n => H n j * H n j) hlt]; rfl

/-- A stage's two rows, formed from the per-block column sums S of H and Q of its squares, are the mean of H and the
    reciprocal deviation of H (20 blocks of 5000 rows). -/
theorem rows_blk20 (H : Tab R D) (mu iv : Row D) (S Q : Fin 20 → Fin D → EReal)
    (hlt : ∀ (t : Fin 20) (r : Fin 5000), 5000 * t.val + r.val < 100000)
    (hS : ∀ t j, S t j = ∑ r : Fin 5000, H ⟨5000 * t.val + r.val, hlt t r⟩ j)
    (hQ : ∀ t j, Q t j = ∑ r : Fin 5000, H ⟨5000 * t.val + r.val, hlt t r⟩ j * H ⟨5000 * t.val + r.val, hlt t r⟩ j)
    (hmu : ∀ j, mu j = Ideal.div (∑ t, S t j) cN)
    (hiv : ∀ j, iv j = Ideal.rsqrt (max (Ideal.div (∑ t, Q t j) cN - mu j * mu j) cZero + cEps)) :
    mu = mean H ∧ iv = istd (varK H) := by
  have hmu' : mu = mean H := by
    funext j; rw [hmu j]; simp only [hS]; exact mean_blk20 H j hlt
  refine ⟨hmu', ?_⟩
  funext j
  rw [hiv j, hmu']; simp only [hQ]; rw [var_blk20 H j hlt]; rfl

/-- The same for 25 blocks of 4000 rows. -/
theorem rows_blk25 (H : Tab R D) (mu iv : Row D) (S Q : Fin 25 → Fin D → EReal)
    (hlt : ∀ (t : Fin 25) (r : Fin 4000), 4000 * t.val + r.val < 100000)
    (hS : ∀ t j, S t j = ∑ r : Fin 4000, H ⟨4000 * t.val + r.val, hlt t r⟩ j)
    (hQ : ∀ t j, Q t j = ∑ r : Fin 4000, H ⟨4000 * t.val + r.val, hlt t r⟩ j * H ⟨4000 * t.val + r.val, hlt t r⟩ j)
    (hmu : ∀ j, mu j = Ideal.div (∑ t, S t j) cN)
    (hiv : ∀ j, iv j = Ideal.rsqrt (max (Ideal.div (∑ t, Q t j) cN - mu j * mu j) cZero + cEps)) :
    mu = mean H ∧ iv = istd (varK H) := by
  have hmu' : mu = mean H := by
    funext j; rw [hmu j]; simp only [hS]; exact mean_blk25 H j hlt
  refine ⟨hmu', ?_⟩
  funext j
  rw [hiv j, hmu']; simp only [hQ]; rw [var_blk25 H j hlt]; rfl

/-! ## The parameters and the three stages -/

/-- the normalisations' and later layers' parameters, read off the launch memory -/
def P (c : Dev nD) : Params := ⟨row (m ((c : Thread nD τ).loc main_arg11) : S128.Idx → EReal), row (m ((c : Thread nD τ).loc main_arg12) : S128.Idx → EReal), tab (m ((c : Thread nD τ).loc main_arg7) : S128x128.Idx → EReal), row (m ((c : Thread nD τ).loc main_arg8) : S128.Idx → EReal), row (m ((c : Thread nD τ).loc main_arg13) : S128.Idx → EReal), row (m ((c : Thread nD τ).loc main_arg14) : S128.Idx → EReal), tab (m ((c : Thread nD τ).loc main_arg9) : S128x128.Idx → EReal), row (m ((c : Thread nD τ).loc main_arg10) : S128.Idx → EReal), row (m ((c : Thread nD τ).loc main_arg15) : S128.Idx → EReal), row (m ((c : Thread nD τ).loc main_arg16) : S128.Idx → EReal)⟩

/-- The first normalising stage and its linear layer: layer 1's output from layer 0's. -/
theorem level1 (c : Dev nD) :
    KReg1.H1 (V5 (F := Ideal) m ρ) c
      = lay (P m c).W1 (P m c).b1 (bn (P m c).g0 (P m c).be0 (mean (KReg0.H0 (V3 (F := Ideal) m ρ) c))
          (istd (varK (KReg0.H0 (V3 (F := Ideal) m ρ) c))) (KReg0.H0 (V3 (F := Ideal) m ρ) c)) := by
  obtain ⟨hmu, hiv⟩ := rows_blk25 (KReg0.H0 (V3 (F := Ideal) m ρ) c)
    (row (V5 (F := Ideal) m ρ c main_v22 : S128.Idx → EReal)) (row (V5 (F := Ideal) m ρ c main_v31 : S128.Idx → EReal))
    (fun t j => ((dat0 (V3 (F := Ideal) m ρ) c).arrAt 9 cfg0.N : S25x1x128.Idx → EReal) (ix3 t (0 : Fin 1) j))
    (fun t j => ((dat0 (V3 (F := Ideal) m ρ) c).arrAt 10 cfg0.N : S25x1x128.Idx → EReal) (ix3 t (0 : Fin 1) j))
    (fun t r => by have := t.isLt; have := r.isLt; omega)
    (fun t j => KReg0.reg0_sum (V3 (F := Ideal) m ρ) c t j) (fun t j => KReg0.reg0_sq (V3 (F := Ideal) m ρ) c t j)
    (fun j => KHost.V5_mu m ρ c j) (fun j => KHost.V5_inv m ρ c j)
  have hh : tab (V5 (F := Ideal) m ρ c main_v18_0 : S100000x128.Idx → EReal) = KReg0.H0 (V3 (F := Ideal) m ρ) c := by
    funext n j; rw [tab_apply, KHost.V5_h, KReg0.reg0_h]
  unfold KReg1.H1
  rw [hmu, hiv, hh, KHost.V5_arg7, KHost.V5_arg8, KHost.V5_arg11, KHost.V5_arg12]
  rfl

/-- The second normalising stage and its linear layer: layer 2's output from layer 1's. -/
theorem level2 (c : Dev nD) :
    KReg2.H2 (V7 (F := Ideal) m ρ) c
      = lay (P m c).W2 (P m c).b2 (bn (P m c).g1 (P m c).be1 (mean (KReg1.H1 (V5 (F := Ideal) m ρ) c))
          (istd (varK (KReg1.H1 (V5 (F := Ideal) m ρ) c))) (KReg1.H1 (V5 (F := Ideal) m ρ) c)) := by
  obtain ⟨hmu, hiv⟩ := rows_blk20 (KReg1.H1 (V5 (F := Ideal) m ρ) c)
    (row (V7 (F := Ideal) m ρ c main_v36 : S128.Idx → EReal)) (row (V7 (F := Ideal) m ρ c main_v45 : S128.Idx → EReal))
    (fun t j => ((dat1 (V5 (F := Ideal) m ρ) c).arrAt 8 cfg1.N : S20x1x128.Idx → EReal) (ix3 t (0 : Fin 1) j))
    (fun t j => ((dat1 (V5 (F := Ideal) m ρ) c).arrAt 9 cfg1.N : S20x1x128.Idx → EReal) (ix3 t (0 : Fin 1) j))
    (fun t r => by have := t.isLt; have := r.isLt; omega)
    (fun t j => KReg1.reg1_sum (V5 (F := Ideal) m ρ) c t j) (fun t j => KReg1.reg1_sq (V5 (F := Ideal) m ρ) c t j)
    (fun j => KHost.V7_mu m ρ c j) (fun j => KHost.V7_inv m ρ c j)
  have hh : tab (V7 (F := Ideal) m ρ c main_v32_0 : S100000x128.Idx → EReal) = KReg1.H1 (V5 (F := Ideal) m ρ) c := by
    funext n j; rw [tab_apply, KHost.V7_h, KReg1.reg1_h]
  unfold KReg2.H2
  rw [hmu, hiv, hh, KHost.V7_arg9, KHost.V7_arg10, KHost.V7_arg13, KHost.V7_arg14]
  rfl

/-- The last normalising stage: the result from layer 2's output. -/
theorem level3 (c : Dev nD) (n : Fin 100000) (j : Fin 128) :
    ((dat3 (V9 (F := Ideal) m ρ) c).arrAt 5 cfg3.N : S100000x128.Idx → EReal) (ix2 n j)
      = bn (P m c).g2 (P m c).be2 (mean (KReg2.H2 (V7 (F := Ideal) m ρ) c))
          (istd (varK (KReg2.H2 (V7 (F := Ideal) m ρ) c))) (KReg2.H2 (V7 (F := Ideal) m ρ) c) n j := by
  obtain ⟨hmu, hiv⟩ := rows_blk20 (KReg2.H2 (V7 (F := Ideal) m ρ) c)
    (row (V9 (F := Ideal) m ρ c main_v50 : S128.Idx → EReal)) (row (V9 (F := Ideal) m ρ c main_v59 : S128.Idx → EReal))
    (fun t j => ((dat2 (V7 (F := Ideal) m ρ) c).arrAt 8 cfg2.N : S20x1x128.Idx → EReal) (ix3 t (0 : Fin 1) j))
    (fun t j => ((dat2 (V7 (F := Ideal) m ρ) c).arrAt 9 cfg2.N : S20x1x128.Idx → EReal) (ix3 t (0 : Fin 1) j))
    (fun t r => by have := t.isLt; have := r.isLt; omega)
    (fun t j => KReg2.reg2_sum (V7 (F := Ideal) m ρ) c t j) (fun t j => KReg2.reg2_sq (V7 (F := Ideal) m ρ) c t j)
    (fun j => KHost.V9_mu m ρ c j) (fun j => KHost.V9_inv m ρ c j)
  have hh : tab (V9 (F := Ideal) m ρ c main_v46_0 : S100000x128.Idx → EReal) = KReg2.H2 (V7 (F := Ideal) m ρ) c := by
    funext n j; rw [tab_apply, KHost.V9_h, KReg2.reg2_h]
  rw [KReg3.reg3_out, hmu, hiv, hh, KHost.V9_arg15, KHost.V9_arg16]
  rfl

/-! ## The result -/

/-- The program's result is everything after layer 0, under the clamped form of the variance, of layer 0's output. -/
theorem kvalue (c : Dev nD) (n : Fin 100000) (j : Fin 128) :
    (W10 (F := Ideal) m ρ c (Proc.devRef .tc main_v60) : S100000x128.Idx → EReal) (ix2 n j)
      = tail varK (P m c) (KReg0.H0 (V3 (F := Ideal) m ρ) c) n j := by
  rw [KHost.W10_out, level3, level2, level1]
  rfl

end Cert.KernelIdeal.KValue
end
-- ==== Proof.RefTerm.lean ====
import proofs.«426057_j62689342653098_3_alg».proof.ReferenceIdeal

/-!
# The reference's result as one pure term

The reference program is a three-layer perceptron over node features, each layer followed by a
batch normalisation over the node axis.  Its first layer reads the concatenation of the node
features, the per-node mean of the incoming edge features (a scatter-add of the edge rows and of
ones over the edges' target node, the count clipped below at one) and the row of a per-graph
table each node's graph index selects.

Every definition below is the pure function that the corresponding stretch of the program's
operations applies to the contents of its operand buffers, with the same shape evidence in the
same places, so that the program's run can be read back as `out` of the launch contents of its
seventeen arguments.
-/

noncomputable section

namespace Cert.ReferenceIdeal.RefTerm

open Cert.ReferenceIdeal Idealize.ShloMosaic

variable {F : FTy → Type} [FloatOps F] [Facts]
open Facts₀ Facts

/-- The edges' target nodes as a column: row 0 of the edge index, flattened, then given a unit
    second axis. -/
def src (a1 : IVec S2x640000 32) : IVec S640000x1 32 :=
  broadcastInDim S640000x1 ![0] bcast_S640000_S640000x1_0
    (shapeCast S640000 (extractStridedSlice S1x640000 ![0, 0] a1 slices_S2x640000_S1x640000_0_0)
      shapeCasts_S1x640000_S640000)

/-- Per node, the sum of the feature rows of the edges that point at it. -/
def sums (a1 : IVec S2x640000 32) (a2 : FVec F S640000x128 .f32) : FVec F S100000x128 .f32 :=
  Host.scatterAdd scatter_S100000x128_S640000x1_S640000x128_1_0_0_1
    (broadcastInDim S100000x128 ![] bcast_S_S100000x128 (constant S_ .f32 0x00000000#32)) (src a1) a2

/-- Per node, the number of edges that point at it (a sum of ones). -/
def cntRaw (a1 : IVec S2x640000 32) : FVec F S100000x1 .f32 :=
  Host.scatterAdd scatter_S100000x1_S640000x1_S640000x1_1_0_0_1
    (broadcastInDim S100000x1 ![] bcast_S_S100000x1 (constant S_ .f32 0x00000000#32)) (src a1)
    (broadcastInDim S640000x1 ![] bcast_S_S640000x1 (constant S_ .f32 0x3F800000#32))

/-- The count clipped below at one (the clip's conversion of its bound to its own type is the
    identity). -/
def cntClip (a1 : IVec S2x640000 32) : FVec F S100000x1 .f32 :=
  maximumf (broadcastInDim S100000x1 ![] bcast_S_S100000x1 (constant S_ .f32 0x3F800000#32)) (cntRaw a1)

/-- Per node, the mean of its incoming edges' feature rows. -/
def ve (a1 : IVec S2x640000 32) (a2 : FVec F S640000x128 .f32) : FVec F S100000x128 .f32 :=
  Host.divf (sums a1 a2) (broadcastInDim S100000x128 ![0, 1] bcast_S100000x1_S100000x128_0_1 (cntClip a1))

/-- The graph index of each node as a column, a negative index wrapped once by the table's 512
    rows. -/
def bidx (a4 : IVec S100000 32) : IVec S100000x1 32 :=
  broadcastInDim S100000x1 ![0] bcast_S100000_S100000x1_0
    (select (cmpi .slt a4 (broadcastInDim S100000 ![] bcast_S_S100000 (constantI S_ 32 0#32)))
      (addi a4 (broadcastInDim S100000 ![] bcast_S_S100000 (constantI S_ 32 512#32))) a4)

/-- Per node, the row of the per-graph table its graph index selects. -/
def ug (a3 : FVec F S512x128 .f32) (a4 : IVec S100000 32) : FVec F S100000x128 .f32 :=
  Host.gather gather_S512x128_S100000x1_S100000x128_1_0_n_n_0_1_1128 a3 (bidx a4)

/-- The first layer's input: node features, edge mean and graph row side by side. -/
def comb (a0 : FVec F S100000x128 .f32) (a1 : IVec S2x640000 32) (a2 : FVec F S640000x128 .f32)
    (a3 : FVec F S512x128 .f32) (a4 : IVec S100000 32) : FVec F S100000x384 .f32 :=
  concatenate S100000x384 1 [⟨S100000x128, a0⟩, ⟨S100000x128, ve a1 a2⟩, ⟨S100000x128, ug a3 a4⟩]
    concatenates_S100000x128_S100000x128_S100000x128_S100000x384_d1

/-- A feature vector repeated on every node row. -/
def rowB (v : FVec F S128 .f32) : FVec F S100000x128 .f32 :=
  broadcastInDim S100000x128 ![0, 1] bcast_S1x128_S100000x128_0_1
    (broadcastInDim S1x128 ![1] bcast_S128_S1x128_1 v)

/-- The positive part, element by element. -/
def relu (z : FVec F S100000x128 .f32) : FVec F S100000x128 .f32 :=
  maximumf z (broadcastInDim S100000x128 ![] bcast_S_S100000x128 (constant S_ .f32 0x00000000#32))

/-- The first layer before its activation. -/
def lin0 (a0 : FVec F S100000x128 .f32) (a1 : IVec S2x640000 32) (a2 : FVec F S640000x128 .f32)
    (a3 : FVec F S512x128 .f32) (a4 : IVec S100000 32) (a5 : FVec F S384x128 .f32) (a6 : FVec F S128 .f32) :
    FVec F S100000x128 .f32 :=
  addf (Host.dotGeneral dot_S100000x384_S384x128_S100000x128_1_0_0_1_n_n none (comb a0 a1 a2 a3 a4) a5) (rowB a6)

/-- The sum over the node axis, per feature. -/
def colsum (h : FVec F S100000x128 .f32) : FVec F S128 .f32 :=
  Host.reduceAdd h (constant S_ .f32 0x00000000#32) reducesTo_S100000x128_S128_d0 h_S_

/-- The mean over the node axis, per feature. -/
def mean (h : FVec F S100000x128 .f32) : FVec F S128 .f32 :=
  Host.divf (colsum h) (broadcastInDim S128 ![] bcast_S_S128 (constant S_ .f32 0x47C35000#32))

/-- The variance's divisor: the node count less the correction `0`. -/
def dof : FVec F S_ .f32 :=
  subf (constant S_ .f32 0x47C35000#32) (sitofp .f32 (constantI S_ 32 0#32))

/-- The deviation from the per-feature mean, the mean taken with a unit leading axis kept. -/
def dev (h : FVec F S100000x128 .f32) : FVec F S100000x128 .f32 :=
  subf h (broadcastInDim S100000x128 ![0, 1] bcast_S1x128_S100000x128_0_1
    (Host.divf (broadcastInDim S1x128 ![1] bcast_S128_S1x128_1 (colsum h))
      (broadcastInDim S1x128 ![] bcast_S_S1x128 (constant S_ .f32 0x47C35000#32))))

/-- The variance over the node axis, per feature: the mean square deviation where the divisor is
    positive, the not-a-number word elsewhere. -/
def var (h : FVec F S100000x128 .f32) : FVec F S128 .f32 :=
  select (broadcastInDim S128 ![] bcast_S_S128 (cmpf .ogt (dof (F := F)) (constant S_ .f32 0x00000000#32)))
    (Host.divf (colsum (mulf (dev h) (dev h))) (broadcastInDim S128 ![] bcast_S_S128 (dof (F := F))))
    (broadcastInDim S128 ![] bcast_S_S128 (constant S_ .f32 0x7FC00000#32))

/-- Batch normalisation over the node axis with scale `g` and shift `be`. -/
def bn (g be : FVec F S128 .f32) (h : FVec F S100000x128 .f32) : FVec F S100000x128 .f32 :=
  addf (mulf (mulf (rowB g) (subf h (rowB (mean h))))
      (rowB (Host.rsqrt (addf (var h) (broadcastInDim S128 ![] bcast_S_S128 (constant S_ .f32 0x3727C5AC#32))))))
    (rowB be)

/-- A square layer with its activation. -/
def lay (W : FVec F S128x128 .f32) (b : FVec F S128 .f32) (a : FVec F S100000x128 .f32) : FVec F S100000x128 .f32 :=
  relu (addf (Host.dotGeneral dot_S100000x128_S128x128_S100000x128_1_0_0_1_n_n none a W) (rowB b))

/-- The reference's result. -/
def out (a0 : FVec F S100000x128 .f32) (a1 : IVec S2x640000 32) (a2 : FVec F S640000x128 .f32)
    (a3 : FVec F S512x128 .f32) (a4 : IVec S100000 32) (a5 : FVec F S384x128 .f32) (a6 : FVec F S128 .f32)
    (a7 : FVec F S128x128 .f32) (a8 : FVec F S128 .f32) (a9 : FVec F S128x128 .f32) (a10 : FVec F S128 .f32)
    (a11 a12 a13 a14 a15 a16 : FVec F S128 .f32) : FVec F S100000x128 .f32 :=
  bn a15 a16 (lay a9 a10 (bn a13 a14 (lay a7 a8 (bn a11 a12 (relu (lin0 a0 a1 a2 a3 a4 a5 a6))))))

end Cert.ReferenceIdeal.RefTerm

end
-- ==== Proof.RefOps.lean ====
import proofs.«426057_j62689342653098_3_alg».proof.Proof.RefTerm
import proofs.«426057_j62689342653098_3_alg».proof.Proof.Gen.ReferenceIdeal
import Idealize.ShloMosaic.Lib.StableHlo.Run

/-!
# The reference's operations as a list

The reference program is a straight line of host operations, some of them inside the functions it
calls (the clip of the edge count, the positive part, the variance and its guard).  Here the line is
written out as a list, the calls opened at their sites over the buffers each call names, and the
list is cut into eleven consecutive stretches that follow the mathematics: the edge mean, the graph
row, the first layer, and then three times the statistics, the normalisation and the next layer.

This module holds the list, the proof that the program is that list run in order, and for each
stretch which buffers it writes and that it leaves every other buffer alone.  What the stretches
compute, and the run itself, are in the module that imports this one.
-/

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The operations, stretch by stretch -/

/-- The per-node mean of the incoming edge rows: the target column, the two scatter-adds, the clipped count, the quotient. -/
def opsAgg : List (HloOp τ sig (Elt F)) :=
  [
    StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.nullary main_cst (constant S_ .f32 0x00000000#32),
    StableHlo.unary main_cst main_v2 (broadcastInDim S100000x128 ![] bcast_S_S100000x128 : (⟨S_, .f32⟩ : BufTy).Contents (Elt F) → (⟨S100000x128, .f32⟩ : BufTy).Contents (Elt F)),
    StableHlo.unary main_v1 main_v3 (broadcastInDim S640000x1 ![0] bcast_S640000_S640000x1_0 : (⟨S640000, .i32⟩ : BufTy).Contents (Elt F) → (⟨S640000x1, .i32⟩ : BufTy).Contents (Elt F)),
    StableHlo.ternary main_v2 main_v3 main_arg2 main_v4 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_0 (constant S_ .f32 0x3F800000#32),
    StableHlo.unary main_cst_0 main_v5 (broadcastInDim S640000x1 ![] bcast_S_S640000x1 : (⟨S_, .f32⟩ : BufTy).Contents (Elt F) → (⟨S640000x1, .f32⟩ : BufTy).Contents (Elt F)),
    StableHlo.nullary main_cst_1 (constant S_ .f32 0x00000000#32),
    StableHlo.unary main_cst_1 main_v6 (broadcastInDim S100000x1 ![] bcast_S_S100000x1 : (⟨S_, .f32⟩ : BufTy).Contents (Elt F) → (⟨S100000x1, .f32⟩ : BufTy).Contents (Elt F)),
    StableHlo.unary main_v1 main_v7 (broadcastInDim S640000x1 ![0] bcast_S640000_S640000x1_0 : (⟨S640000, .i32⟩ : BufTy).Contents (Elt F) → (⟨S640000x1, .i32⟩ : BufTy).Contents (Elt F)),
    StableHlo.ternary main_v6 main_v7 main_v5 main_v8 ((fun x i u => Host.scatterAdd scatter_S100000x1_S640000x1_S640000x1_1_0_0_1 x i u) : (⟨S100000x1, .f32⟩ : BufTy).Contents (Elt F) → (⟨S640000x1, .i32⟩ : BufTy).Contents (Elt F) → (⟨S640000x1, .f32⟩ : BufTy).Contents (Elt F) → (⟨S100000x1, .f32⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S100000x1 ![] bcast_S_S100000x1),
    StableHlo.TRef.binary main_call0.v1 (.of main_v8 : StableHlo.TRef sig ⟨S100000x1, .f32⟩) main_call0.v2 maximumf,
    StableHlo.unary main_v9 main_v10 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v10 main_v11 (Host.divf : (⟨S100000x128, .f32⟩ : BufTy).Contents (Elt F) → (⟨S100000x128, .f32⟩ : BufTy).Contents (Elt F) → (⟨S100000x128, .f32⟩ : BufTy).Contents (Elt F)) ]

/-- The per-node row of the graph table: the wrapped graph index as a column, then the gather. -/
def opsIdx : List (HloOp τ sig (Elt F)) :=
  [
    StableHlo.nullary main_c (constantI S_ 32 0#32),
    StableHlo.unary main_c main_v12 (broadcastInDim S100000 ![] bcast_S_S100000 : (⟨S_, .i32⟩ : BufTy).Contents (Elt F) → (⟨S100000, .i32⟩ : BufTy).Contents (Elt F)),
    StableHlo.binary main_arg4 main_v12 main_v13 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 512#32),
    StableHlo.unary main_c_3 main_v14 (broadcastInDim S100000 ![] bcast_S_S100000 : (⟨S_, .i32⟩ : BufTy).Contents (Elt F) → (⟨S100000, .i32⟩ : BufTy).Contents (Elt F)),
    StableHlo.binary main_arg4 main_v14 main_v15 (addi : (⟨S100000, .i32⟩ : BufTy).Contents (Elt F) → (⟨S100000, .i32⟩ : BufTy).Contents (Elt F) → (⟨S100000, .i32⟩ : BufTy).Contents (Elt F)),
    StableHlo.ternary main_v13 main_v15 main_arg4 main_v16 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v16 main_v17 (broadcastInDim S100000x1 ![0] bcast_S100000_S100000x1_0 : (⟨S100000, .i32⟩ : BufTy).Contents (Elt F) → (⟨S100000x1, .i32⟩ : BufTy).Contents (Elt F)),
    StableHlo.binary main_arg3 main_v17 main_v18 ((fun x i => Host.gather gather_S512x128_S100000x1_S100000x128_1_0_n_n_0_1_1128 x i) : (⟨S512x128, .f32⟩ : BufTy).Contents (Elt F) → (⟨S100000x1, .i32⟩ : BufTy).Contents (Elt F) → (⟨S100000x128, .f32⟩ : BufTy).Contents (Elt F)) ]

/-- The first layer: the three blocks side by side, the product with the weights, the bias, the positive part. -/
def opsLin : List (HloOp τ sig (Elt F)) :=
  [
    StableHlo.nary ![main_arg0, main_v11, main_v18] main_v19 (fun u => concatenate S100000x384 1 [⟨S100000x128, u 0⟩, ⟨S100000x128, u 1⟩, ⟨S100000x128, u 2⟩] concatenates_S100000x128_S100000x128_S100000x128_S100000x384_d1),
    StableHlo.binary main_v19 main_arg5 main_v20 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.unary main_arg6 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v23 : StableHlo.TRef sig ⟨S100000x128, .f32⟩) main_call1.v0 main_call1.v1 maximumf ]

/-- The first normalisation's statistics: the column mean, then the variance with its guard. -/
def opsSt1 : List (HloOp τ sig (Elt F)) :=
  [
    StableHlo.nullary main_cst_4 (constant S_ .f32 0x00000000#32),
    StableHlo.binary main_v24 main_cst_4 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v26 (broadcastInDim S128 ![] bcast_S_S128 : (⟨S_, .f32⟩ : BufTy).Contents (Elt F) → (⟨S128, .f32⟩ : BufTy).Contents (Elt F)),
    StableHlo.binary main_v25 main_v26 main_v27 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call2.cst (constant S_ .f32 0x00000000#32),
    StableHlo.TRef.binary (.of main_v24 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v24 : StableHlo.TRef sig ⟨S100000x128, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The first normalisation: centre, scale, divide by the root of the variance plus epsilon, shift. -/
def opsNm1 : List (HloOp τ sig (Elt F)) :=
  [
    StableHlo.unary main_v27 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v30 main_v31 (subf : (⟨S100000x128, .f32⟩ : BufTy).Contents (Elt F) → (⟨S100000x128, .f32⟩ : BufTy).Contents (Elt F) → (⟨S100000x128, .f32⟩ : BufTy).Contents (Elt F)),
    StableHlo.unary main_arg11 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v31 main_v34 (mulf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v35 (broadcastInDim S128 ![] bcast_S_S128 : (⟨S_, .f32⟩ : BufTy).Contents (Elt F) → (⟨S128, .f32⟩ : BufTy).Contents (Elt F)),
    StableHlo.binary main_v28 main_v35 main_v36 (addf : (⟨S128, .f32⟩ : BufTy).Contents (Elt F) → (⟨S128, .f32⟩ : BufTy).Contents (Elt F) → (⟨S128, .f32⟩ : BufTy).Contents (Elt F)),
    StableHlo.unary main_v36 main_v37 (Host.rsqrt : (⟨S128, .f32⟩ : BufTy).Contents (Elt F) → (⟨S128, .f32⟩ : BufTy).Contents (Elt F)),
    StableHlo.unary main_v37 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v39 main_v40 (mulf : (⟨S100000x128, .f32⟩ : BufTy).Contents (Elt F) → (⟨S100000x128, .f32⟩ : BufTy).Contents (Elt F) → (⟨S100000x128, .f32⟩ : BufTy).Contents (Elt F)),
    StableHlo.unary main_arg12 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)) ]

/-- The second layer (and the zero the next column sum starts from). -/
def opsLy1 : List (HloOp τ sig (Elt F)) :=
  [
    StableHlo.binary main_v43 main_arg7 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg8 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v47 : StableHlo.TRef sig ⟨S100000x128, .f32⟩) main_call3.v0 main_call3.v1 maximumf,
    StableHlo.nullary main_cst_8 (constant S_ .f32 0x00000000#32) ]

/-- The second normalisation's statistics. -/
def opsSt2 : List (HloOp τ sig (Elt F)) :=
  [
    StableHlo.binary main_v48 main_cst_8 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call4.cst (constant S_ .f32 0x00000000#32),
    StableHlo.TRef.binary (.of main_v48 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v48 : StableHlo.TRef sig ⟨S100000x128, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- The second normalisation. -/
def opsNm2 : List (HloOp τ sig (Elt F)) :=
  [
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v54 main_v55 (subf : (⟨S100000x128, .f32⟩ : BufTy).Contents (Elt F) → (⟨S100000x128, .f32⟩ : BufTy).Contents (Elt F) → (⟨S100000x128, .f32⟩ : BufTy).Contents (Elt F)),
    StableHlo.unary main_arg13 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v55 main_v58 (mulf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v59 (broadcastInDim S128 ![] bcast_S_S128 : (⟨S_, .f32⟩ : BufTy).Contents (Elt F) → (⟨S128, .f32⟩ : BufTy).Contents (Elt F)),
    StableHlo.binary main_v52 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v63 main_v64 (mulf : (⟨S100000x128, .f32⟩ : BufTy).Contents (Elt F) → (⟨S100000x128, .f32⟩ : BufTy).Contents (Elt F) → (⟨S100000x128, .f32⟩ : BufTy).Contents (Elt F)),
    StableHlo.unary main_arg14 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)) ]

/-- The third layer. -/
def opsLy2 : List (HloOp τ sig (Elt F)) :=
  [
    StableHlo.binary main_v67 main_arg9 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg10 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v71 : StableHlo.TRef sig ⟨S100000x128, .f32⟩) main_call5.v0 main_call5.v1 maximumf ]

/-- The third normalisation's statistics. -/
def opsSt3 : List (HloOp τ sig (Elt F)) :=
  [
    StableHlo.nullary main_cst_12 (constant S_ .f32 0x00000000#32),
    StableHlo.binary main_v72 main_cst_12 main_v73 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v74 (broadcastInDim S128 ![] bcast_S_S128 : (⟨S_, .f32⟩ : BufTy).Contents (Elt F) → (⟨S128, .f32⟩ : BufTy).Contents (Elt F)),
    StableHlo.binary main_v73 main_v74 main_v75 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call6.cst (constant S_ .f32 0x00000000#32),
    StableHlo.TRef.binary (.of main_v72 : StableHlo.TRef sig ⟨S100000x128, .f32⟩) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v72 : StableHlo.TRef sig ⟨S100000x128, .f32⟩) main_call6.v4 main_call6.v5 subf,
    StableHlo.TRef.binary main_call6.v5 main_call6.v5 main_call6.v6 mulf,
    StableHlo.TRef.unary (.of main_c_14 : StableHlo.TRef sig ⟨S_, .i32⟩) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

/-- The third normalisation: the program's result. -/
def opsNm3 : List (HloOp τ sig (Elt F)) :=
  [
    StableHlo.unary main_v75 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v78 main_v79 (subf : (⟨S100000x128, .f32⟩ : BufTy).Contents (Elt F) → (⟨S100000x128, .f32⟩ : BufTy).Contents (Elt F) → (⟨S100000x128, .f32⟩ : BufTy).Contents (Elt F)),
    StableHlo.unary main_arg15 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v79 main_v82 (mulf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32),
    StableHlo.unary main_cst_15 main_v83 (broadcastInDim S128 ![] bcast_S_S128 : (⟨S_, .f32⟩ : BufTy).Contents (Elt F) → (⟨S128, .f32⟩ : BufTy).Contents (Elt F)),
    StableHlo.binary main_v76 main_v83 main_v84 (addf : (⟨S128, .f32⟩ : BufTy).Contents (Elt F) → (⟨S128, .f32⟩ : BufTy).Contents (Elt F) → (⟨S128, .f32⟩ : BufTy).Contents (Elt F)),
    StableHlo.unary main_v84 main_v85 (Host.rsqrt : (⟨S128, .f32⟩ : BufTy).Contents (Elt F) → (⟨S128, .f32⟩ : BufTy).Contents (Elt F)),
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v87 main_v88 (mulf : (⟨S100000x128, .f32⟩ : BufTy).Contents (Elt F) → (⟨S100000x128, .f32⟩ : BufTy).Contents (Elt F) → (⟨S100000x128, .f32⟩ : BufTy).Contents (Elt F)),
    StableHlo.unary main_arg16 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v90 main_v91 (addf : (⟨S100000x128, .f32⟩ : BufTy).Contents (Elt F) → (⟨S100000x128, .f32⟩ : BufTy).Contents (Elt F) → (⟨S100000x128, .f32⟩ : BufTy).Contents (Elt F)) ]

/-- The first window of the program's text: the first six stretches. -/
def ops0 : List (HloOp τ sig (Elt F)) := opsAgg ++ opsIdx ++ opsLin ++ opsSt1 ++ opsNm1 ++ opsLy1
/-- The second window: the last five stretches. -/
def ops1 : List (HloOp τ sig (Elt F)) := opsSt2 ++ opsNm2 ++ opsLy2 ++ opsSt3 ++ opsNm3
/-- The whole line. -/
def ops : List (HloOp τ sig (Elt F)) := ops0 ++ ops1

/-! ## The program is the list, run in order

Each window of the program's text unfolds to its list: the functions' bodies open at their calls,
the records at their fields, and sequencing reassociates by computation. -/

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Two lines run one after the other fold as the second over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes, and that it leaves the rest alone -/

/-- The buffers the stretch `opsAgg` writes. -/
abbrev wAgg : List (Ref sig .tc) :=
  [main_v0, main_v1, main_cst, main_v2, main_v3, main_v4, main_cst_0, main_v5, main_cst_1, main_v6, main_v7, main_v8, main_cst_2, main_call0_v0, main_call0_v1, main_v9, main_v10, main_v11]

theorem opsAgg_writes : (opsAgg : List (HloOp τ sig (Elt F))).Forall fun op =>
    op.writes ⊆ (wAgg.map (Proc.devRef (τ := τ) .tc)).toFinset := by
  simp only [opsAgg, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsAgg` does not write keeps its contents through it. -/
theorem opsAgg_keep (V : Valuation τ sig (Elt F)) (r : Ref sig .tc) (h : r ∉ wAgg) :
    after opsAgg V (no_index (Proc.devRef .tc r)) = V (Proc.devRef .tc r) :=
  after_of_writes_sub opsAgg V opsAgg_writes h

theorem opsAgg_sub : (opsAgg : List (HloOp τ sig (Elt F))).Forall fun op => op.bufs ⊆ tcRefs τ sig := by
  simp only [opsAgg, List.Forall]
  exact ⟨unary_bufs_sub .., reshape_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., binary_bufs_sub ..⟩

theorem opsAgg_fresh : ∀ op ∈ (opsAgg : List (HloOp τ sig (Elt F))), op.fresh = ∅ := by
  simp only [opsAgg]
  intro _ h; (repeat (cases h with | head => rfl | tail _ h => ?_)); exact nomatch h

/-- The buffers the stretch `opsIdx` writes. -/
abbrev wIdx : List (Ref sig .tc) :=
  [main_c, main_v12, main_v13, main_c_3, main_v14, main_v15, main_v16, main_v17, main_v18]

theorem opsIdx_writes : (opsIdx : List (HloOp τ sig (Elt F))).Forall fun op =>
    op.writes ⊆ (wIdx.map (Proc.devRef (τ := τ) .tc)).toFinset := by
  simp only [opsIdx, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsIdx` does not write keeps its contents through it. -/
theorem opsIdx_keep (V : Valuation τ sig (Elt F)) (r : Ref sig .tc) (h : r ∉ wIdx) :
    after opsIdx V (no_index (Proc.devRef .tc r)) = V (Proc.devRef .tc r) :=
  after_of_writes_sub opsIdx V opsIdx_writes h

theorem opsIdx_sub : (opsIdx : List (HloOp τ sig (Elt F))).Forall fun op => op.bufs ⊆ tcRefs τ sig := by
  simp only [opsIdx, List.Forall]
  exact ⟨nullary_bufs_sub .., unary_bufs_sub .., binary_bufs_sub .., nullary_bufs_sub .., unary_bufs_sub .., binary_bufs_sub .., ternary_bufs_sub .., unary_bufs_sub .., binary_bufs_sub ..⟩

theorem opsIdx_fresh : ∀ op ∈ (opsIdx : List (HloOp τ sig (Elt F))), op.fresh = ∅ := by
  simp only [opsIdx]
  intro _ h; (repeat (cases h with | head => rfl | tail _ h => ?_)); exact nomatch h

/-- The buffers the stretch `opsLin` writes. -/
abbrev wLin : List (Ref sig .tc) :=
  [main_v19, main_v20, main_v21, main_v22, main_v23, main_call1_cst, main_call1_v0, main_v24]

theorem opsLin_writes : (opsLin : List (HloOp τ sig (Elt F))).Forall fun op =>
    op.writes ⊆ (wLin.map (Proc.devRef (τ := τ) .tc)).toFinset := by
  simp only [opsLin, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsLin` does not write keeps its contents through it. -/
theorem opsLin_keep (V : Valuation τ sig (Elt F)) (r : Ref sig .tc) (h : r ∉ wLin) :
    after opsLin V (no_index (Proc.devRef .tc r)) = V (Proc.devRef .tc r) :=
  after_of_writes_sub opsLin V opsLin_writes h

theorem opsLin_sub : (opsLin : List (HloOp τ sig (Elt F))).Forall fun op => op.bufs ⊆ tcRefs τ sig := by
  simp only [opsLin, List.Forall]
  exact ⟨nary_bufs_sub .., binary_bufs_sub .., unary_bufs_sub .., unary_bufs_sub .., binary_bufs_sub .., nullary_bufs_sub .., unary_bufs_sub .., binary_bufs_sub ..⟩

theorem opsLin_fresh : ∀ op ∈ (opsLin : List (HloOp τ sig (Elt F))), op.fresh = ∅ := by
  simp only [opsLin]
  intro _ h; (repeat (cases h with | head => rfl | tail _ h => ?_)); exact nomatch h

/-- The buffers the stretch `opsSt1` writes. -/
abbrev wSt1 : List (Ref sig .tc) :=
  [main_cst_4, main_v25, main_cst_5, main_v26, main_v27, main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v28]

theorem opsSt1_writes : (opsSt1 : List (HloOp τ sig (Elt F))).Forall fun op =>
    op.writes ⊆ (wSt1.map (Proc.devRef (τ := τ) .tc)).toFinset := by
  simp only [opsSt1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsSt1` does not write keeps its contents through it. -/
theorem opsSt1_keep (V : Valuation τ sig (Elt F)) (r : Ref sig .tc) (h : r ∉ wSt1) :
    after opsSt1 V (no_index (Proc.devRef .tc r)) = V (Proc.devRef .tc r) :=
  after_of_writes_sub opsSt1 V opsSt1_writes h

theorem opsSt1_sub : (opsSt1 : List (HloOp τ sig (Elt F))).Forall fun op => op.bufs ⊆ tcRefs τ sig := by
  simp only [opsSt1, List.Forall]
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsSt1_fresh : ∀ op ∈ (opsSt1 : List (HloOp τ sig (Elt F))), op.fresh = ∅ := by
  simp only [opsSt1]
  intro _ h; (repeat (cases h with | head => rfl | tail _ h => ?_)); exact nomatch h

/-- The buffers the stretch `opsNm1` writes. -/
abbrev wNm1 : List (Ref sig .tc) :=
  [main_v29, main_v30, main_v31, main_v32, main_v33, main_v34, main_cst_7, main_v35, main_v36, main_v37, main_v38, main_v39, main_v40, main_v41, main_v42, main_v43]

theorem opsNm1_writes : (opsNm1 : List (HloOp τ sig (Elt F))).Forall fun op =>
    op.writes ⊆ (wNm1.map (Proc.devRef (τ := τ) .tc)).toFinset := by
  simp only [opsNm1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsNm1` does not write keeps its contents through it. -/
theorem opsNm1_keep (V : Valuation τ sig (Elt F)) (r : Ref sig .tc) (h : r ∉ wNm1) :
    after opsNm1 V (no_index (Proc.devRef .tc r)) = V (Proc.devRef .tc r) :=
  after_of_writes_sub opsNm1 V opsNm1_writes h

theorem opsNm1_sub : (opsNm1 : List (HloOp τ sig (Elt F))).Forall fun op => op.bufs ⊆ tcRefs τ sig := by
  simp only [opsNm1, List.Forall]
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem opsNm1_fresh : ∀ op ∈ (opsNm1 : List (HloOp τ sig (Elt F))), op.fresh = ∅ := by
  simp only [opsNm1]
  intro _ h; (repeat (cases h with | head => rfl | tail _ h => ?_)); exact nomatch h

/-- The buffers the stretch `opsLy1` writes. -/
abbrev wLy1 : List (Ref sig .tc) :=
  [main_v44, main_v45, main_v46, main_v47, main_call3_cst, main_call3_v0, main_v48, main_cst_8]

theorem opsLy1_writes : (opsLy1 : List (HloOp τ sig (Elt F))).Forall fun op =>
    op.writes ⊆ (wLy1.map (Proc.devRef (τ := τ) .tc)).toFinset := by
  simp only [opsLy1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsLy1` does not write keeps its contents through it. -/
theorem opsLy1_keep (V : Valuation τ sig (Elt F)) (r : Ref sig .tc) (h : r ∉ wLy1) :
    after opsLy1 V (no_index (Proc.devRef .tc r)) = V (Proc.devRef .tc r) :=
  after_of_writes_sub opsLy1 V opsLy1_writes h

theorem opsLy1_sub : (opsLy1 : List (HloOp τ sig (Elt F))).Forall fun op => op.bufs ⊆ tcRefs τ sig := by
  simp only [opsLy1, List.Forall]
  exact ⟨binary_bufs_sub .., unary_bufs_sub .., unary_bufs_sub .., binary_bufs_sub .., nullary_bufs_sub .., unary_bufs_sub .., binary_bufs_sub .., nullary_bufs_sub ..⟩

theorem opsLy1_fresh : ∀ op ∈ (opsLy1 : List (HloOp τ sig (Elt F))), op.fresh = ∅ := by
  simp only [opsLy1]
  intro _ h; (repeat (cases h with | head => rfl | tail _ h => ?_)); exact nomatch h

/-- The buffers the stretch `opsSt2` writes. -/
abbrev wSt2 : List (Ref sig .tc) :=
  [main_v49, main_cst_9, main_v50, main_v51, main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v52]

theorem opsSt2_writes : (opsSt2 : List (HloOp τ sig (Elt F))).Forall fun op =>
    op.writes ⊆ (wSt2.map (Proc.devRef (τ := τ) .tc)).toFinset := by
  simp only [opsSt2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsSt2` does not write keeps its contents through it. -/
theorem opsSt2_keep (V : Valuation τ sig (Elt F)) (r : Ref sig .tc) (h : r ∉ wSt2) :
    after opsSt2 V (no_index (Proc.devRef .tc r)) = V (Proc.devRef .tc r) :=
  after_of_writes_sub opsSt2 V opsSt2_writes h

theorem opsSt2_sub : (opsSt2 : List (HloOp τ sig (Elt F))).Forall fun op => op.bufs ⊆ tcRefs τ sig := by
  simp only [opsSt2, List.Forall]
  exact ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsSt2_fresh : ∀ op ∈ (opsSt2 : List (HloOp τ sig (Elt F))), op.fresh = ∅ := by
  simp only [opsSt2]
  intro _ h; (repeat (cases h with | head => rfl | tail _ h => ?_)); exact nomatch h

/-- The buffers the stretch `opsNm2` writes. -/
abbrev wNm2 : List (Ref sig .tc) :=
  [main_v53, main_v54, main_v55, main_v56, main_v57, main_v58, main_cst_11, main_v59, main_v60, main_v61, main_v62, main_v63, main_v64, main_v65, main_v66, main_v67]

theorem opsNm2_writes : (opsNm2 : List (HloOp τ sig (Elt F))).Forall fun op =>
    op.writes ⊆ (wNm2.map (Proc.devRef (τ := τ) .tc)).toFinset := by
  simp only [opsNm2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsNm2` does not write keeps its contents through it. -/
theorem opsNm2_keep (V : Valuation τ sig (Elt F)) (r : Ref sig .tc) (h : r ∉ wNm2) :
    after opsNm2 V (no_index (Proc.devRef .tc r)) = V (Proc.devRef .tc r) :=
  after_of_writes_sub opsNm2 V opsNm2_writes h

theorem opsNm2_sub : (opsNm2 : List (HloOp τ sig (Elt F))).Forall fun op => op.bufs ⊆ tcRefs τ sig := by
  simp only [opsNm2, List.Forall]
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem opsNm2_fresh : ∀ op ∈ (opsNm2 : List (HloOp τ sig (Elt F))), op.fresh = ∅ := by
  simp only [opsNm2]
  intro _ h; (repeat (cases h with | head => rfl | tail _ h => ?_)); exact nomatch h

/-- The buffers the stretch `opsLy2` writes. -/
abbrev wLy2 : List (Ref sig .tc) :=
  [main_v68, main_v69, main_v70, main_v71, main_call5_cst, main_call5_v0, main_v72]

theorem opsLy2_writes : (opsLy2 : List (HloOp τ sig (Elt F))).Forall fun op =>
    op.writes ⊆ (wLy2.map (Proc.devRef (τ := τ) .tc)).toFinset := by
  simp only [opsLy2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsLy2` does not write keeps its contents through it. -/
theorem opsLy2_keep (V : Valuation τ sig (Elt F)) (r : Ref sig .tc) (h : r ∉ wLy2) :
    after opsLy2 V (no_index (Proc.devRef .tc r)) = V (Proc.devRef .tc r) :=
  after_of_writes_sub opsLy2 V opsLy2_writes h

theorem opsLy2_sub : (opsLy2 : List (HloOp τ sig (Elt F))).Forall fun op => op.bufs ⊆ tcRefs τ sig := by
  simp only [opsLy2, List.Forall]
  exact ⟨binary_bufs_sub .., unary_bufs_sub .., unary_bufs_sub .., binary_bufs_sub .., nullary_bufs_sub .., unary_bufs_sub .., binary_bufs_sub ..⟩

theorem opsLy2_fresh : ∀ op ∈ (opsLy2 : List (HloOp τ sig (Elt F))), op.fresh = ∅ := by
  simp only [opsLy2]
  intro _ h; (repeat (cases h with | head => rfl | tail _ h => ?_)); exact nomatch h

/-- The buffers the stretch `opsSt3` writes. -/
abbrev wSt3 : List (Ref sig .tc) :=
  [main_cst_12, main_v73, main_cst_13, main_v74, main_v75, main_c_14, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v76]

theorem opsSt3_writes : (opsSt3 : List (HloOp τ sig (Elt F))).Forall fun op =>
    op.writes ⊆ (wSt3.map (Proc.devRef (τ := τ) .tc)).toFinset := by
  simp only [opsSt3, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsSt3` does not write keeps its contents through it. -/
theorem opsSt3_keep (V : Valuation τ sig (Elt F)) (r : Ref sig .tc) (h : r ∉ wSt3) :
    after opsSt3 V (no_index (Proc.devRef .tc r)) = V (Proc.devRef .tc r) :=
  after_of_writes_sub opsSt3 V opsSt3_writes h

theorem opsSt3_sub : (opsSt3 : List (HloOp τ sig (Elt F))).Forall fun op => op.bufs ⊆ tcRefs τ sig := by
  simp only [opsSt3, List.Forall]
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem opsSt3_fresh : ∀ op ∈ (opsSt3 : List (HloOp τ sig (Elt F))), op.fresh = ∅ := by
  simp only [opsSt3]
  intro _ h; (repeat (cases h with | head => rfl | tail _ h => ?_)); exact nomatch h

/-- The buffers the stretch `opsNm3` writes. -/
abbrev wNm3 : List (Ref sig .tc) :=
  [main_v77, main_v78, main_v79, main_v80, main_v81, main_v82, main_cst_15, main_v83, main_v84, main_v85, main_v86, main_v87, main_v88, main_v89, main_v90, main_v91]

theorem opsNm3_writes : (opsNm3 : List (HloOp τ sig (Elt F))).Forall fun op =>
    op.writes ⊆ (wNm3.map (Proc.devRef (τ := τ) .tc)).toFinset := by
  simp only [opsNm3, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the stretch `opsNm3` does not write keeps its contents through it. -/
theorem opsNm3_keep (V : Valuation τ sig (Elt F)) (r : Ref sig .tc) (h : r ∉ wNm3) :
    after opsNm3 V (no_index (Proc.devRef .tc r)) = V (Proc.devRef .tc r) :=
  after_of_writes_sub opsNm3 V opsNm3_writes h

theorem opsNm3_sub : (opsNm3 : List (HloOp τ sig (Elt F))).Forall fun op => op.bufs ⊆ tcRefs τ sig := by
  simp only [opsNm3, List.Forall]
  exact ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem opsNm3_fresh : ∀ op ∈ (opsNm3 : List (HloOp τ sig (Elt F))), op.fresh = ∅ := by
  simp only [opsNm3]
  intro _ h; (repeat (cases h with | head => rfl | tail _ h => ?_)); exact nomatch h

end Cert.ReferenceIdeal.RefRun

end
-- ==== Proof.RefRun.lean ====
import proofs.«426057_j62689342653098_3_alg».proof.Proof.RefOps

/-!
# The reference's run

The reference program as a list of operations in eleven stretches is in the module this one
imports, with what each stretch writes.  Here we say what each buffer that a later stretch reads
holds after its stretch, as a pure function of the contents before it: the edge mean, the graph
row, the first layer, and three times the column mean and variance, the normalisation and the next
layer.  Threading those equations through the eleven stretches gives the result buffer as
`RefTerm.out` of the seventeen arguments' contents and the arguments unchanged, from any contents;
the library's theorem on straight lines turns that into the statement about every weakly fair
execution from the launch memory.
-/

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The stages between stretches

Three stages read buffers that an earlier stretch left: the first layer reads the edge mean and the
graph row, a normalisation reads the mean and the variance, and the second column mean starts from
a zero written one stretch earlier.  Each is named over those values, with the equation that makes
it the stage of `RefTerm` once the values are the ones the earlier stretches compute. -/

/-- The first layer with its activation, over the three blocks it joins. -/
def linOf (a0 x y : FVec F S100000x128 .f32) (a5 : FVec F S384x128 .f32) (a6 : FVec F S128 .f32) :
    FVec F S100000x128 .f32 :=
  RefTerm.relu (addf (Host.dotGeneral dot_S100000x384_S384x128_S100000x128_1_0_0_1_n_n none
    (concatenate S100000x384 1 [⟨S100000x128, a0⟩, ⟨S100000x128, x⟩, ⟨S100000x128, y⟩]
      concatenates_S100000x128_S100000x128_S100000x128_S100000x384_d1) a5) (RefTerm.rowB a6))

theorem linOf_eq (a0 : FVec F S100000x128 .f32) (a1 : IVec S2x640000 32) (a2 : FVec F S640000x128 .f32)
    (a3 : FVec F S512x128 .f32) (a4 : IVec S100000 32) (a5 : FVec F S384x128 .f32) (a6 : FVec F S128 .f32) :
    linOf a0 (RefTerm.ve a1 a2) (RefTerm.ug a3 a4) a5 a6 = RefTerm.relu (RefTerm.lin0 a0 a1 a2 a3 a4 a5 a6) := rfl

/-- The column mean, the sum started from `z`. -/
def meanFrom (h : FVec F S100000x128 .f32) (z : FVec F S_ .f32) : FVec F S128 .f32 :=
  Host.divf (Host.reduceAdd h z reducesTo_S100000x128_S128_d0 h_S_)
    (broadcastInDim S128 ![] bcast_S_S128 (constant S_ .f32 0x47C35000#32))

theorem meanFrom_zero (h : FVec F S100000x128 .f32) :
    meanFrom h (constant S_ .f32 0x00000000#32) = RefTerm.mean h := rfl

/-- The normalisation, given the mean and the variance. -/
def bnOf (g be : FVec F S128 .f32) (h : FVec F S100000x128 .f32) (mu vr : FVec F S128 .f32) :
    FVec F S100000x128 .f32 :=
  addf (mulf (mulf (RefTerm.rowB g) (subf h (RefTerm.rowB mu)))
      (RefTerm.rowB (Host.rsqrt (addf vr (broadcastInDim S128 ![] bcast_S_S128 (constant S_ .f32 0x3727C5AC#32))))))
    (RefTerm.rowB be)

theorem bnOf_eq (g be : FVec F S128 .f32) (h : FVec F S100000x128 .f32) :
    bnOf g be h (RefTerm.mean h) (RefTerm.var h) = RefTerm.bn g be h := rfl

/-! ## What each stretch computes

After a stretch, a buffer it writes holds the composed function of the contents before it: the
fold unrolls, each operation's result is read at its own buffer and passed over at the others, and
what is left differs from the stage only by the unfolding of its definition. -/

theorem opsAgg_v11 (V : Valuation τ sig (Elt F)) :
    after opsAgg V (no_index (Proc.devRef .tc main_v11)) = RefTerm.ve (V (main_arg1 : DevRef τ sig)) (V (main_arg2 : DevRef τ sig)) := by
  simp only [opsAgg]
  after_results_simp
  rfl

theorem opsIdx_v18 (V : Valuation τ sig (Elt F)) :
    after opsIdx V (no_index (Proc.devRef .tc main_v18)) = RefTerm.ug (V (main_arg3 : DevRef τ sig)) (V (main_arg4 : DevRef τ sig)) := by
  simp only [opsIdx]
  after_results_simp
  rfl

theorem opsLin_v24 (V : Valuation τ sig (Elt F)) :
    after opsLin V (no_index (Proc.devRef .tc main_v24)) = linOf (V (main_arg0 : DevRef τ sig)) (V (main_v11 : DevRef τ sig)) (V (main_v18 : DevRef τ sig)) (V (main_arg5 : DevRef τ sig)) (V (main_arg6 : DevRef τ sig)) := by
  simp only [opsLin]
  after_results_simp
  rfl

theorem opsSt1_v27 (V : Valuation τ sig (Elt F)) :
    after opsSt1 V (no_index (Proc.devRef .tc main_v27)) = RefTerm.mean (V (main_v24 : DevRef τ sig)) := by
  simp only [opsSt1]
  after_results_simp
  rfl

theorem opsSt1_v28 (V : Valuation τ sig (Elt F)) :
    after opsSt1 V (no_index (Proc.devRef .tc main_v28)) = RefTerm.var (V (main_v24 : DevRef τ sig)) := by
  simp only [opsSt1]
  after_results_simp
  rfl

theorem opsNm1_v43 (V : Valuation τ sig (Elt F)) :
    after opsNm1 V (no_index (Proc.devRef .tc main_v43)) = bnOf (V (main_arg11 : DevRef τ sig)) (V (main_arg12 : DevRef τ sig)) (V (main_v24 : DevRef τ sig)) (V (main_v27 : DevRef τ sig)) (V (main_v28 : DevRef τ sig)) := by
  simp only [opsNm1]
  after_results_simp
  rfl

theorem opsLy1_v48 (V : Valuation τ sig (Elt F)) :
    after opsLy1 V (no_index (Proc.devRef .tc main_v48)) = RefTerm.lay (V (main_arg7 : DevRef τ sig)) (V (main_arg8 : DevRef τ sig)) (V (main_v43 : DevRef τ sig)) := by
  simp only [opsLy1]
  after_results_simp
  rfl

theorem opsLy1_cst_8 (V : Valuation τ sig (Elt F)) :
    after opsLy1 V (no_index (Proc.devRef .tc main_cst_8)) = (constant S_ .f32 0x00000000#32 : FVec F S_ .f32) := by
  simp only [opsLy1]
  after_results_simp

theorem opsSt2_v51 (V : Valuation τ sig (Elt F)) :
    after opsSt2 V (no_index (Proc.devRef .tc main_v51)) = meanFrom (V (main_v48 : DevRef τ sig)) (V (main_cst_8 : DevRef τ sig)) := by
  simp only [opsSt2]
  after_results_simp
  rfl

theorem opsSt2_v52 (V : Valuation τ sig (Elt F)) :
    after opsSt2 V (no_index (Proc.devRef .tc main_v52)) = RefTerm.var (V (main_v48 : DevRef τ sig)) := by
  simp only [opsSt2]
  after_results_simp
  rfl

theorem opsNm2_v67 (V : Valuation τ sig (Elt F)) :
    after opsNm2 V (no_index (Proc.devRef .tc main_v67)) = bnOf (V (main_arg13 : DevRef τ sig)) (V (main_arg14 : DevRef τ sig)) (V (main_v48 : DevRef τ sig)) (V (main_v51 : DevRef τ sig)) (V (main_v52 : DevRef τ sig)) := by
  simp only [opsNm2]
  after_results_simp
  rfl

theorem opsLy2_v72 (V : Valuation τ sig (Elt F)) :
    after opsLy2 V (no_index (Proc.devRef .tc main_v72)) = RefTerm.lay (V (main_arg9 : DevRef τ sig)) (V (main_arg10 : DevRef τ sig)) (V (main_v67 : DevRef τ sig)) := by
  simp only [opsLy2]
  after_results_simp
  rfl

theorem opsSt3_v75 (V : Valuation τ sig (Elt F)) :
    after opsSt3 V (no_index (Proc.devRef .tc main_v75)) = RefTerm.mean (V (main_v72 : DevRef τ sig)) := by
  simp only [opsSt3]
  after_results_simp
  rfl

theorem opsSt3_v76 (V : Valuation τ sig (Elt F)) :
    after opsSt3 V (no_index (Proc.devRef .tc main_v76)) = RefTerm.var (V (main_v72 : DevRef τ sig)) := by
  simp only [opsSt3]
  after_results_simp
  rfl

theorem opsNm3_v91 (V : Valuation τ sig (Elt F)) :
    after opsNm3 V (no_index (Proc.devRef .tc main_v91)) = bnOf (V (main_arg15 : DevRef τ sig)) (V (main_arg16 : DevRef τ sig)) (V (main_v72 : DevRef τ sig)) (V (main_v75 : DevRef τ sig)) (V (main_v76 : DevRef τ sig)) := by
  simp only [opsNm3]
  after_results_simp
  rfl

/-! ## The whole line -/

/-- The result buffer after the whole line, from any contents: the eleven equations threaded, an
    argument or an earlier stretch's value passed through the stretches that do not write it. -/
theorem out_eq (V : Valuation τ sig (Elt F)) :
    after ops V (main_v91 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig))
          (V (main_arg6 : DevRef τ sig)) (V (main_arg7 : DevRef τ sig)) (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig)) (V (main_arg16 : DevRef τ sig)) := by
  simp (disch := decide) only [ops, ops0, ops1, after_app, opsAgg_v11, opsIdx_v18, opsLin_v24, opsSt1_v27, opsSt1_v28, opsNm1_v43, opsLy1_v48, opsLy1_cst_8, opsSt2_v51, opsSt2_v52, opsNm2_v67, opsLy2_v72, opsSt3_v75, opsSt3_v76, opsNm3_v91,
    opsAgg_keep, opsIdx_keep, opsLin_keep, opsSt1_keep, opsNm1_keep, opsLy1_keep, opsSt2_keep, opsNm2_keep, opsLy2_keep, opsSt3_keep, opsNm3_keep,
    linOf_eq, meanFrom_zero, bnOf_eq]
  rfl

/-! No stretch writes an argument. -/

theorem arg0_eq (V : Valuation τ sig (Elt F)) :
    after ops V (main_arg0 : DevRef τ sig) = V (main_arg0 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg1_eq (V : Valuation τ sig (Elt F)) :
    after ops V (main_arg1 : DevRef τ sig) = V (main_arg1 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg2_eq (V : Valuation τ sig (Elt F)) :
    after ops V (main_arg2 : DevRef τ sig) = V (main_arg2 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg3_eq (V : Valuation τ sig (Elt F)) :
    after ops V (main_arg3 : DevRef τ sig) = V (main_arg3 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg4_eq (V : Valuation τ sig (Elt F)) :
    after ops V (main_arg4 : DevRef τ sig) = V (main_arg4 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg5_eq (V : Valuation τ sig (Elt F)) :
    after ops V (main_arg5 : DevRef τ sig) = V (main_arg5 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg6_eq (V : Valuation τ sig (Elt F)) :
    after ops V (main_arg6 : DevRef τ sig) = V (main_arg6 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg7_eq (V : Valuation τ sig (Elt F)) :
    after ops V (main_arg7 : DevRef τ sig) = V (main_arg7 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg8_eq (V : Valuation τ sig (Elt F)) :
    after ops V (main_arg8 : DevRef τ sig) = V (main_arg8 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg9_eq (V : Valuation τ sig (Elt F)) :
    after ops V (main_arg9 : DevRef τ sig) = V (main_arg9 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg10_eq (V : Valuation τ sig (Elt F)) :
    after ops V (main_arg10 : DevRef τ sig) = V (main_arg10 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg11_eq (V : Valuation τ sig (Elt F)) :
    after ops V (main_arg11 : DevRef τ sig) = V (main_arg11 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg12_eq (V : Valuation τ sig (Elt F)) :
    after ops V (main_arg12 : DevRef τ sig) = V (main_arg12 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg13_eq (V : Valuation τ sig (Elt F)) :
    after ops V (main_arg13 : DevRef τ sig) = V (main_arg13 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg14_eq (V : Valuation τ sig (Elt F)) :
    after ops V (main_arg14 : DevRef τ sig) = V (main_arg14 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg15_eq (V : Valuation τ sig (Elt F)) :
    after ops V (main_arg15 : DevRef τ sig) = V (main_arg15 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem arg16_eq (V : Valuation τ sig (Elt F)) :
    after ops V (main_arg16 : DevRef τ sig) = V (main_arg16 : DevRef τ sig) := by
  simp (disch := decide) only [ops, ops0, ops1, after_app, opsAgg_keep, opsIdx_keep, opsLin_keep, opsSt1_keep, opsNm1_keep, opsLy1_keep, opsSt2_keep, opsNm2_keep, opsLy2_keep, opsSt3_keep, opsNm3_keep]

theorem ops_sub : (ops : List (HloOp τ sig (Elt F))).Forall fun op => op.bufs ⊆ tcRefs τ sig :=
  List.forall_iff_forall_mem.mpr fun op h => by
    simp only [ops, ops0, ops1, List.mem_append] at h
    rcases h with (((((h | h) | h) | h) | h) | h) | ((((h | h) | h) | h) | h)
    exacts [List.forall_iff_forall_mem.mp opsAgg_sub op h,
      List.forall_iff_forall_mem.mp opsIdx_sub op h,
      List.forall_iff_forall_mem.mp opsLin_sub op h,
      List.forall_iff_forall_mem.mp opsSt1_sub op h,
      List.forall_iff_forall_mem.mp opsNm1_sub op h,
      List.forall_iff_forall_mem.mp opsLy1_sub op h,
      List.forall_iff_forall_mem.mp opsSt2_sub op h,
      List.forall_iff_forall_mem.mp opsNm2_sub op h,
      List.forall_iff_forall_mem.mp opsLy2_sub op h,
      List.forall_iff_forall_mem.mp opsSt3_sub op h,
      List.forall_iff_forall_mem.mp opsNm3_sub op h]

theorem ops_fresh : ∀ op ∈ (ops : List (HloOp τ sig (Elt F))), op.fresh = ∅ := fun op h => by
  simp only [ops, ops0, ops1, List.mem_append] at h
  rcases h with (((((h | h) | h) | h) | h) | h) | ((((h | h) | h) | h) | h)
  exacts [opsAgg_fresh op h, opsIdx_fresh op h, opsLin_fresh op h, opsSt1_fresh op h, opsNm1_fresh op h, opsLy1_fresh op h, opsSt2_fresh op h, opsNm2_fresh op h, opsLy2_fresh op h, opsSt3_fresh op h, opsNm3_fresh op h]

/-- At the compiled mesh, for any float values, from any memory with zero counters: every weakly
    fair execution of the program terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- On every device, for any float values, from any memory with zero counters: every weakly fair
    execution of the program terminates with the result buffer at `RefTerm.out` of the arguments'
    launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v91).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c))⟩)
    (run_main m ρ)

end Cert.ReferenceIdeal.RefRun

end
-- ==== Proof.RefRead.lean ====
/-
  The reference's result read at an index.

  Each stretch of the reference's host operations is a pure function of the arrays it reads; read at one index, it
  is the corresponding table of the node model: a broadcast reads the one element it copies, a sum over the node
  axis is the sum over all rows, the quotient, maximum and reciprocal root are the extended reals' own, a contraction
  is the sum of the products over its one contracted coordinate, the concatenation reads the block the column falls
  in, the scatter-adds are the sums over the edges sent to a node, and the gather reads the table row a node's graph
  index names.  Composed, the result at node n and feature j is everything after layer 0 applied to layer 0's output.
-/
import proofs.«426057_j62689342653098_3_alg».proof.Proof.RefTerm
import proofs.«426057_j62689342653098_3_alg».proof.Proof.Views
import proofs.«426057_j62689342653098_3_alg».proof.Proof.LibRowOps
import proofs.«426057_j62689342653098_3_alg».proof.Proof.Gen.ReferenceIdeal
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

noncomputable section

namespace Cert.ReferenceIdeal.RefRead

open Cert.ReferenceIdeal Cert.ReferenceIdeal.RefTerm Idealize.ShloMosaic Idealize.ShloMosaic.ValueIdx Cert.Spec

variable [Facts]
open Facts₀ Facts

/-! ## Broadcasts, the clamp at zero, and the sum over the node axis -/

/-- A feature vector repeated on every node row reads, at (n, j), the vector at j. -/
theorem rowB_apply (v : FVec Ideal S128 .f32) (n : Fin 100000) (j : Fin 128) :
    rowB (F := Ideal) v (ix2 n j) = v (ix1 j) := by
  unfold rowB
  refine (broadcastInDim_apply _ _ _ (ix2 n j) (ix2 (0 : Fin 1) j) (fun a => ?_)).trans ?_
  · match a with
    | ⟨0, _⟩ => rfl
    | ⟨1, _⟩ => rfl
  · exact broadcastInDim_apply _ _ _ (ix2 (0 : Fin 1) j) (ix1 j) (fun a => match a with | ⟨0, _⟩ => rfl)

/-- The positive part at an index is the maximum with the zero word. -/
theorem relu_apply (z : FVec Ideal S100000x128 .f32) (i : S100000x128.Idx) :
    relu (F := Ideal) z i = max (z i) cZero := rfl

/-- The sum over the node axis at feature j is the sum of column j over all rows (the zero initial value dropped). -/
theorem colsum_apply (h : FVec Ideal S100000x128 .f32) (j : Fin 128) :
    colsum (F := Ideal) h (ix1 j) = ∑ n : Fin 100000, h (ix2 n j) := by
  unfold colsum
  rw [hostReduceAdd_apply, Ideal.hostReduceAdd_single reducesTo_S100000x128_S128_d0 (by decide)]
  show cZero + ∑ k : Fin 100000, h _ = _
  rw [cZero_eq, zero_add]
  refine Finset.sum_congr rfl fun k _ => ?_
  exact congrArg h (funext fun a => Fin.ext (by match a with | ⟨0, _⟩ => rfl | ⟨1, _⟩ => rfl))

/-- The mean over the node axis is the model's mean of the table. -/
theorem mean_apply (h : FVec Ideal S100000x128 .f32) (j : Fin 128) :
    RefTerm.mean (F := Ideal) h (ix1 j) = Spec.mean (tab h) j := by
  unfold RefTerm.mean
  rw [hostDivf_apply, colsum_apply, broadcastInDim_scalar_apply]
  rfl
/-! ## The variance and the normalisation -/

/-- The deviation from the mean, the mean taken through a unit leading axis, is the deviation from the model's mean. -/
theorem dev_apply (h : FVec Ideal S100000x128 .f32) (n : Fin 100000) (j : Fin 128) :
    dev (F := Ideal) h (ix2 n j) = h (ix2 n j) - Spec.mean (tab h) j := by
  unfold dev
  rw [subf_apply]
  refine congrArg (h (ix2 n j) - ·) ?_
  refine (broadcastInDim_apply _ _ _ (ix2 n j) (ix2 (0 : Fin 1) j) (fun a => ?_)).trans ?_
  · match a with
    | ⟨0, _⟩ => rfl
    | ⟨1, _⟩ => rfl
  · rw [hostDivf_apply, broadcastInDim_scalar_apply,
      broadcastInDim_apply _ _ _ (ix2 (0 : Fin 1) j) (ix1 j) (fun a => match a with | ⟨0, _⟩ => rfl), colsum_apply]
    rfl

/-- The variance's divisor is the row count: the count less the real zero. -/
theorem dof_eq : dof (F := Ideal) ix0 = cN := by
  unfold dof
  rw [subf_apply, sitofp_apply]
  show cN - (((0#32 : BitVec 32).toInt : ℝ) : EReal) = cN
  simp

/-- The divisor is positive, so the comparison's bit is set. -/
theorem dof_pos_bit : cmpf .ogt (dof (F := Ideal)) (constant S_ .f32 0x00000000#32) ix0 = 1#1 := by
  rw [cmpf_apply, dof_eq]
  show Ideal.cmp .ogt cN cZero = 1#1
  rw [cN_eq, cZero_eq]
  simp [Ideal.cmp]

/-- The variance over the node axis is the model's mean of squared deviations. -/
theorem var_apply (h : FVec Ideal S100000x128 .f32) (j : Fin 128) :
    RefTerm.var (F := Ideal) h (ix1 j) = Spec.varR (tab h) j := by
  unfold RefTerm.var
  rw [select_apply, broadcastInDim_scalar_apply, dof_pos_bit, select_one, hostDivf_apply, colsum_apply,
    broadcastInDim_scalar_apply, dof_eq]
  simp only [mulf_apply, dev_apply]
  rfl

/-- THE NORMALISATION: batch normalisation over the node axis is the model's, with the model's mean and the reciprocal
    root of the model's variance plus the offset. -/
theorem bn_apply (g be : FVec Ideal S128 .f32) (h : FVec Ideal S100000x128 .f32) (n : Fin 100000) (j : Fin 128) :
    RefTerm.bn (F := Ideal) g be h (ix2 n j)
      = Spec.bn (row g) (row be) (Spec.mean (tab h)) (Spec.istd (Spec.varR (tab h))) (tab h) n j := by
  unfold RefTerm.bn
  simp only [addf_apply, mulf_apply, subf_apply, rowB_apply, mean_apply]
  show g (ix1 j) * (h (ix2 n j) - Spec.mean (tab h) j)
      * Ideal.rsqrt (RefTerm.var (F := Ideal) h (ix1 j) + cEps) + be (ix1 j) = _
  rw [var_apply]
  rfl
/-! ## The contractions

Per operand axis the coordinate a contraction reads: the result's row on the left operand's free axis, the result's
column on the right operand's, the contracted coordinate on the other two. -/

theorem lhs_dotSq_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem lhs_dotSq_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_dotSq_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_dotSq_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The contraction read at (n, j): the sum over its one contracted coordinate of the products. -/
theorem dotSq_apply (a : FVec Ideal S100000x128 .f32) (W : FVec Ideal S128x128 .f32) (n : Fin 100000) (j : Fin 128) :
    Host.dotGeneral (F := Ideal) dot_S100000x128_S128x128_S100000x128_1_0_0_1_n_n none a W (ix2 n j)
      = ∑ k : Fin 128, a (ix2 n k) * W (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n j) ((contrEquiv1 dot_S100000x128_S128x128_S100000x128_1_0_0_1_n_n 128 rfl rfl).symm k) = ix2 n k :=
    funext fun a => Fin.ext (by
      match a with
      | ⟨0, _⟩ => exact lhs_dotSq_0 _ _
      | ⟨1, _⟩ => exact (lhs_dotSq_1 _ _).trans hk)
  have er : dot_S100000x128_S128x128_S100000x128_1_0_0_1_n_n.rhsIdx (ix2 n j) ((contrEquiv1 dot_S100000x128_S128x128_S100000x128_1_0_0_1_n_n 128 rfl rfl).symm k) = ix2 k j :=
    funext fun a => Fin.ext (by
      match a with
      | ⟨0, _⟩ => exact (rhs_dotSq_0 _ _).trans hk
      | ⟨1, _⟩ => exact rhs_dotSq_1 _ _)
  rw [el, er]

theorem lhs_dotIn_0 (i : S100000x128.Idx) (q : dot_S100000x384_S384x128_S100000x128_1_0_0_1_n_n.contr.Idx) :
    (dot_S100000x384_S384x128_S100000x128_1_0_0_1_n_n.lhsIdx i q 0).val = (i 0).val := by
  unfold DotDims.lhsIdx
  rw [dif_neg (show ¬(0 : Fin S100000x384.rank) ∈ dot_S100000x384_S384x128_S100000x128_1_0_0_1_n_n.lhsBatch by decide),
    dif_pos (show (0 : Fin S100000x384.rank) ∈ dot_S100000x384_S384x128_S100000x128_1_0_0_1_n_n.lhsNonContracting by decide)]
  rfl
theorem lhs_dotIn_1 (i : S100000x128.Idx) (q : dot_S100000x384_S384x128_S100000x128_1_0_0_1_n_n.contr.Idx) :
    (dot_S100000x384_S384x128_S100000x128_1_0_0_1_n_n.lhsIdx i q 1).val = (q ⟨0, by decide⟩).val :=
  dot_S100000x384_S384x128_S100000x128_1_0_0_1_n_n.lhsIdx_val_of_single rfl i q
theorem rhs_dotIn_0 (i : S100000x128.Idx) (q : dot_S100000x384_S384x128_S100000x128_1_0_0_1_n_n.contr.Idx) :
    (dot_S100000x384_S384x128_S100000x128_1_0_0_1_n_n.rhsIdx i q 0).val = (q ⟨0, by decide⟩).val :=
  dot_S100000x384_S384x128_S100000x128_1_0_0_1_n_n.rhsIdx_val_of_single rfl i q
theorem rhs_dotIn_1 (i : S100000x128.Idx) (q : dot_S100000x384_S384x128_S100000x128_1_0_0_1_n_n.contr.Idx) :
    (dot_S100000x384_S384x128_S100000x128_1_0_0_1_n_n.rhsIdx i q 1).val = (i 1).val := by
  unfold DotDims.rhsIdx
  rw [dif_neg (show ¬(1 : Fin S384x128.rank) ∈ dot_S100000x384_S384x128_S100000x128_1_0_0_1_n_n.rhsBatch by decide),
    dif_pos (show (1 : Fin S384x128.rank) ∈ dot_S100000x384_S384x128_S100000x128_1_0_0_1_n_n.rhsNonContracting by decide)]
  rfl

/-- The contraction read at (n, j): the sum over its one contracted coordinate of the products. -/
theorem dotIn_apply (a : FVec Ideal S100000x384 .f32) (W : FVec Ideal S384x128 .f32) (n : Fin 100000) (j : Fin 128) :
    Host.dotGeneral (F := Ideal) dot_S100000x384_S384x128_S100000x128_1_0_0_1_n_n none a W (ix2 n j)
      = ∑ k : Fin 384, a (ix2 n k) * W (ix2 k j) := by
  simp only [Host.dotGeneral]
  rw [Ideal.dotGeneral_apply, ← Equiv.sum_comp (contrEquiv1 dot_S100000x384_S384x128_S100000x128_1_0_0_1_n_n 384 rfl rfl).symm]
  refine Finset.sum_congr rfl fun k _ => ?_
  have hk := contrEquiv1_symm_val dot_S100000x384_S384x128_S100000x128_1_0_0_1_n_n 384 rfl rfl k
  have el : dot_S100000x384_S384x128_S100000x128_1_0_0_1_n_n.lhsIdx (ix2 n j) ((contrEquiv1 dot_S100000x384_S384x128_S100000x128_1_0_0_1_n_n 384 rfl rfl).symm k) = ix2 n k :=
    funext fun a => Fin.ext (by
      match a with
      | ⟨0, _⟩ => exact lhs_dotIn_0 _ _
      | ⟨1, _⟩ => exact (lhs_dotIn_1 _ _).trans hk)
  have er : dot_S100000x384_S384x128_S100000x128_1_0_0_1_n_n.rhsIdx (ix2 n j) ((contrEquiv1 dot_S100000x384_S384x128_S100000x128_1_0_0_1_n_n 384 rfl rfl).symm k) = ix2 k j :=
    funext fun a => Fin.ext (by
      match a with
      | ⟨0, _⟩ => exact (rhs_dotIn_0 _ _).trans hk
      | ⟨1, _⟩ => exact rhs_dotIn_1 _ _)
  rw [el, er]

/-- A square layer with its activation is the model's layer. -/
theorem lay_apply (W : FVec Ideal S128x128 .f32) (b : FVec Ideal S128 .f32) (a : FVec Ideal S100000x128 .f32)
    (n : Fin 100000) (j : Fin 128) :
    RefTerm.lay (F := Ideal) W b a (ix2 n j) = Spec.lay (tab W) (row b) (tab a) n j := by
  unfold RefTerm.lay
  rw [relu_apply, addf_apply, dotSq_apply, rowB_apply]
  rfl
/-! ## The edge aggregation -/

/-- The edges' target nodes as a column read, at edge e, row 0 of the edge index at e. -/
theorem src_apply (a1 : IVec S2x640000 32) (e : Fin 640000) :
    src a1 (ix2 e (0 : Fin 1)) = a1 (ix2 (0 : Fin 2) e) := by
  unfold src
  refine (broadcastInDim_apply _ _ _ (ix2 e (0 : Fin 1)) (ix1 e) (fun a => match a with | ⟨0, _⟩ => rfl)).trans ?_
  rw [shapeCast_1a_a_apply]
  exact slice2_axis0_apply 0 a1 _ (0 : Fin 1) e (0 : Fin 2) rfl

/-- At the extended reals the host's accumulating scatter is the exact one. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The two scatters' dimension numbers are those of a row scatter: one destination word per update row. -/
theorem scatterRows_eq : scatter_S100000x128_S640000x1_S640000x128_1_0_0_1 = RowOps.rowScatter 100000 640000 128 scatter_S100000x128_S640000x1_S640000x128_1_0_0_1_wf := rfl
theorem scatterOnes_eq : scatter_S100000x1_S640000x1_S640000x1_1_0_0_1 = RowOps.rowScatter 100000 640000 1 scatter_S100000x1_S640000x1_S640000x1_1_0_0_1_wf := rfl

/-- The scatter-add of the edge rows is the model's sum over the edges sent to a node, on top of the zero word. -/
theorem sums_apply (a1 : IVec S2x640000 32) (a2 : FVec Ideal S640000x128 .f32) (n : Fin 100000) (k : Fin 128) :
    sums (F := Ideal) a1 a2 (ix2 n k) = segsum (dstOf a1) (tab a2) n k := by
  unfold sums
  rw [hostScatterAdd_eq, scatterRows_eq, RowOps.rowScatterAdd_apply]
  unfold segsum
  refine congrArg₂ (· + ·) rfl (Finset.sum_congr (Finset.filter_congr fun e _ => ?_) fun e _ => rfl)
  rw [src_apply]
  rfl

/-- The scatter-add of ones counts the edges sent to a node, on top of the zero word. -/
theorem cntRaw_apply (a1 : IVec S2x640000 32) (n : Fin 100000) :
    cntRaw (F := Ideal) a1 (ix2 n (0 : Fin 1))
      = cZero + ∑ _e ∈ Finset.univ.filter (fun e : Fin 640000 => dstOf a1 e = (n.val : ℤ)), cOne := by
  unfold cntRaw
  rw [hostScatterAdd_eq, scatterOnes_eq, RowOps.rowScatterAdd_apply]
  refine congrArg₂ (· + ·) rfl (Finset.sum_congr (Finset.filter_congr fun e _ => ?_) fun e _ => rfl)
  rw [src_apply]
  rfl

/-- The count clipped below at one is the model's count. -/
theorem cntClip_apply (a1 : IVec S2x640000 32) (n : Fin 100000) :
    cntClip (F := Ideal) a1 (ix2 n (0 : Fin 1)) = cnt (dstOf a1) n := by
  unfold cntClip
  rw [maximumf_apply, cntRaw_apply]
  rfl

/-- The count repeated along the features reads, at (n, k), the count of node n. -/
theorem cntClip_bcast_apply (a1 : IVec S2x640000 32) (n : Fin 100000) (k : Fin 128) :
    broadcastInDim S100000x128 ![0, 1] bcast_S100000x1_S100000x128_0_1 (cntClip (F := Ideal) a1) (ix2 n k)
      = cnt (dstOf a1) n := by
  refine (broadcastInDim_apply _ _ _ (ix2 n k) (ix2 n (0 : Fin 1)) (fun a => ?_)).trans (cntClip_apply a1 n)
  match a with
  | ⟨0, _⟩ => rfl
  | ⟨1, _⟩ => rfl

/-- The mean of the incoming edges' rows: the sum divided by the count. -/
theorem ve_apply (a1 : IVec S2x640000 32) (a2 : FVec Ideal S640000x128 .f32) (n : Fin 100000) (k : Fin 128) :
    ve (F := Ideal) a1 a2 (ix2 n k) = Ideal.div (segsum (dstOf a1) (tab a2) n k) (cnt (dstOf a1) n) := by
  unfold ve
  rw [hostDivf_apply, sums_apply, cntClip_bcast_apply]

/-! ## The graph row -/

/-- A graph index that is not negative is left alone by the wrap. -/
theorem bidx_apply (a4 : IVec S100000 32) (n : Fin 100000) (h : 0 ≤ (a4 (ix1 n)).toInt) :
    bidx a4 (ix2 n (0 : Fin 1)) = a4 (ix1 n) := by
  unfold bidx
  refine (broadcastInDim_apply _ _ _ (ix2 n (0 : Fin 1)) (ix1 n) (fun a => match a with | ⟨0, _⟩ => rfl)).trans ?_
  have hlt : (a4 (ix1 n)).slt 0#32 = false := by
    simp only [BitVec.slt, BitVec.toInt_zero, decide_eq_false_iff_not, Int.not_lt]
    exact h
  show (if BitVec.ofBool ((a4 (ix1 n)).slt 0#32) = 1 then _ else _) = _
  rw [hlt]
  rfl

/-- The gather's dimension numbers are those of a row gather: one start word per result row. -/
theorem gatherRows_eq : gather_S512x128_S100000x1_S100000x128_1_0_n_n_0_1_1128 = RowOps.rowGather 512 100000 128 gather_S512x128_S100000x1_S100000x128_1_0_n_n_0_1_1128_wf := rfl

/-- With every graph index in range the gather reads the table row the index names: neither the wrap nor the clamp moves it. -/
theorem ug_apply (a3 : FVec Ideal S512x128 .f32) (a4 : IVec S100000 32) (bt : Fin 100000 → Fin 512)
    (hbt : ∀ n : Fin 100000, (a4 (ix1 n)).toInt = ((bt n).val : ℤ)) (n : Fin 100000) (k : Fin 128) :
    ug (F := Ideal) a3 a4 (ix2 n k) = a3 (ix2 (bt n) k) := by
  unfold ug
  rw [gatherRows_eq, RowOps.rowGather_apply (by decide : 0 < 512)]
  refine congrArg (fun r => a3 (ix2 r k)) (Fin.ext ?_)
  show min (bidx a4 (ix2 n (0 : Fin 1))).toInt.toNat (512 - 1) = (bt n).val
  rw [bidx_apply a4 n (by rw [hbt]; omega), hbt, Int.toNat_natCast]
  have := (bt n).isLt
  omega
/-! ## Layer 0 -/

/-- Three tables concatenated along the features read, at (n, k), the block the column k falls in. -/
theorem concat3_apply (x v u : FVec Ideal S100000x128 .f32) (n : Fin 100000) (k : Fin 384) :
    concatenate S100000x384 1 [⟨S100000x128, x⟩, ⟨S100000x128, v⟩, ⟨S100000x128, u⟩] concatenates_S100000x128_S100000x128_S100000x128_S100000x384_d1 (ix2 n k)
      = cat3 (tab x) (tab v) (tab u) n k := by
  unfold cat3
  by_cases h1 : k.val < 128
  · rw [dif_pos h1]
    exact concatenate_apply_piece 1 _ _ (ix2 n k) 0 (by show 0 < 3; omega) S100000x128 x rfl rfl 0 rfl (ix2 n ⟨k.val, h1⟩)
      (fun b hb => by
        match b with
        | ⟨0, _⟩ => rfl
        | ⟨1, _⟩ => exact absurd (Fin.ext rfl) hb)
      (Nat.zero_add _)
  · rw [dif_neg h1]
    by_cases h2 : k.val < 256
    · rw [dif_pos h2]
      exact concatenate_apply_piece 1 _ _ (ix2 n k) 1 (by show 1 < 3; omega) S100000x128 v rfl rfl 128 rfl
        (ix2 n ⟨k.val - 128, by omega⟩)
        (fun b hb => by
          match b with
          | ⟨0, _⟩ => rfl
          | ⟨1, _⟩ => exact absurd (Fin.ext rfl) hb)
        (by show 128 + (k.val - 128) = k.val; omega)
    · rw [dif_neg h2]
      have hk := k.isLt
      exact concatenate_apply_piece 1 _ _ (ix2 n k) 2 (by show 2 < 3; omega) S100000x128 u rfl rfl 256 rfl
        (ix2 n ⟨k.val - 256, by omega⟩)
        (fun b hb => by
          match b with
          | ⟨0, _⟩ => rfl
          | ⟨1, _⟩ => exact absurd (Fin.ext rfl) hb)
        (by show 256 + (k.val - 256) = k.val; omega)

/-- The first layer's input is the model's three blocks side by side. -/
theorem comb_apply (a0 : FVec Ideal S100000x128 .f32) (a1 : IVec S2x640000 32) (a2 : FVec Ideal S640000x128 .f32)
    (a3 : FVec Ideal S512x128 .f32) (a4 : IVec S100000 32) (n : Fin 100000) (k : Fin 384) :
    comb (F := Ideal) a0 a1 a2 a3 a4 (ix2 n k)
      = cat3 (tab a0) (tab (ve (F := Ideal) a1 a2)) (tab (ug (F := Ideal) a3 a4)) n k := by
  unfold comb
  exact concat3_apply a0 _ _ n k

/-- The first layer before its activation is the model's one 384-term contraction plus the bias. -/
theorem lin0_apply (a0 : FVec Ideal S100000x128 .f32) (a1 : IVec S2x640000 32) (a2 : FVec Ideal S640000x128 .f32)
    (a3 : FVec Ideal S512x128 .f32) (a4 : IVec S100000 32) (a5 : FVec Ideal S384x128 .f32) (a6 : FVec Ideal S128 .f32)
    (n : Fin 100000) (j : Fin 128) :
    lin0 (F := Ideal) a0 a1 a2 a3 a4 a5 a6 (ix2 n j)
      = z0R (cat3 (tab a0) (tab (ve (F := Ideal) a1 a2)) (tab (ug (F := Ideal) a3 a4))) (tab a5) (row a6) n j := by
  unfold lin0
  rw [addf_apply, dotIn_apply, rowB_apply]
  unfold z0R
  refine congrArg₂ (· + ·) (Finset.sum_congr rfl fun k _ => ?_) rfl
  rw [comb_apply]
  rfl

/-! ## The stages as tables, and the result -/

theorem tab_ve (a1 : IVec S2x640000 32) (a2 : FVec Ideal S640000x128 .f32) :
    tab (ve (F := Ideal) a1 a2) = fun n k => Ideal.div (segsum (dstOf a1) (tab a2) n k) (cnt (dstOf a1) n) :=
  funext fun n => funext fun k => ve_apply a1 a2 n k

theorem tab_ug (a3 : FVec Ideal S512x128 .f32) (a4 : IVec S100000 32) (bt : Fin 100000 → Fin 512)
    (hbt : ∀ n : Fin 100000, (a4 (ix1 n)).toInt = ((bt n).val : ℤ)) :
    tab (ug (F := Ideal) a3 a4) = fun n k => tab a3 (bt n) k :=
  funext fun n => funext fun k => ug_apply a3 a4 bt hbt n k

theorem tab_bn (g be : FVec Ideal S128 .f32) (h : FVec Ideal S100000x128 .f32) :
    tab (RefTerm.bn (F := Ideal) g be h)
      = Spec.bn (row g) (row be) (Spec.mean (tab h)) (Spec.istd (Spec.varR (tab h))) (tab h) :=
  funext fun n => funext fun j => bn_apply g be h n j

theorem tab_lay (W : FVec Ideal S128x128 .f32) (b : FVec Ideal S128 .f32) (a : FVec Ideal S100000x128 .f32) :
    tab (RefTerm.lay (F := Ideal) W b a) = Spec.lay (tab W) (row b) (tab a) :=
  funext fun n => funext fun j => lay_apply W b a n j

/-- Layer 0 after its activation, as a table: the clamp at zero of the model's layer 0 over the node features, the
    edge mean and the graph row each node's index names. -/
theorem tab_h0 (a0 : FVec Ideal S100000x128 .f32) (a1 : IVec S2x640000 32) (a2 : FVec Ideal S640000x128 .f32)
    (a3 : FVec Ideal S512x128 .f32) (a4 : IVec S100000 32) (a5 : FVec Ideal S384x128 .f32) (a6 : FVec Ideal S128 .f32)
    (bt : Fin 100000 → Fin 512) (hbt : ∀ n : Fin 100000, (a4 (ix1 n)).toInt = ((bt n).val : ℤ)) :
    tab (relu (F := Ideal) (lin0 (F := Ideal) a0 a1 a2 a3 a4 a5 a6))
      = fun n j => max (z0R (cat3 (tab a0)
          (fun n k => Ideal.div (segsum (dstOf a1) (tab a2) n k) (cnt (dstOf a1) n))
          (fun n k => tab a3 (bt n) k)) (tab a5) (row a6) n j) cZero := by
  funext n j
  refine (relu_apply _ (ix2 n j)).trans ?_
  rw [lin0_apply, tab_ve, tab_ug a3 a4 bt hbt]

/-- THE REFERENCE'S RESULT READ AT (n, j): everything after layer 0, under the mean-of-squared-deviations variance,
    applied to layer 0's output. -/
theorem out_apply (a0 : FVec Ideal S100000x128 .f32) (a1 : IVec S2x640000 32) (a2 : FVec Ideal S640000x128 .f32)
    (a3 : FVec Ideal S512x128 .f32) (a4 : IVec S100000 32) (a5 : FVec Ideal S384x128 .f32) (a6 : FVec Ideal S128 .f32)
    (a7 : FVec Ideal S128x128 .f32) (a8 : FVec Ideal S128 .f32) (a9 : FVec Ideal S128x128 .f32)
    (a10 a11 a12 a13 a14 a15 a16 : FVec Ideal S128 .f32)
    (bt : Fin 100000 → Fin 512) (hbt : ∀ n : Fin 100000, (a4 (ix1 n)).toInt = ((bt n).val : ℤ))
    (n : Fin 100000) (j : Fin 128) :
    RefTerm.out (F := Ideal) a0 a1 a2 a3 a4 a5 a6 a7 a8 a9 a10 a11 a12 a13 a14 a15 a16 (ix2 n j)
      = tail varR ⟨row a11, row a12, tab a7, row a8, row a13, row a14, tab a9, row a10, row a15, row a16⟩
          (fun n j => max (z0R (cat3 (tab a0)
            (fun n k => Ideal.div (segsum (dstOf a1) (tab a2) n k) (cnt (dstOf a1) n))
            (fun n k => tab a3 (bt n) k)) (tab a5) (row a6) n j) cZero) n j := by
  unfold RefTerm.out
  rw [bn_apply, tab_lay, tab_bn, tab_lay, tab_bn, tab_h0 a0 a1 a2 a3 a4 a5 a6 bt hbt]
  rfl

end Cert.ReferenceIdeal.RefRead

end
-- ==== Proof.PreDecode.lean ====
/-
  The precondition read back.  The printed predicate is a conjunction, over the fifteen real-valued inputs, of
  "every entry's absolute value is below +∞", and of "every batch index is at least 0" and "every batch index is
  below 512".  A conjunction of one-bit words that is 1 has every conjunct 1; a reduction by "and" over all axes that
  is 1 had a 1 at every index; an extended real whose absolute value is below +∞ is a real number; and a signed
  comparison that is 1 orders the two words' signed values.
-/
import proofs.«426057_j62689342653098_3_alg».proof.Pre_finite_inputs
import proofs.«426057_j62689342653098_3_alg».proof.Proof.Gen.Pre_finite_inputs
import proofs.«426057_j62689342653098_3_alg».proof.Proof.Views
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The rank-0 shape has one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- "Every entry's absolute value is below +∞", reduced by "and" over all axes to 1: every entry is real. -/
theorem all_real {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi (cmpf .olt (Host.absf a) (broadcastInDim s ![] hb (constant S_ .f32 0x7F800000#32)))
      (constantI S_ 1 1#1) hr h0 ix0 = 1#1) (i : s.Idx) : ∃ r : ℝ, a i = (r : EReal) := by
  have h := Host.reduce_andi_all _ _ hr h0 ix0 e i
  rw [ValueIdx.cmpf_apply, StableHlo.Predicate.bcast_scalar hb h0] at h
  exact real_of_abs_lt _ h

/-- A word whose signed value is in [0, 512) reads the same unsigned, and is below 512. -/
theorem toNat_lt (w : BitVec 32) (h0 : 0 ≤ w.toInt) (h1 : w.toInt < 512) : w.toNat < 512 ∧ w.toInt = (w.toNat : ℤ) := by
  have h32 := w.isLt
  unfold BitVec.toInt at h0 h1 ⊢
  split at h1 <;> simp at h0 h1 ⊢ <;> omega

/-- "Every batch index is at least 0" and "every batch index is below 512", each reduced by "and" to 1: every
    index's signed value is in [0, 512). -/
theorem all_range (a : IVec S100000 32) (hb : S_.BroadcastsInDim S100000 (![] : Fin 0 → Fin S100000.rank))
    (hr : S100000.ReducesTo [0] S_) (h0 : 0 < S_.numel)
    (ege : Host.reduce IntOp.andi (cmpi .sge a (broadcastInDim S100000 ![] hb (constantI S_ 32 0#32)))
      (constantI S_ 1 1#1) hr h0 ix0 = 1#1)
    (elt : Host.reduce IntOp.andi (cmpi .slt a (broadcastInDim S100000 ![] hb (constantI S_ 32 512#32)))
      (constantI S_ 1 1#1) hr h0 ix0 = 1#1) (n : Fin 100000) :
    0 ≤ (a (ix1 n)).toInt ∧ (a (ix1 n)).toInt < 512 := by
  have hge := Host.reduce_andi_all _ _ hr h0 ix0 ege (ix1 n)
  have hlt := Host.reduce_andi_all _ _ hr h0 ix0 elt (ix1 n)
  have hge' : IntOp.cmpi .sge (a (ix1 n)) (broadcastInDim S100000 ![] hb (constantI S_ 32 0#32) (ix1 n)) = 1#1 := hge
  have hlt' : IntOp.cmpi .slt (a (ix1 n)) (broadcastInDim S100000 ![] hb (constantI S_ 32 512#32) (ix1 n)) = 1#1 := hlt
  rw [StableHlo.Predicate.bcast_scalar hb h0, IntOp.cmpi_sge] at hge'
  rw [StableHlo.Predicate.bcast_scalar hb h0, IntOp.cmpi_slt] at hlt'
  exact ⟨hge', hlt'⟩

/-- The precondition decoded: every real-valued input has real entries, and every batch index is in [0, 512). -/
theorem of_pre (a0 : FVec Ideal S100000x128 .f32) (a1 : IVec S2x640000 32) (a2 : FVec Ideal S640000x128 .f32) (a3 : FVec Ideal S512x128 .f32) (a4 : IVec S100000 32) (a5 : FVec Ideal S384x128 .f32) (a6 : FVec Ideal S128 .f32) (a7 : FVec Ideal S128x128 .f32) (a8 : FVec Ideal S128 .f32) (a9 : FVec Ideal S128x128 .f32) (a10 a11 a12 a13 a14 a15 a16 : FVec Ideal S128 .f32)
    (h : Cert.Pre_finite_inputs.fn (F := Ideal) a0 a1 a2 a3 a4 a5 a6 a7 a8 a9 a10 a11 a12 a13 a14 a15 a16 = (fun _ => 1#1)) :
    Cert.Spec.Fin2 (Cert.Spec.tab a0) ∧ Cert.Spec.Fin2 (Cert.Spec.tab a2) ∧ Cert.Spec.Fin2 (Cert.Spec.tab a3) ∧ Cert.Spec.Fin2 (Cert.Spec.tab a5) ∧ Cert.Spec.Fin1 (Cert.Spec.row a6) ∧ Cert.Spec.Fin2 (Cert.Spec.tab a7) ∧ Cert.Spec.Fin1 (Cert.Spec.row a8) ∧ Cert.Spec.Fin2 (Cert.Spec.tab a9) ∧ Cert.Spec.Fin1 (Cert.Spec.row a10) ∧ Cert.Spec.Fin1 (Cert.Spec.row a11) ∧ Cert.Spec.Fin1 (Cert.Spec.row a12) ∧ Cert.Spec.Fin1 (Cert.Spec.row a13) ∧ Cert.Spec.Fin1 (Cert.Spec.row a14) ∧ Cert.Spec.Fin1 (Cert.Spec.row a15) ∧ Cert.Spec.Fin1 (Cert.Spec.row a16)
      ∧ ∀ n : Fin 100000, 0 ≤ (a4 (Idealize.ShloMosaic.ValueIdx.ix1 n)).toInt ∧ (a4 (Idealize.ShloMosaic.ValueIdx.ix1 n)).toInt < 512 := by
  have e := congrFun h ValueIdx.ix0
  dsimp only [Cert.Pre_finite_inputs.fn, fn_part1, fn_part2, fn_part3, fn_part4, andi] at e
  simp only [IntOp.andi_eq_one] at e
  obtain ⟨⟨⟨⟨⟨⟨⟨⟨⟨⟨⟨⟨⟨⟨⟨⟨e0, e2⟩, e3⟩, e5⟩, e6⟩, e7⟩, e8⟩, e9⟩, e10⟩, e11⟩, e12⟩, e13⟩, e14⟩, e15⟩, e16⟩, ege⟩, elt⟩ := e
  exact ⟨fun i j => all_real a0 _ _ _ e0 (ix2 i j), fun i j => all_real a2 _ _ _ e2 (ix2 i j),
    fun i j => all_real a3 _ _ _ e3 (ix2 i j), fun i j => all_real a5 _ _ _ e5 (ix2 i j),
    fun j => all_real a6 _ _ _ e6 (ix1 j), fun i j => all_real a7 _ _ _ e7 (ix2 i j),
    fun j => all_real a8 _ _ _ e8 (ix1 j), fun i j => all_real a9 _ _ _ e9 (ix2 i j),
    fun j => all_real a10 _ _ _ e10 (ix1 j), fun j => all_real a11 _ _ _ e11 (ix1 j),
    fun j => all_real a12 _ _ _ e12 (ix1 j), fun j => all_real a13 _ _ _ e13 (ix1 j),
    fun j => all_real a14 _ _ _ e14 (ix1 j), fun j => all_real a15 _ _ _ e15 (ix1 j),
    fun j => all_real a16 _ _ _ e16 (ix1 j), fun n => all_range a4 _ _ _ ege elt n⟩

end Cert.PreDecode

end
-- ==== Proof.Bridge.lean ====
/-
  The two programs' results are one table.

  The blockwise program's layer-0 output is the reference's: the aggregate is the same quotient of the same edge
  sums by the same counts (a product with the reciprocal of a real count that is at least one), the one-hot row of a
  graph index in range picks that row of u, and one 384-term contraction of three blocks side by side is three
  128-term contractions.  After layer 0 both apply the same normalisations and linear maps; the two forms of the
  variance agree because every column is real, which the finiteness of the inputs gives layer by layer.
-/
import proofs.«426057_j62689342653098_3_alg».proof.Proof.KValue
import proofs.«426057_j62689342653098_3_alg».proof.Proof.RefRun
import proofs.«426057_j62689342653098_3_alg».proof.Proof.RefRead
import proofs.«426057_j62689342653098_3_alg».proof.Proof.PreDecode

set_option maxRecDepth 16384

noncomputable section

namespace Cert.Bridge

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg) (c : Dev nD)

/-- The launch contents of the arguments layer 0 reads, at their literal types. -/
abbrev ax : S100000x128.Idx → EReal := (m ((c : Thread nD τ).loc main_arg0))
abbrev aei : S2x640000.Idx → BitVec 32 := (m ((c : Thread nD τ).loc main_arg1))
abbrev aea : S640000x128.Idx → EReal := (m ((c : Thread nD τ).loc main_arg2))
abbrev au : S512x128.Idx → EReal := (m ((c : Thread nD τ).loc main_arg3))
abbrev abatch : S100000.Idx → BitVec 32 := (m ((c : Thread nD τ).loc main_arg4))
abbrev aW0 : S384x128.Idx → EReal := (m ((c : Thread nD τ).loc main_arg5))
abbrev ab0 : S128.Idx → EReal := (m ((c : Thread nD τ).loc main_arg6))

/-- The reference's layer-0 output over a choice of each node's graph. -/
def h0R (bt : Fin 100000 → Fin 512) : Tab R D := fun n j =>
  max (z0R (cat3 (tab (ax m c)) (fun n k => Ideal.div (segsum (dstOf (aei m c)) (tab (aea m c)) n k) (cnt (dstOf (aei m c)) n))
    (fun n k => tab (au m c) (bt n) k)) (tab (aW0 m c)) (row (ab0 m c)) n j) cZero

/-- Rows of a real 384 x 128 matrix are real. -/
theorem wslice_fin (W : Tab 384 D) (hW : Fin2 W) (o : Nat) (ho : o + 128 ≤ 384) : Fin2 (wslice W o ho) :=
  fun k j => hW _ j

/-- With graph indices in range the blockwise layer-0 output is the reference's. -/
theorem h0_eq (bt : Fin 100000 → Fin 512)
    (hbt : ∀ n : Fin 100000, (abatch m c (ix1 n)).toNat = (bt n).val) :
    KReg0.H0 (V3 (F := Ideal) m ρ) c = h0R m c bt := by
  funext n j
  show max (z0K (tab (V3 (F := Ideal) m ρ c main_arg0 : S100000x128.Idx → EReal)) (tab (V3 (F := Ideal) m ρ c main_v4 : S100000x128.Idx → EReal))
      (col (V3 (F := Ideal) m ρ c main_v11 : S100000x1.Idx → EReal)) (KReg0.ohK (V3 (F := Ideal) m ρ c main_v12 : S100000x1.Idx → BitVec 32))
      (tab (V3 (F := Ideal) m ρ c main_v17 : S512x128.Idx → EReal)) (tab (V3 (F := Ideal) m ρ c main_v13 : S128x128.Idx → EReal))
      (tab (V3 (F := Ideal) m ρ c main_v14 : S128x128.Idx → EReal)) (row (V3 (F := Ideal) m ρ c main_arg6 : S128.Idx → EReal)) n j) cZero = _
  have hoh : ∀ (n : Fin 100000) (b : Fin 512),
      KReg0.ohK (V3 (F := Ideal) m ρ c main_v12 : S100000x1.Idx → BitVec 32) n b = if b = bt n then (1 : EReal) else 0 := by
    intro n b
    have hw : (V3 (F := Ideal) m ρ c main_v12 : S100000x1.Idx → BitVec 32) (ix2 n (0 : Fin 1)) = abatch m c (ix1 n) :=
      KHost.V3_v12 m ρ c n
    have hlt : ((V3 (F := Ideal) m ρ c main_v12 : S100000x1.Idx → BitVec 32) (ix2 n (0 : Fin 1))).toNat < 512 := by
      rw [hw, hbt n]; exact (bt n).isLt
    rw [KReg0.ohK_eq _ n hlt b]
    have : (⟨((V3 (F := Ideal) m ρ c main_v12 : S100000x1.Idx → BitVec 32) (ix2 n (0 : Fin 1))).toNat, hlt⟩ : Fin 512) = bt n :=
      Fin.ext ((congrArg BitVec.toNat hw).trans (hbt n))
    rw [this]
  have hic : ∀ n : Fin 100000, col (V3 (F := Ideal) m ρ c main_v11 : S100000x1.Idx → EReal) n
      = Ideal.div cOne (cnt (dstOf (aei m c)) n) := fun n => KHost.V3_v11 m ρ c n
  have huW : ∀ (b : Fin 512) (j : Fin 128), tab (V3 (F := Ideal) m ρ c main_v17 : S512x128.Idx → EReal) b j
      = ∑ k, tab (au m c) b k * wslice (tab (aW0 m c)) 256 (by omega) k j := fun b j => KHost.V3_v17 m ρ c b j
  have hS : tab (V3 (F := Ideal) m ρ c main_v4 : S100000x128.Idx → EReal) = segsum (dstOf (aei m c)) (tab (aea m c)) :=
    funext fun n => funext fun k => KHost.V3_v4 m ρ c n k
  rw [z0K_eq _ _ _ (cnt (dstOf (aei m c))) _ _ (tab (au m c)) _ _ (wslice (tab (aW0 m c)) 256 (by omega)) _ bt hoh hic
    (cnt_real (dstOf (aei m c))) huW]
  rw [hS, KHost.V3_v13 m ρ c, KHost.V3_v14 m ρ c, KHost.V3_arg0 m ρ c, KHost.V3_arg6 m ρ c]
  unfold h0R
  rw [z0R_cat3]

/-- With finite inputs the layer-0 output is real. -/
theorem h0R_fin (bt : Fin 100000 → Fin 512) (hx : Fin2 (tab (ax m c))) (hea : Fin2 (tab (aea m c))) (hu : Fin2 (tab (au m c)))
    (hW : Fin2 (tab (aW0 m c))) (hb : Fin1 (row (ab0 m c))) : Fin2 (h0R m c bt) := by
  have e : h0R m c bt = fun n j => max (z0 (tab (ax m c))
      (fun n k => Ideal.div (segsum (dstOf (aei m c)) (tab (aea m c)) n k) (cnt (dstOf (aei m c)) n))
      (fun n k => tab (au m c) (bt n) k) (wslice (tab (aW0 m c)) 0 (by omega)) (wslice (tab (aW0 m c)) 128 (by omega))
      (wslice (tab (aW0 m c)) 256 (by omega)) (row (ab0 m c)) n j) cZero := by
    funext n j; unfold h0R; rw [z0R_cat3]
  rw [e]
  exact h0_fin _ _ _ _ _ _ _ hx
    (ve_fin _ _ (segsum_fin _ _ hea) (cnt_real _)) (fun n k => hu (bt n) k)
    (wslice_fin _ hW _ _) (wslice_fin _ hW _ _) (wslice_fin _ hW _ _) hb

/-- Under the precondition the blockwise program's result is the reference's result of the same arguments. -/
theorem result_eq
    (h : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = (fun _ => 1#1)) :
    (W10 (F := Ideal) m ρ c (Proc.devRef .tc main_v60) : S100000x128.Idx → EReal)
      = Cert.ReferenceIdeal.RefTerm.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨h0, h2, h3, h5, h6, h7, h8, h9, h10, h11, h12, h13, h14, h15, h16, hr⟩ := Cert.PreDecode.of_pre _ _ _ _ _ _ _ _ _ _ _ _ _ _ _ _ _ h
  let bt : Fin 100000 → Fin 512 := fun n => ⟨(abatch m c (ix1 n)).toNat, (Cert.PreDecode.toNat_lt _ (hr n).1 (hr n).2).1⟩
  have hbt : ∀ n : Fin 100000, (abatch m c (ix1 n)).toInt = ((bt n).val : ℤ) := fun n => (Cert.PreDecode.toNat_lt _ (hr n).1 (hr n).2).2
  funext i
  obtain ⟨n, j, rfl⟩ : ∃ (n : Fin 100000) (j : Fin 128), i = ix2 n j := ⟨i 0, i 1, eq_ix2 i⟩
  rw [KValue.kvalue m ρ c n j, Cert.ReferenceIdeal.RefRead.out_apply _ _ _ _ _ _ _ _ _ _ _ _ _ _ _ _ _ bt hbt n j,
    h0_eq m ρ c bt (fun _ => rfl)]
  have hP : (KValue.P m c).Finite := ⟨h11, h12, h7, h8, h13, h14, h9, h10, h15, h16⟩
  exact congrFun (congrFun (tail_eq (KValue.P m c) hP (h0R m c bt) (h0R_fin m c bt h0 h2 h3 h5 h6)) n) j

end Cert.Bridge

end
-- ==== Proof.lean ====
/-
  The node model of a message-passing network, computed two ways, gives one table of extended reals.

  Both programs aggregate each node's incoming edge features by a scatter-add and divide by the number of incoming
  edges (at least one); both apply three layers "linear map, bias, clamp at zero", each followed by a normalisation
  of every column by its mean and variance over the 100000 nodes.  The reference concatenates [x, aggregate,
  u(batch)] and multiplies by one 384 x 128 matrix; the blockwise program multiplies the three blocks separately,
  forms the aggregate as sum times reciprocal count, and replaces the row lookup u(batch) by a one-hot row of length
  512 times the precomputed table u · W.  The lookup and the one-hot product agree exactly when every graph index
  lies in [0, 512): that is the stated domain.  The blockwise program accumulates each layer's column sums and sums
  of squares block by block and takes the variance as mean of squares minus squared mean, clamped at zero; the
  reference takes the mean of squared deviations.  On real columns these are one number, and finite inputs keep
  every column real through all three layers.

  The three frames: the blockwise program's two instances by their launch certificates, the reference's by its run
  with the result dropped.  The idealization rewrote no operation, so there is nothing to preserve.
-/
import proofs.«426057_j62689342653098_3_alg».proof.Defs
import proofs.«426057_j62689342653098_3_alg».proof.Proof.Gen.Kernel
import proofs.«426057_j62689342653098_3_alg».proof.Proof.Gen.Kernel.Skeleton
import proofs.«426057_j62689342653098_3_alg».proof.Proof.Gen.Kernel.Launch
import proofs.«426057_j62689342653098_3_alg».proof.Proof.Gen.Kernel.Points
import proofs.«426057_j62689342653098_3_alg».proof.Proof.Gen.Kernel.Frame
import proofs.«426057_j62689342653098_3_alg».proof.Proof.Gen.KernelIdeal
import proofs.«426057_j62689342653098_3_alg».proof.Proof.Gen.KernelIdeal.Skeleton
import proofs.«426057_j62689342653098_3_alg».proof.Proof.Gen.KernelIdeal.Launch
import proofs.«426057_j62689342653098_3_alg».proof.Proof.Gen.KernelIdeal.Points
import proofs.«426057_j62689342653098_3_alg».proof.Proof.Gen.KernelIdeal.Frame
import proofs.«426057_j62689342653098_3_alg».proof.Proof.Gen.ReferenceIdeal
import proofs.«426057_j62689342653098_3_alg».proof.Proof.Gen.Pre_finite_inputs
import proofs.«426057_j62689342653098_3_alg».proof.Proof.KRun
import proofs.«426057_j62689342653098_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- No operation was rewritten. -/
theorem preserves : Cert.preserves_Kernel_KernelIdeal := trivial

/-- Both programs run; the blockwise program's result array and the reference's are the same table, the arguments
    agreeing and satisfying the precondition. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v60),
    Cert.KernelIdeal.Gen.run_value (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]
  exact (Cert.Bridge.result_eq m ρ c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
